-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x640000 : Shape := ⟨2, ![2, 640000]⟩
abbrev S640000x3 : Shape := ⟨2, ![640000, 3]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S640000x3 : S_.BroadcastsInDim S640000x3 (![] : Fin 0 → Fin S640000x3.rank)
  reducesTo_S640000x3_S_d0_1 : S640000x3.ReducesTo [0, 1] S_
  bcast_S_S260x128 : S_.BroadcastsInDim S260x128 (![] : Fin 0 → Fin S260x128.rank)
  reducesTo_S260x128_S_d0_1 : S260x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg2 : IVec S2x640000 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S2x640000 32 := broadcastInDim S2x640000 ![] bcast_S_S2x640000 main_c_28
  let main_v75 : IVec S2x640000 1 := cmpi .sge main_arg2 main_v74
  let main_c_29 : IVec S_ 32 := constantI S_ 32 50000#32
  let main_v76 : IVec S2x640000 32 := broadcastInDim S2x640000 ![] bcast_S_S2x640000 main_c_29
  let main_v77 : IVec S2x640000 1 := cmpi .slt main_arg2 main_v76
  let main_v78 : IVec S2x640000 1 := andi main_v75 main_v77
  let main_c_30 : IVec S_ 1 := constantI S_ 1 1#1
  let main_v79 : IVec S_ 1 := (fun x v => Host.reduce IntOp.andi x v reducesTo_S2x640000_S_d0_1 h_S_) main_v78 main_c_30
  let main_v80 : IVec S_ 1 := andi main_v73 main_v79
  main_v80

def fn_part3 {F : FTy → Type} [FloatOps F] (main_arg2 : IVec S2x640000 32) (main_arg12 : FVec F S128x128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg2 main_arg15 main_v63 main_v67

def fn_part2 {F : FTy → Type} [FloatOps F] (main_arg2 : IVec S2x640000 32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_v48 main_v49 main_v50

def fn_part1 {F : FTy → Type} [FloatOps F] (main_arg2 : IVec S2x640000 32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S260x128 1) : IVec S_ 1 :=
  let main_c_5 : IVec S_ 1 := constantI S_ 1 1#1
  let main_v17 : IVec S_ 1 := (fun x v => Host.reduce IntOp.andi x v reducesTo_S260x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_v33

def fn {F : FTy → Type} [FloatOps F] (main_arg0 : FVec F S50000x128 .f32) (main_arg1 : FVec F S50000x3 .f32) (main_arg2 : IVec S2x640000 32) (main_arg3 : FVec F S640000x3 .f32) (main_arg4 : FVec F S260x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S640000x3 .f32 := Host.absf main_arg3
  let main_cst_2 : FVec F S_ .f32 := constant S_ .f32 0x7F800000#32
  let main_v10 : FVec F S640000x3 .f32 := broadcastInDim S640000x3 ![] bcast_S_S640000x3 main_cst_2
  let main_v11 : IVec S640000x3 1 := cmpf .olt main_v9 main_v10
  let main_c_3 : IVec S_ 1 := constantI S_ 1 1#1
  let main_v12 : IVec S_ 1 := (fun x v => Host.reduce IntOp.andi x v reducesTo_S640000x3_S_d0_1 h_S_) main_v11 main_c_3
  let main_v13 : IVec S_ 1 := andi main_v8 main_v12
  let main_v14 : FVec F S260x128 .f32 := Host.absf main_arg4
  let main_cst_4 : FVec F S_ .f32 := constant S_ .f32 0x7F800000#32
  let main_v15 : FVec F S260x128 .f32 := broadcastInDim S260x128 ![] bcast_S_S260x128 main_cst_4
  let main_v16 : IVec S260x128 1 := cmpf .olt main_v14 main_v15
  fn_part1 (F := F) main_arg2 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S50000x3 : Shape := ⟨2, ![50000, 3]⟩
abbrev S2x640000 : Shape := ⟨2, ![2, 640000]⟩
abbrev S640000x3 : Shape := ⟨2, ![640000, 3]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S640000x260 : Shape := ⟨2, ![640000, 260]⟩
abbrev S1x128 : Shape := ⟨2, ![1, 128]⟩
abbrev S4000x260 : Shape := ⟨2, ![4000, 260]⟩
abbrev S4000x128 : Shape := ⟨2, ![4000, 128]⟩
abbrev S4000x1 : Shape := ⟨2, ![4000, 1]⟩
abbrev S50000x256 : Shape := ⟨2, ![50000, 256]⟩
abbrev S5000x256 : Shape := ⟨2, ![5000, 256]⟩
abbrev S5000x128 : Shape := ⟨2, ![5000, 128]⟩

abbrev nBuf : Space → Nat
  | .hbm => 140
  | .vmem => 22
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S640000x3, .f32⟩
  | 4 => ⟨S260x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S1, .i32⟩
  | 29 => ⟨S_, .i32⟩
  | 30 => ⟨S640000x1, .i32⟩
  | 31 => ⟨S640000x1, .i1⟩
  | 32 => ⟨S1x1, .i32⟩
  | 33 => ⟨S640000x1, .i32⟩
  | 34 => ⟨S640000x1, .i1⟩
  | 35 => ⟨S640000x1, .i1⟩
  | 36 => ⟨S_, .i1⟩
  | 37 => ⟨S640000, .i1⟩
  | 38 => ⟨S640000x128, .f32⟩
  | 39 => ⟨S640000x128, .i1⟩
  | 40 => ⟨S_, .f32⟩
  | 41 => ⟨S640000x128, .f32⟩
  | 42 => ⟨S640000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S1, .i32⟩
  | 52 => ⟨S_, .i32⟩
  | 53 => ⟨S640000x1, .i32⟩
  | 54 => ⟨S640000x1, .i1⟩
  | 55 => ⟨S1x1, .i32⟩
  | 56 => ⟨S640000x1, .i32⟩
  | 57 => ⟨S640000x1, .i1⟩
  | 58 => ⟨S640000x1, .i1⟩
  | 59 => ⟨S_, .i1⟩
  | 60 => ⟨S640000, .i1⟩
  | 61 => ⟨S640000x128, .f32⟩
  | 62 => ⟨S640000x128, .i1⟩
  | 63 => ⟨S_, .f32⟩
  | 64 => ⟨S640000x128, .f32⟩
  | 65 => ⟨S640000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S1, .i32⟩
  | 75 => ⟨S_, .i32⟩
  | 76 => ⟨S640000x1, .i32⟩
  | 77 => ⟨S640000x1, .i1⟩
  | 78 => ⟨S1x1, .i32⟩
  | 79 => ⟨S640000x1, .i32⟩
  | 80 => ⟨S640000x1, .i1⟩
  | 81 => ⟨S640000x1, .i1⟩
  | 82 => ⟨S_, .i1⟩
  | 83 => ⟨S640000, .i1⟩
  | 84 => ⟨S640000x3, .f32⟩
  | 85 => ⟨S640000x3, .i1⟩
  | 86 => ⟨S_, .f32⟩
  | 87 => ⟨S640000x3, .f32⟩
  | 88 => ⟨S640000x3, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S1, .i32⟩
  | 98 => ⟨S_, .i32⟩
  | 99 => ⟨S640000x1, .i32⟩
  | 100 => ⟨S640000x1, .i1⟩
  | 101 => ⟨S1x1, .i32⟩
  | 102 => ⟨S640000x1, .i32⟩
  | 103 => ⟨S640000x1, .i1⟩
  | 104 => ⟨S640000x1, .i1⟩
  | 105 => ⟨S_, .i1⟩
  | 106 => ⟨S640000, .i1⟩
  | 107 => ⟨S640000x3, .f32⟩
  | 108 => ⟨S640000x3, .i1⟩
  | 109 => ⟨S_, .f32⟩
  | 110 => ⟨S640000x3, .f32⟩
  | 111 => ⟨S640000x3, .f32⟩
  | 112 => ⟨S640000x3, .f32⟩
  | 113 => ⟨S640000x3, .f32⟩
  | 114 => ⟨S_, .f32⟩
  | 115 => ⟨S640000, .f32⟩
  | 116 => ⟨S640000x1, .f32⟩
  | 117 => ⟨S640000x1, .f32⟩
  | 118 => ⟨S640000x260, .f32⟩
  | 119 => ⟨S1x128, .f32⟩
  | 120 => ⟨S1x128, .f32⟩
  | 121 => ⟨S1x128, .f32⟩
  | 122 => ⟨S1x1, .f32⟩
  | 123 => ⟨S640000x128, .f32⟩
  | 124 => ⟨S640000x1, .f32⟩
  | 125 => ⟨S_, .f32⟩
  | 126 => ⟨S50000x128, .f32⟩
  | 127 => ⟨S640000x1, .i32⟩
  | _ => ⟨S50000x128, .f32⟩

abbrev hbmTy0_1 (i : Nat) : BufTy := match i % 128 with
  | 0 => ⟨S50000x128, .f32⟩
  | 1 => ⟨S640000x3, .f32⟩
  | 2 => ⟨S640000x3, .f32⟩
  | 3 => ⟨S_, .f32⟩
  | 4 => ⟨S50000x3, .f32⟩
  | 5 => ⟨S640000x1, .i32⟩
  | 6 => ⟨S50000x3, .f32⟩
  | 7 => ⟨S50000x256, .f32⟩
  | 8 => ⟨S1x128, .f32⟩
  | 9 => ⟨S1x128, .f32⟩
  | 10 => ⟨S50000x128, .f32⟩
  | 11 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x260, .f32⟩
  | .local _ .vmem, ⟨1, _⟩ => ⟨S4000x260, .f32⟩
  | .local _ .vmem, ⟨2, _⟩ => ⟨S260x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v6 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_cst : Ref sig .tc := ⟨.hbm, 114, rfl⟩
abbrev main_v10 : Ref sig .tc := ⟨.hbm, 115, rfl⟩
abbrev main_v11 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17 : Ref sig .tc := ⟨.hbm, 122, rfl⟩
abbrev main_v18_0 : Ref sig .tc := ⟨.hbm, 123, rfl⟩
abbrev main_v18_1 : Ref sig .tc := ⟨.hbm, 124, rfl⟩
abbrev main_cst_0 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S260x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  reducesTo_S640000x3_S640000_d1 : S640000x3.ReducesTo [1] S640000
  concatenates_S640000x128_S640000x128_S640000x1_S640000x3_S640000x260_d1 : Shape.Concatenates [S640000x128, S640000x128, S640000x1, S640000x3] S640000x260 1
  shapeCasts_S128_S1x128 : S128.ShapeCasts S1x128
  shapeCasts_S1_S1x1 : S1.ShapeCasts S1x1
  inb_S4000x260_S4000x260_0_0 : ∀ a, (![0, 0] : Fin 2 → Nat) a + S4000x260.size a ≤ S4000x260.size a
  h_S4000x260 : 0 < S4000x260.numel
  shapeCasts_S4000x260_S4000x260 : S4000x260.ShapeCasts S4000x260
  bitsLt_bf16_f32 : FTy.bits .bf16 < FTy.bits .f32
  inb_S260x128_S260x128_0_0 : ∀ a, (![0, 0] : Fin 2 → Nat) a + S260x128.size a ≤ S260x128.size a
  h_S260x128 : 0 < S260x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S50000x128 : S_.BroadcastsInDim S50000x128 (![] : Fin 0 → Fin S50000x128.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S4000x260_S260x128_S4000x128_1_0_0_1_n_n_wf : DotDims.WF S4000x260 S260x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S640000x1_S640000x128_1_0_0_1_wf : ScatterDims.WF S50000x128 S640000x1 S640000x128 [1] [0] [0] 1
  scatter_S50000x3_S640000x1_S640000x3_1_0_0_1_wf : ScatterDims.WF S50000x3 S640000x1 S640000x3 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x260.size a ≤ S640000x260.size a
  hwx0_0 : ∀ i : grid0.Coords, EltTy.bits .f32 = 32 ∨ (Rect.block (s := S640000x260) S4000x260.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S260x128.size a ≤ S260x128.size a
  hwx0_1 : ∀ i : grid0.Coords, EltTy.bits .f32 = 32 ∨ (Rect.block (s := S260x128) S260x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x1.size a ≤ S640000x1.size a
  hwx0_10 : ∀ i : grid0.Coords, EltTy.bits .f32 = 32 ∨ (Rect.block (s := S640000x1) S4000x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S4000x260_S260x128_S4000x128_1_0_0_1_n_n : DotDims S4000x260 S260x128 S4000x128 where
  lhsContracting := [1]
  rhsContracting := [0]
  lhsNonContracting := [0]
  rhsNonContracting := [1]
  lhsBatch := []
  rhsBatch := []
  wf := dot_S4000x260_S260x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S4000x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S260x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18_1) S4000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x640000 : Shape := ⟨2, ![2, 640000]⟩
abbrev S640000x3 : Shape := ⟨2, ![640000, 3]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x260 : Shape := ⟨2, ![640000, 260]⟩
abbrev S1x128 : Shape := ⟨2, ![1, 128]⟩
abbrev S50000x256 : Shape := ⟨2, ![50000, 256]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S640000x3, .f32⟩
  | 4 => ⟨S260x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x3, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x3, .f32⟩
  | 38 => ⟨S640000x3, .f32⟩
  | 39 => ⟨S640000x3, .f32⟩
  | 40 => ⟨S_, .f32⟩
  | 41 => ⟨S640000, .f32⟩
  | 42 => ⟨S640000x1, .f32⟩
  | 43 => ⟨S640000x1, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x128, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x128, .f32⟩
  | 62 => ⟨S640000x260, .f32⟩
  | 63 => ⟨S640000x128, .f32⟩
  | 64 => ⟨S1x128, .f32⟩
  | 65 => ⟨S640000x128, .f32⟩
  | 66 => ⟨S640000x128, .f32⟩
  | 67 => ⟨S640000x128, .f32⟩
  | 68 => ⟨S640000x128, .f32⟩
  | 69 => ⟨S_, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S640000x128, .f32⟩
  | 76 => ⟨S640000x128, .f32⟩
  | 77 => ⟨S1x128, .f32⟩
  | 78 => ⟨S640000x128, .f32⟩
  | 79 => ⟨S640000x128, .f32⟩
  | 80 => ⟨S640000x128, .f32⟩
  | 81 => ⟨S640000x128, .f32⟩
  | 82 => ⟨S_, .f32⟩
  | 83 => ⟨S640000x128, .f32⟩
  | 84 => ⟨S640000x128, .f32⟩
  | 85 => ⟨S_, .f32⟩
  | 86 => ⟨S640000x128, .f32⟩
  | 87 => ⟨S640000x128, .f32⟩
  | 88 => ⟨S640000x128, .f32⟩
  | 89 => ⟨S_, .f32⟩
  | 90 => ⟨S50000x128, .f32⟩
  | 91 => ⟨S640000x1, .i32⟩
  | 92 => ⟨S50000x128, .f32⟩
  | 93 => ⟨S50000x256, .f32⟩
  | 94 => ⟨S50000x128, .f32⟩
  | 95 => ⟨S1x128, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S640000x128, .f32⟩
  | 112 => ⟨S1x128, .f32⟩
  | 113 => ⟨S640000x128, .f32⟩
  | 114 => ⟨S640000x128, .f32⟩
  | 115 => ⟨S640000x128, .f32⟩
  | 116 => ⟨S640000x128, .f32⟩
  | 117 => ⟨S_, .f32⟩
  | 118 => ⟨S640000x128, .f32⟩
  | 119 => ⟨S640000x128, .f32⟩
  | 120 => ⟨S_, .f32⟩
  | 121 => ⟨S640000x128, .f32⟩
  | 122 => ⟨S640000x128, .f32⟩
  | 123 => ⟨S640000x128, .f32⟩
  | 124 => ⟨S640000x1, .f32⟩
  | 125 => ⟨S1x1, .f32⟩
  | 126 => ⟨S640000x1, .f32⟩
  | 127 => ⟨S640000x1, .f32⟩
  | _ => ⟨S50000x128, .f32⟩

abbrev hbmTy0_1 (i : Nat) : BufTy := match i % 128 with
  | 0 => ⟨S640000x3, .f32⟩
  | 1 => ⟨S640000x3, .f32⟩
  | 2 => ⟨S_, .f32⟩
  | 3 => ⟨S50000x3, .f32⟩
  | 4 => ⟨S640000x1, .i32⟩
  | 5 => ⟨S50000x3, .f32⟩
  | 6 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v44 : Ref sig .tc := ⟨.hbm, 88, rfl⟩
abbrev main_cst : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_call4_v0 : Ref sig .tc := ⟨.hbm, 115, rfl⟩
abbrev main_call4_v1 : Ref sig .tc := ⟨.hbm, 116, rfl⟩
abbrev main_call4_cst : Ref sig .tc := ⟨.hbm, 117, rfl⟩
abbrev main_call4_v2 : Ref sig .tc := ⟨.hbm, 118, rfl⟩
abbrev main_call4_v3 : Ref sig .tc := ⟨.hbm, 119, rfl⟩
abbrev main_call4_cst_0 : Ref sig .tc := ⟨.hbm, 120, rfl⟩
abbrev main_call4_v4 : Ref sig .tc := ⟨.hbm, 121, rfl⟩
abbrev main_call4_v5 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_cst_7 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x3_S640000x260_d1 : Shape.Concatenates [S640000x128, S640000x128, S640000x1, S640000x3] S640000x260 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x260_S260x128_S640000x128_1_0_0_1_n_n_wf : DotDims.WF S640000x260 S260x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x260_S260x128_S640000x128_1_0_0_1_n_n : DotDims S640000x260 S260x128 S640000x128 where
  lhsContracting := [1]
  rhsContracting := [0]
  lhsNonContracting := [0]
  rhsNonContracting := [1]
  lhsBatch := []
  rhsBatch := []
  wf := dot_S640000x260_S260x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf

class Facts : Prop extends Facts₀ where

variable [Facts]
-- ==== Proof.K.MsgRegion.lean ====
/-
  The message kernel's region (the first pallas_call: 160 grid points, each a block of 4000 edges through the
  message network and then the coordinate network), read at ANY float instance, over the buffer contents `V`
  the region is entered from.

  Per grid point the body loads its nine inputs whole (the 4000×260 block of edge rows; the message network's two
  weight matrices and bias rows; the coordinate network's two weight matrices and biases) and makes two stores,
  each of a whole output block: the 4000×128 block of messages (`k0_pay2` of the rows and the message network's
  parameters) and the 4000×1 block of coordinate weights (`k0_pay1` over `k0_pay4`, the messages pushed through
  the coordinate network). So what the body leaves in each output's staging buffer is one value of the input blocks
  (`msgBlock`, `coordBlock`), the input blocks stay as fetched, and the pipeline's proof data follow. The rows are
  fetched at every point and the parameters once (their index map is constant); either way an input's staging
  buffer holds its block at every point (`held_*`).
-/
import proofs.«417115_j7541962572405_1_alg».proof.Proof.Gen.Kernel.Launch
import proofs.«417115_j7541962572405_1_alg».proof.Proof.Gen.Kernel.Skeleton
import proofs.«417115_j7541962572405_1_alg».proof.Proof.Gen.Kernel.Points
import Idealize.ShloMosaic.Lib.Pipeline.FrameBody
import Idealize.ShloMosaic.Lib.Tactic

set_option maxRecDepth 16384

noncomputable section

namespace Cert.Kernel.MsgRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`: its array, as the region finds it, read through the block's rectangle. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Held
variable {c : Dev nD} (dat : Dat τ (Elt F) Unit ℕ (UR sig nD τ) ℕ cfg0 c)

/-- The block of 4000 message-input rows (window 0): fetched at every point. -/
theorem held_rows (hA : dat.A 0 = V c (Pipeline.arrRef spec0 0)) (hafter : ∀ t, dat.after 0 t = blk V c 0 t)
    (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The message network's first weights (window 1): fetched once, held at every point. -/
theorem held_wm1 (hA : dat.A 1 = V c (Pipeline.arrRef spec0 1)) (hafter : ∀ t, dat.after 1 t = blk V c 1 t)
    (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Its first bias row (window 2). -/
theorem held_bm1 (hA : dat.A 2 = V c (Pipeline.arrRef spec0 2)) (hafter : ∀ t, dat.after 2 t = blk V c 2 t)
    (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Its second weights (window 3). -/
theorem held_wm2 (hA : dat.A 3 = V c (Pipeline.arrRef spec0 3)) (hafter : ∀ t, dat.after 3 t = blk V c 3 t)
    (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Its second bias row (window 4). -/
theorem held_bm2 (hA : dat.A 4 = V c (Pipeline.arrRef spec0 4)) (hafter : ∀ t, dat.after 4 t = blk V c 4 t)
    (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The coordinate network's first weights (window 5). -/
theorem held_wc1 (hA : dat.A 5 = V c (Pipeline.arrRef spec0 5)) (hafter : ∀ t, dat.after 5 t = blk V c 5 t)
    (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Its first bias row (window 6). -/
theorem held_bc1 (hA : dat.A 6 = V c (Pipeline.arrRef spec0 6)) (hafter : ∀ t, dat.after 6 t = blk V c 6 t)
    (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
/-- Its last weights, one column (window 7). -/
theorem held_wc2 (hA : dat.A 7 = V c (Pipeline.arrRef spec0 7)) (hafter : ∀ t, dat.after 7 t = blk V c 7 t)
    (t : Fin cfg0.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
/-- Its last bias, one number (window 8). -/
theorem held_bc2 (hA : dat.A 8 = V c (Pipeline.arrRef spec0 8)) (hafter : ∀ t, dat.after 8 t = blk V c 8 t)
    (t : Fin cfg0.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
end Held

/-! ## What the body reads and writes: every access is the whole buffer -/

abbrev rRows : Rect S4000x260 := Rect.unit (s := S4000x260) ![0, 0] S4000x260.size inb_S4000x260_S4000x260_0_0
abbrev rWm1 : Rect S260x128 := Rect.unit (s := S260x128) ![0, 0] S260x128.size inb_S260x128_S260x128_0_0
abbrev rBias : Rect S1x128 := Rect.unit (s := S1x128) ![0, 0] S1x128.size inb_S1x128_S1x128_0_0
abbrev rSq : Rect S128x128 := Rect.unit (s := S128x128) ![0, 0] S128x128.size inb_S128x128_S128x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rMsg : Rect S4000x128 := Rect.unit (s := S4000x128) ![0, 0] S4000x128.size inb_S4000x128_S4000x128_0_0
abbrev rCoord : Rect S4000x1 := Rect.unit (s := S4000x1) ![0, 0] S4000x1.size inb_S4000x1_S4000x1_0_0

/-- The block of messages after the body, from the rows and the message network's parameters: its one store. -/
def msgBlock (x : Vec F S4000x260 .f32) (wm1 : Vec F S260x128 .f32) (bm1 : Vec F S1x128 .f32) (wm2 : Vec F S128x128 .f32) (bm2 : Vec F S1x128 .f32) :
    Vec F S4000x128 .f32 :=
  View.canon [⟨rMsg, k0_pay2 (View.ld x rRows) (View.ld wm1 rWm1) (View.ld bm1 rBias) (View.ld wm2 rSq) (View.ld bm2 rBias)⟩]

/-- The block of coordinate weights after the body, from all nine inputs: its one store. -/
def coordBlock (x : Vec F S4000x260 .f32) (wm1 : Vec F S260x128 .f32) (bm1 : Vec F S1x128 .f32) (wm2 : Vec F S128x128 .f32) (bm2 : Vec F S1x128 .f32)
    (wc1 : Vec F S128x128 .f32) (bc1 : Vec F S1x128 .f32) (wc2 : Vec F S128x1 .f32) (bc2 : Vec F S1x1 .f32) : Vec F S4000x1 .f32 :=
  View.canon [⟨rCoord, k0_pay1 (k0_pay3 (View.ld wc2 rCol))
    (k0_pay4 (View.ld x rRows) (View.ld wm1 rWm1) (View.ld bm1 rBias) (View.ld wm2 rSq) (View.ld bm2 rBias) (View.ld wc1 rSq) (View.ld bc1 rBias))
    (constant S4000x1 .f32 0x00000000#32) (View.ld bc2 rOne)⟩]

/-- Each store covers its output buffer. -/
theorem msgCover (p : Vec F S4000x128 .f32) (y : S4000x128.Idx) :
    ∃ pc ∈ ([⟨rMsg, p⟩] : List (View.Piece (Elt F) S4000x128 .f32)), y ∈ pc.1.set :=
  View.cover_of_tiled [⟨rMsg, p⟩] S4000x128.size (by rfl) y
theorem coordCover (p : Vec F S4000x1 .f32) (y : S4000x1.Idx) :
    ∃ pc ∈ ([⟨rCoord, p⟩] : List (View.Piece (Elt F) S4000x1 .f32)), y ∈ pc.1.set :=
  View.cover_of_tiled [⟨rCoord, p⟩] S4000x1.size (by rfl) y

/-! ## The body's triple -/

set_option maxHeartbeats 2000000 in
/-- The body on whole staging memrefs — the inputs' at read contents, the outputs' at anything — runs to the continuation
    with the inputs' as they were and the outputs' at `msgBlock` and `coordBlock` of them. -/
theorem body_triple (c : Dev nD) (E : Set ℕ) (i : grid0.Coords)
    (arg1 : Memref sig .tc .vmem S4000x260 .f32) (harg1 : arg1.IsWhole) (arg2 : Memref sig .tc .vmem S260x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x1 .f32) (harg8 : arg8.IsWhole)
    (arg9 : Memref sig .tc .vmem S1x1 .f32) (harg9 : arg9.IsWhole) (arg10 : Memref sig .tc .vmem S4000x128 .f32) (harg10 : arg10.IsWhole)
    (arg11 : Memref sig .tc .vmem S4000x1 .f32) (harg11 : arg11.IsWhole)
    (x : Vec F S4000x260 .f32) (wm1 : Vec F S260x128 .f32) (bm1 : Vec F S1x128 .f32) (wm2 : Vec F S128x128 .f32) (bm2 : Vec F S1x128 .f32)
    (wc1 : Vec F S128x128 .f32) (bc1 : Vec F S1x128 .f32) (wc2 : Vec F S128x1 .f32) (bc2 : Vec F S1x1 .f32)
    (K : PUnit → sProp 𝕄) :
    iprop(owns (c : Thread nD τ) arg1 fullShare x ∗ owns (c : Thread nD τ) arg2 fullShare wm1 ∗ owns (c : Thread nD τ) arg3 fullShare bm1
        ∗ owns (c : Thread nD τ) arg4 fullShare wm2 ∗ owns (c : Thread nD τ) arg5 fullShare bm2 ∗ owns (c : Thread nD τ) arg6 fullShare wc1
        ∗ owns (c : Thread nD τ) arg7 fullShare bc1 ∗ owns (c : Thread nD τ) arg8 fullShare wc2 ∗ owns (c : Thread nD τ) arg9 fullShare bc2
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare wm1 ∗ owns (c : Thread nD τ) arg3 fullShare bm1
            ∗ owns (c : Thread nD τ) arg4 fullShare wm2 ∗ owns (c : Thread nD τ) arg5 fullShare bm2 ∗ owns (c : Thread nD τ) arg6 fullShare wc1
            ∗ owns (c : Thread nD τ) arg7 fullShare bc1 ∗ owns (c : Thread nD τ) arg8 fullShare wc2 ∗ owns (c : Thread nD τ) arg9 fullShare bc2
            ∗ owns (c : Thread nD τ) arg10 fullShare (msgBlock x wm1 bm1 wm2 bm2)
            ∗ owns (c : Thread nD τ) arg11 fullShare (coordBlock x wm1 bm1 wm2 bm2 wc1 bc1 wc2 bc2)) -∗ K ⟨⟩))
      ⊢ wp frame (wpE (defs₀ (F := F)) Variants.none c none) E
          (cc0__message_kernel i arg1 harg1 arg2 harg2 arg3 harg3 arg4 harg4 arg5 harg5 arg6 harg6 arg7 harg7 arg8 harg8 arg9 harg9 arg10 harg10 arg11 harg11) K := by
  simp only [cc0__message_kernel_eq_skeleton]; unfold cc0__message_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (msgCover _)
  iexists _; isplitr
  swap; · iexact H11
  ipureintro
  try dsimp only
  exact View.read_writes_eq_canon _ _ _ (coordCover _)

/-! ## The pipeline's proof data -/

/-- The region's proof data on core `c`: arrays as entered; after the body each input's buffer at its block, the
    outputs' at `msgBlock` and `coordBlock` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => msgBlock (blk V c 0 t) (blk V c 1 t) (blk V c 2 t) (blk V c 3 t) (blk V c 4 t)
    | ⟨10, _⟩ => coordBlock (blk V c 0 t) (blk V c 1 t) (blk V c 2 t) (blk V c 3 t) (blk V c 4 t) (blk V c 5 t) (blk V c 6 t) (blk V c 7 t) (blk V c 8 t)
  Φ _ := Pipeline.ΦA spec0 c
  q _ := fullShare
  owed _ := 0

theorem dat_A (c : Dev nD) (w : Fin cfg0.W) : (dat V c).A w = V c (Pipeline.arrRef spec0 w) := by dsimp only [dat]
theorem after_rows (c : Dev nD) (t : Fin cfg0.N) : (dat V c).after 0 t = blk V c 0 t := by dsimp only [dat]
theorem after_wm1 (c : Dev nD) (t : Fin cfg0.N) : (dat V c).after 1 t = blk V c 1 t := by dsimp only [dat]
theorem after_bm1 (c : Dev nD) (t : Fin cfg0.N) : (dat V c).after 2 t = blk V c 2 t := by dsimp only [dat]
theorem after_wm2 (c : Dev nD) (t : Fin cfg0.N) : (dat V c).after 3 t = blk V c 3 t := by dsimp only [dat]
theorem after_bm2 (c : Dev nD) (t : Fin cfg0.N) : (dat V c).after 4 t = blk V c 4 t := by dsimp only [dat]
theorem after_wc1 (c : Dev nD) (t : Fin cfg0.N) : (dat V c).after 5 t = blk V c 5 t := by dsimp only [dat]
theorem after_bc1 (c : Dev nD) (t : Fin cfg0.N) : (dat V c).after 6 t = blk V c 6 t := by dsimp only [dat]
theorem after_wc2 (c : Dev nD) (t : Fin cfg0.N) : (dat V c).after 7 t = blk V c 7 t := by dsimp only [dat]
theorem after_bc2 (c : Dev nD) (t : Fin cfg0.N) : (dat V c).after 8 t = blk V c 8 t := by dsimp only [dat]
theorem after_msg (c : Dev nD) (t : Fin cfg0.N) :
    (dat V c).after 9 t = msgBlock (blk V c 0 t) (blk V c 1 t) (blk V c 2 t) (blk V c 3 t) (blk V c 4 t) := by dsimp only [dat]
theorem after_coord (c : Dev nD) (t : Fin cfg0.N) :
    (dat V c).after 10 t = coordBlock (blk V c 0 t) (blk V c 1 t) (blk V c 2 t) (blk V c 3 t) (blk V c 4 t) (blk V c 5 t) (blk V c 6 t) (blk V c 7 t) (blk V c 8 t) := by dsimp only [dat]

theorem before_rows (c : Dev nD) (t : Fin cfg0.N) (d) : (dat V c).before 0 t d = blk V c 0 t :=
  held_rows V (dat V c) (dat_A V c 0) (after_rows V c) t d
theorem before_wm1 (c : Dev nD) (t : Fin cfg0.N) (d) : (dat V c).before 1 t d = blk V c 1 t :=
  held_wm1 V (dat V c) (dat_A V c 1) (after_wm1 V c) t d
theorem before_bm1 (c : Dev nD) (t : Fin cfg0.N) (d) : (dat V c).before 2 t d = blk V c 2 t :=
  held_bm1 V (dat V c) (dat_A V c 2) (after_bm1 V c) t d
theorem before_wm2 (c : Dev nD) (t : Fin cfg0.N) (d) : (dat V c).before 3 t d = blk V c 3 t :=
  held_wm2 V (dat V c) (dat_A V c 3) (after_wm2 V c) t d
theorem before_bm2 (c : Dev nD) (t : Fin cfg0.N) (d) : (dat V c).before 4 t d = blk V c 4 t :=
  held_bm2 V (dat V c) (dat_A V c 4) (after_bm2 V c) t d
theorem before_wc1 (c : Dev nD) (t : Fin cfg0.N) (d) : (dat V c).before 5 t d = blk V c 5 t :=
  held_wc1 V (dat V c) (dat_A V c 5) (after_wc1 V c) t d
theorem before_bc1 (c : Dev nD) (t : Fin cfg0.N) (d) : (dat V c).before 6 t d = blk V c 6 t :=
  held_bc1 V (dat V c) (dat_A V c 6) (after_bc1 V c) t d
theorem before_wc2 (c : Dev nD) (t : Fin cfg0.N) (d) : (dat V c).before 7 t d = blk V c 7 t :=
  held_wc2 V (dat V c) (dat_A V c 7) (after_wc2 V c) t d
theorem before_bc2 (c : Dev nD) (t : Fin cfg0.N) (d) : (dat V c).before 8 t d = blk V c 8 t :=
  held_bc2 V (dat V c) (dat_A V c 8) (after_bc2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the inputs' memrefs hold their blocks, so the triple applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_wm1, before_bm1, before_wm2, before_bm2, before_wc1, before_bc1, before_wc2, before_bc2]
  rw [show (dat V c).Φ t.succ = (dat V c).Φ t.castSucc from rfl,
    show (dat V c).owesAt () t.succ = (dat V c).owesAt () t.castSucc from rfl,
    after_rows, after_wm1, after_bm1, after_wm2, after_bm2, after_wc1, after_bc1, after_wc2, after_bc2, after_msg, after_coord]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.MsgRegion

end
-- ==== Proof.K.NodeRegion.lean ====
/-
  The node kernel's region (the second pallas_call: ten grid points, each a block of 5000 rows of the
  concatenated node features through the two-layer node network), read at ANY float instance, over the
  buffer contents `V` the region is entered from.

  Per grid point the body loads its five inputs whole (the 5000×256 block of rows, the two weight
  matrices, the two bias rows), computes ONE value `k1_pay1` of them and stores it whole into the output
  block. So what the body leaves in the output's staging buffer is that value of the input blocks
  (`outBlock`), the input blocks stay as fetched, and the pipeline's proof data follow: the arrays as
  entered, after the body each input's buffer at its block and the output's at `outBlock` of the blocks.
  The weights and biases are fetched once (their index map is constant) and the row block at every point;
  either way an input's staging buffer holds its block at every point (`held_*`).
-/
import proofs.«417115_j7541962572405_1_alg».proof.Proof.Gen.Kernel.Launch
import proofs.«417115_j7541962572405_1_alg».proof.Proof.Gen.Kernel.Skeleton
import proofs.«417115_j7541962572405_1_alg».proof.Proof.Gen.Kernel.Points
import Idealize.ShloMosaic.Lib.Pipeline.FrameBody
import Idealize.ShloMosaic.Lib.Tactic

set_option maxRecDepth 16384

noncomputable section

namespace Cert.Kernel.NodeRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`: its array, as the region finds it, read through the block's rectangle. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Held
variable {c : Dev nD} (dat : Dat τ (Elt F) Unit ℕ (UR sig nD τ) ℕ cfg1 c)

/-- The row block (window 0) is in its staging buffer at every point, for any proof data over `V` whose body leaves it in place. -/
theorem held_rows (hA : dat.A 0 = V c (Pipeline.arrRef spec1 0)) (hafter : ∀ t, dat.after 0 t = blk V c 0 t)
    (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The first layer's weights (window 1): fetched once, held at every point. -/
theorem held_w1 (hA : dat.A 1 = V c (Pipeline.arrRef spec1 1)) (hafter : ∀ t, dat.after 1 t = blk V c 1 t)
    (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The first layer's bias row (window 2). -/
theorem held_b1 (hA : dat.A 2 = V c (Pipeline.arrRef spec1 2)) (hafter : ∀ t, dat.after 2 t = blk V c 2 t)
    (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The second layer's weights (window 3). -/
theorem held_w2 (hA : dat.A 3 = V c (Pipeline.arrRef spec1 3)) (hafter : ∀ t, dat.after 3 t = blk V c 3 t)
    (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The second layer's bias row (window 4). -/
theorem held_b2 (hA : dat.A 4 = V c (Pipeline.arrRef spec1 4)) (hafter : ∀ t, dat.after 4 t = blk V c 4 t)
    (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
end Held

/-! ## What the body reads and writes: every access is the whole buffer -/

abbrev rRows : Rect S5000x256 := Rect.unit (s := S5000x256) ![0, 0] S5000x256.size inb_S5000x256_S5000x256_0_0
abbrev rW1 : Rect S256x128 := Rect.unit (s := S256x128) ![0, 0] S256x128.size inb_S256x128_S256x128_0_0
abbrev rBias : Rect S1x128 := Rect.unit (s := S1x128) ![0, 0] S1x128.size inb_S1x128_S1x128_0_0
abbrev rW2 : Rect S128x128 := Rect.unit (s := S128x128) ![0, 0] S128x128.size inb_S128x128_S128x128_0_0
abbrev rOut : Rect S5000x128 := Rect.unit (s := S5000x128) ![0, 0] S5000x128.size inb_S5000x128_S5000x128_0_0

/-- The output block after the body, from the five input blocks: its one store, of the body's one value. -/
def outBlock (x : Vec F S5000x256 .f32) (w1 : Vec F S256x128 .f32) (b1 : Vec F S1x128 .f32) (w2 : Vec F S128x128 .f32) (b2 : Vec F S1x128 .f32) :
    Vec F S5000x128 .f32 :=
  View.canon [⟨rOut, k1_pay1 (View.ld x rRows) (View.ld w1 rW1) (View.ld b1 rBias) (View.ld w2 rW2) (View.ld b2 rBias)⟩]

/-- The one store covers the output buffer. -/
theorem outCover (p : Vec F S5000x128 .f32) (y : S5000x128.Idx) :
    ∃ pc ∈ ([⟨rOut, p⟩] : List (View.Piece (Elt F) S5000x128 .f32)), y ∈ pc.1.set :=
  View.cover_of_tiled [⟨rOut, p⟩] S5000x128.size (by rfl) y

/-! ## The body's triple -/

set_option maxHeartbeats 1000000 in
/-- The body on whole staging memrefs — the inputs' at read contents, the output's at anything — runs to the continuation
    with the inputs' as they were and the output's at `outBlock` of them. -/
theorem body_triple (c : Dev nD) (E : Set ℕ) (i : grid1.Coords)
    (arg1 : Memref sig .tc .vmem S5000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x : Vec F S5000x256 .f32) (w1 : Vec F S256x128 .f32) (b1 : Vec F S1x128 .f32) (w2 : Vec F S128x128 .f32) (b2 : Vec F S1x128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlock x w1 b1 w2 b2)) -∗ K ⟨⟩))
      ⊢ wp frame (wpE (defs₀ (F := F)) Variants.none c none) E (cc1__node_kernel i arg1 harg1 arg2 harg2 arg3 harg3 arg4 harg4 arg5 harg5 arg6 harg6) K := by
  simp only [cc1__node_kernel_eq_skeleton]; unfold cc1__node_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The region's proof data on core `c`: arrays as entered; after the body each input's buffer at its block, the
    output's at `outBlock` of the input blocks; the invariant the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlock (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by dsimp only [dat]
theorem after_rows (c : Dev nD) (t : Fin cfg1.N) : (dat V c).after 0 t = blk V c 0 t := by dsimp only [dat]
theorem after_w1 (c : Dev nD) (t : Fin cfg1.N) : (dat V c).after 1 t = blk V c 1 t := by dsimp only [dat]
theorem after_b1 (c : Dev nD) (t : Fin cfg1.N) : (dat V c).after 2 t = blk V c 2 t := by dsimp only [dat]
theorem after_w2 (c : Dev nD) (t : Fin cfg1.N) : (dat V c).after 3 t = blk V c 3 t := by dsimp only [dat]
theorem after_b2 (c : Dev nD) (t : Fin cfg1.N) : (dat V c).after 4 t = blk V c 4 t := by dsimp only [dat]
theorem after_out (c : Dev nD) (t : Fin cfg1.N) :
    (dat V c).after 5 t = outBlock (blk V c 0 t) (blk V c 1 t) (blk V c 2 t) (blk V c 3 t) (blk V c 4 t) := by dsimp only [dat]

theorem before_rows (c : Dev nD) (t : Fin cfg1.N) (d) : (dat V c).before 0 t d = blk V c 0 t :=
  held_rows V (dat V c) (dat_A V c 0) (after_rows V c) t d
theorem before_w1 (c : Dev nD) (t : Fin cfg1.N) (d) : (dat V c).before 1 t d = blk V c 1 t :=
  held_w1 V (dat V c) (dat_A V c 1) (after_w1 V c) t d
theorem before_b1 (c : Dev nD) (t : Fin cfg1.N) (d) : (dat V c).before 2 t d = blk V c 2 t :=
  held_b1 V (dat V c) (dat_A V c 2) (after_b1 V c) t d
theorem before_w2 (c : Dev nD) (t : Fin cfg1.N) (d) : (dat V c).before 3 t d = blk V c 3 t :=
  held_w2 V (dat V c) (dat_A V c 3) (after_w2 V c) t d
theorem before_b2 (c : Dev nD) (t : Fin cfg1.N) (d) : (dat V c).before 4 t d = blk V c 4 t :=
  held_b2 V (dat V c) (dat_A V c 4) (after_b2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the triple applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_w1, before_b1, before_w2, before_b2]
  rw [show (dat V c).Φ t.succ = (dat V c).Φ t.castSucc from rfl,
    show (dat V c).owesAt () t.succ = (dat V c).owesAt () t.castSucc from rfl,
    after_rows, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.NodeRegion

end
-- ==== Proof.K.Whole.lean ====
/-
  The whole program at ANY float instance: @main's ten items (six stretches of host operations, the message
  kernel's region, a stretch, the node kernel's region, a last stretch) run in order from any memory, and every
  unscoped buffer ends at the last of the valuations `V0 … V10` this program's conditional frame threads through
  the items — with the contents the two regions leave (`outs`) named: region 0 leaves, in its two output arrays,
  what its 160 write-backs make of them (`Dat.arrAt … N` of the message region's proof data at the contents it is
  entered from), region 1 likewise for its one output array, and every other buffer as the region found it.

  Each region is entered from "every unscoped buffer at the boundary's contents, the generator register at some
  state, nothing owed": its arrays are split out of the unscoped buffers and put back at the exit contents; the
  register goes into the region's invariant and comes back; no semaphore of the kernel's own.
  The frame claim (every argument array ends as launched) is read off that run: no item writes an argument.
-/
import proofs.«417115_j7541962572405_1_alg».proof.Proof.K.MsgRegion
import proofs.«417115_j7541962572405_1_alg».proof.Proof.K.NodeRegion
import proofs.«417115_j7541962572405_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions are entered from, and what they leave -/

/-- The contents the message region is entered from: after the six host stretches before it. -/
abbrev entry0 : (c : Dev nD) → (b : Ref sig .tc) → Buf (Elt F) ((c : Thread nD τ).loc b) := fun c b => V6 m c b

/-- At the message region's exit: its arrays at what the pipeline leaves, every other buffer as entered. -/
def exit0 (c : Dev nD) : Valuation τ sig (Elt F) :=
  Pipeline.withArrays spec0 c (V6 m c) fun w => (MsgRegion.dat (entry0 m) c).arrAt w cfg0.N
theorem exit0_arr (c : Dev nD) (w : Fin cfg0.W) :
    exit0 m c (Proc.devRef .tc (Pipeline.arrRef spec0 w)) = (MsgRegion.dat (entry0 m) c).arrAt w cfg0.N := by
  unfold exit0; exact Pipeline.withArrays_arr spec0 launch0.win.arr_inj c _ _ w

/-- The unknowns of the conditional frame, with only the message region's known (what the node region is entered from reads no more). -/
def outs0 : Outs (F := F) := fun _ r c => exit0 m c r

/-- The contents the node region is entered from: after the stretch between the regions. -/
abbrev entry1 : (c : Dev nD) → (b : Ref sig .tc) → Buf (Elt F) ((c : Thread nD τ).loc b) := fun c b => V8 m (outs0 m) c b

/-- At the node region's exit: its arrays at what the pipeline leaves, every other buffer as entered. -/
def exit1 (c : Dev nD) : Valuation τ sig (Elt F) :=
  Pipeline.withArrays spec1 c (V8 m (outs0 m) c) fun w => (NodeRegion.dat (entry1 m) c).arrAt w cfg1.N
theorem exit1_arr (c : Dev nD) (w : Fin cfg1.W) :
    exit1 m c (Proc.devRef .tc (Pipeline.arrRef spec1 w)) = (NodeRegion.dat (entry1 m) c).arrAt w cfg1.N := by
  unfold exit1; exact Pipeline.withArrays_arr spec1 launch1.win.arr_inj c _ _ w

/-- What the regions leave: after item 8 (the node region) its exit contents, before that the message region's. -/
def outs : Outs (F := F) := fun J r c => if J = 9 then exit1 m c r else exit0 m c r
theorem outs_seven (r : Ref sig .tc) (c : Dev nD) : outs m 7 r c = exit0 m c r := if_neg (by decide)
theorem outs_nine (r : Ref sig .tc) (c : Dev nD) : outs m 9 r c = exit1 m c r := if_pos rfl

/-- The valuation after the message region does not depend on what the node region leaves. -/
theorem V7_outs (c : Dev nD) : V7 m (outs m) c = V7 m (outs0 m) c := by
  show Function.update (Function.update (V6 m c) main_v18_0 (outs m 7 main_v18_0 c)) main_v18_1 (outs m 7 main_v18_1 c) = _
  rw [outs_seven, outs_seven]; rfl
theorem V8_outs (c : Dev nD) : V8 m (outs m) c = V8 m (outs0 m) c :=
  congrArg (StableHlo.after hostOps1) (V7_outs m c)

/-- The message region's two output arrays after it. -/
theorem V7_msg (c : Dev nD) : V7 m (outs m) c main_v18_0 = (MsgRegion.dat (entry0 m) c).arrAt 9 cfg0.N := by
  show Function.update (Function.update (V6 m c) main_v18_0 (outs m 7 main_v18_0 c)) main_v18_1 (outs m 7 main_v18_1 c) main_v18_0 = _
  rw [Function.update_of_ne (StableHlo.devRef_ne_of_ne (by decide : (main_v18_0 : Ref sig .tc) ≠ main_v18_1)), Function.update_self, outs_seven]
  exact exit0_arr m c 9
theorem V7_coord (c : Dev nD) : V7 m (outs m) c main_v18_1 = (MsgRegion.dat (entry0 m) c).arrAt 10 cfg0.N := by
  show Function.update (Function.update (V6 m c) main_v18_0 (outs m 7 main_v18_0 c)) main_v18_1 (outs m 7 main_v18_1 c) main_v18_1 = _
  rw [Function.update_self, outs_seven]
  exact exit0_arr m c 10
/-- The node region's output array after it. -/
theorem V9_out (c : Dev nD) : V9 m (outs m) c main_v30 = (NodeRegion.dat (entry1 m) c).arrAt 5 cfg1.N := by
  show Function.update (V8 m (outs m) c) main_v30 (outs m 9 main_v30 c) main_v30 = _
  rw [Function.update_self, outs_nine]
  exact exit1_arr m c 5

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => MsgRegion.dat (entry0 m) c
  | ⟨1, _⟩ => fun c => NodeRegion.dat (entry1 m) c

abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The message region's windows: nine inputs, and the two outputs whose arrays are `main_v18_0`, `main_v18_1`. -/
theorem out0_cases : ∀ w : Fin cfg0.W, (cfg0.win w).isOut = true → w = 9 ∨ w = 10 := by decide
theorem in0_arr : ∀ w : Fin cfg0.W, (cfg0.win w).isOut = false →
    Pipeline.arrRef spec0 w ∉ ([main_v18_0, main_v18_1] : List (Ref sig .tc)) := by decide

/-- At the message region's exit each of its arrays holds what the pipeline leaves, -/
theorem arrays0 (c : Dev nD) (w : Fin cfg0.W) :
    (MsgRegion.dat (entry0 m) c).arrAt w cfg0.N = V7 m (outs m) c (Pipeline.arrRef spec0 w) := by
  by_cases hout : (cfg0.win w).isOut = true
  · rcases out0_cases w hout with rfl | rfl
    · exact (V7_msg m c).symm
    · exact (V7_coord m c).symm
  · have hin : (cfg0.win w).isOut = false := by simpa using hout
    exact ((MsgRegion.dat (entry0 m) c).arrAt_in w hin _).trans
      ((MsgRegion.dat_A (entry0 m) c w).trans (V7_of m (outs m) c _ (in0_arr w hin)).symm)
/-- and every other buffer what it held at entry. -/
theorem rest0 (c : Dev nD) : ∀ b : Ref sig .tc, b ∉ Finset.univ.image (Pipeline.arrRef spec0) → V7 m (outs m) c b = V6 m c b :=
  fun b hb => V7_of m (outs m) c b (by
    intro h
    rcases List.mem_cons.mp h with rfl | h
    · exact hb (Finset.mem_image.mpr ⟨9, Finset.mem_univ _, rfl⟩)
    · rcases List.mem_cons.mp h with rfl | h
      · exact hb (Finset.mem_image.mpr ⟨10, Finset.mem_univ _, rfl⟩)
      · exact absurd h List.not_mem_nil)

/-- The node region is entered from the contents after item 7, whichever unknowns they are written over. -/
theorem entry1_eq (c : Dev nD) (b : Ref sig .tc) : entry1 m c b = V8 m (outs m) c b := by
  show V8 m (outs0 m) c b = _; rw [V8_outs]
/-- The node region's windows: five inputs, and the one output whose array is `main_v30`. -/
theorem out1_cases : ∀ w : Fin cfg1.W, (cfg1.win w).isOut = true → w = 5 := by decide
theorem in1_arr : ∀ w : Fin cfg1.W, (cfg1.win w).isOut = false →
    Pipeline.arrRef spec1 w ∉ ([main_v30] : List (Ref sig .tc)) := by decide
theorem arrays1 (c : Dev nD) (w : Fin cfg1.W) :
    (NodeRegion.dat (entry1 m) c).arrAt w cfg1.N = V9 m (outs m) c (Pipeline.arrRef spec1 w) := by
  by_cases hout : (cfg1.win w).isOut = true
  · obtain rfl := out1_cases w hout
    exact (V9_out m c).symm
  · have hin : (cfg1.win w).isOut = false := by simpa using hout
    exact ((NodeRegion.dat (entry1 m) c).arrAt_in w hin _).trans
      ((NodeRegion.dat_A (entry1 m) c w).trans ((entry1_eq m c _).trans (V9_of m (outs m) c _ (in1_arr w hin)).symm))
theorem rest1 (c : Dev nD) : ∀ b : Ref sig .tc, b ∉ Finset.univ.image (Pipeline.arrRef spec1) → V9 m (outs m) c b = entry1 m c b :=
  fun b hb => (V9_of m (outs m) c b (by
    intro h
    rcases List.mem_cons.mp h with rfl | h
    · exact hb (Finset.mem_image.mpr ⟨5, Finset.mem_univ _, rfl⟩)
    · exact absurd h List.not_mem_nil)).trans (entry1_eq m c b).symm

/-! ## The regions as segments -/

set_option backward.isDefEq.respectTransparency.types false in
/-- The message region over the thread state: entered from every unscoped buffer at `V6`, left at `V7`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MsgRegion.body_obligation (entry0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V7 m (outs m) c b) ((pdats m 0 c).arrAt · cfg0.N) (arrays0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from every unscoped buffer at `V8`, left at `V9`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeRegion.body_obligation (entry1 m) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [V8_outs m c, Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V9 m (outs m) c b) ((pdats m 1 c).arrAt · cfg1.N) (arrays1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN: from any memory with zero counters every weakly fair execution of @main terminates, nothing faulting, and
    every unscoped buffer of every core ends at the last valuation `V10`, over the contents the regions leave (`outs`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl,
      .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- THE FRAME at any float instance: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    (h c _ (mem_uc main_arg0 (by decide))).trans (V10_main_arg0 m (outs m) c),
    (h c _ (mem_uc main_arg1 (by decide))).trans (V10_main_arg1 m (outs m) c),
    (h c _ (mem_uc main_arg2 (by decide))).trans (V10_main_arg2 m (outs m) c),
    (h c _ (mem_uc main_arg3 (by decide))).trans (V10_main_arg3 m (outs m) c),
    (h c _ (mem_uc main_arg4 (by decide))).trans (V10_main_arg4 m (outs m) c),
    (h c _ (mem_uc main_arg5 (by decide))).trans (V10_main_arg5 m (outs m) c),
    (h c _ (mem_uc main_arg6 (by decide))).trans (V10_main_arg6 m (outs m) c),
    (h c _ (mem_uc main_arg7 (by decide))).trans (V10_main_arg7 m (outs m) c),
    (h c _ (mem_uc main_arg8 (by decide))).trans (V10_main_arg8 m (outs m) c),
    (h c _ (mem_uc main_arg9 (by decide))).trans (V10_main_arg9 m (outs m) c),
    (h c _ (mem_uc main_arg10 (by decide))).trans (V10_main_arg10 m (outs m) c),
    (h c _ (mem_uc main_arg11 (by decide))).trans (V10_main_arg11 m (outs m) c),
    (h c _ (mem_uc main_arg12 (by decide))).trans (V10_main_arg12 m (outs m) c),
    (h c _ (mem_uc main_arg13 (by decide))).trans (V10_main_arg13 m (outs m) c),
    (h c _ (mem_uc main_arg14 (by decide))).trans (V10_main_arg14 m (outs m) c),
    (h c _ (mem_uc main_arg15 (by decide))).trans (V10_main_arg15 m (outs m) c)⟩) (run_all m ρ)

end Cert.Kernel.Whole

end
-- ==== Proof.KI.MsgRegion.lean ====
/-
  The message kernel's region (the first pallas_call: 160 grid points, each a block of 4000 edges through the
  message network and then the coordinate network), read at ANY float instance, over the buffer contents `V`
  the region is entered from.

  Per grid point the body loads its nine inputs whole (the 4000×260 block of edge rows; the message network's two
  weight matrices and bias rows; the coordinate network's two weight matrices and biases) and makes two stores,
  each of a whole output block: the 4000×128 block of messages (`k0_pay2` of the rows and the message network's
  parameters) and the 4000×1 block of coordinate weights (`k0_pay1` over `k0_pay4`, the messages pushed through
  the coordinate network). So what the body leaves in each output's staging buffer is one value of the input blocks
  (`msgBlock`, `coordBlock`), the input blocks stay as fetched, and the pipeline's proof data follow. The rows are
  fetched at every point and the parameters once (their index map is constant); either way an input's staging
  buffer holds its block at every point (`held_*`).
-/
import proofs.«417115_j7541962572405_1_alg».proof.Proof.Gen.KernelIdeal.Launch
import proofs.«417115_j7541962572405_1_alg».proof.Proof.Gen.KernelIdeal.Skeleton
import proofs.«417115_j7541962572405_1_alg».proof.Proof.Gen.KernelIdeal.Points
import Idealize.ShloMosaic.Lib.Pipeline.FrameBody
import Idealize.ShloMosaic.Lib.Tactic

set_option maxRecDepth 16384

noncomputable section

namespace Cert.KernelIdeal.MsgRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`: its array, as the region finds it, read through the block's rectangle. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Held
variable {c : Dev nD} (dat : Dat τ (Elt F) Unit ℕ (UR sig nD τ) ℕ cfg0 c)

/-- The block of 4000 message-input rows (window 0): fetched at every point. -/
theorem held_rows (hA : dat.A 0 = V c (Pipeline.arrRef spec0 0)) (hafter : ∀ t, dat.after 0 t = blk V c 0 t)
    (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The message network's first weights (window 1): fetched once, held at every point. -/
theorem held_wm1 (hA : dat.A 1 = V c (Pipeline.arrRef spec0 1)) (hafter : ∀ t, dat.after 1 t = blk V c 1 t)
    (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Its first bias row (window 2). -/
theorem held_bm1 (hA : dat.A 2 = V c (Pipeline.arrRef spec0 2)) (hafter : ∀ t, dat.after 2 t = blk V c 2 t)
    (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Its second weights (window 3). -/
theorem held_wm2 (hA : dat.A 3 = V c (Pipeline.arrRef spec0 3)) (hafter : ∀ t, dat.after 3 t = blk V c 3 t)
    (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Its second bias row (window 4). -/
theorem held_bm2 (hA : dat.A 4 = V c (Pipeline.arrRef spec0 4)) (hafter : ∀ t, dat.after 4 t = blk V c 4 t)
    (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The coordinate network's first weights (window 5). -/
theorem held_wc1 (hA : dat.A 5 = V c (Pipeline.arrRef spec0 5)) (hafter : ∀ t, dat.after 5 t = blk V c 5 t)
    (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Its first bias row (window 6). -/
theorem held_bc1 (hA : dat.A 6 = V c (Pipeline.arrRef spec0 6)) (hafter : ∀ t, dat.after 6 t = blk V c 6 t)
    (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
/-- Its last weights, one column (window 7). -/
theorem held_wc2 (hA : dat.A 7 = V c (Pipeline.arrRef spec0 7)) (hafter : ∀ t, dat.after 7 t = blk V c 7 t)
    (t : Fin cfg0.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
/-- Its last bias, one number (window 8). -/
theorem held_bc2 (hA : dat.A 8 = V c (Pipeline.arrRef spec0 8)) (hafter : ∀ t, dat.after 8 t = blk V c 8 t)
    (t : Fin cfg0.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
end Held

/-! ## What the body reads and writes: every access is the whole buffer -/

abbrev rRows : Rect S4000x260 := Rect.unit (s := S4000x260) ![0, 0] S4000x260.size inb_S4000x260_S4000x260_0_0
abbrev rWm1 : Rect S260x128 := Rect.unit (s := S260x128) ![0, 0] S260x128.size inb_S260x128_S260x128_0_0
abbrev rBias : Rect S1x128 := Rect.unit (s := S1x128) ![0, 0] S1x128.size inb_S1x128_S1x128_0_0
abbrev rSq : Rect S128x128 := Rect.unit (s := S128x128) ![0, 0] S128x128.size inb_S128x128_S128x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rMsg : Rect S4000x128 := Rect.unit (s := S4000x128) ![0, 0] S4000x128.size inb_S4000x128_S4000x128_0_0
abbrev rCoord : Rect S4000x1 := Rect.unit (s := S4000x1) ![0, 0] S4000x1.size inb_S4000x1_S4000x1_0_0

/-- The block of messages after the body, from the rows and the message network's parameters: its one store. -/
def msgBlock (x : Vec F S4000x260 .f32) (wm1 : Vec F S260x128 .f32) (bm1 : Vec F S1x128 .f32) (wm2 : Vec F S128x128 .f32) (bm2 : Vec F S1x128 .f32) :
    Vec F S4000x128 .f32 :=
  View.canon [⟨rMsg, k0_pay2 (View.ld x rRows) (View.ld wm1 rWm1) (View.ld bm1 rBias) (View.ld wm2 rSq) (View.ld bm2 rBias)⟩]

/-- The block of coordinate weights after the body, from all nine inputs: its one store. -/
def coordBlock (x : Vec F S4000x260 .f32) (wm1 : Vec F S260x128 .f32) (bm1 : Vec F S1x128 .f32) (wm2 : Vec F S128x128 .f32) (bm2 : Vec F S1x128 .f32)
    (wc1 : Vec F S128x128 .f32) (bc1 : Vec F S1x128 .f32) (wc2 : Vec F S128x1 .f32) (bc2 : Vec F S1x1 .f32) : Vec F S4000x1 .f32 :=
  View.canon [⟨rCoord, k0_pay1 (k0_pay3 (View.ld wc2 rCol))
    (k0_pay4 (View.ld x rRows) (View.ld wm1 rWm1) (View.ld bm1 rBias) (View.ld wm2 rSq) (View.ld bm2 rBias) (View.ld wc1 rSq) (View.ld bc1 rBias))
    (constant S4000x1 .f32 0x00000000#32) (View.ld bc2 rOne)⟩]

/-- Each store covers its output buffer. -/
theorem msgCover (p : Vec F S4000x128 .f32) (y : S4000x128.Idx) :
    ∃ pc ∈ ([⟨rMsg, p⟩] : List (View.Piece (Elt F) S4000x128 .f32)), y ∈ pc.1.set :=
  View.cover_of_tiled [⟨rMsg, p⟩] S4000x128.size (by rfl) y
theorem coordCover (p : Vec F S4000x1 .f32) (y : S4000x1.Idx) :
    ∃ pc ∈ ([⟨rCoord, p⟩] : List (View.Piece (Elt F) S4000x1 .f32)), y ∈ pc.1.set :=
  View.cover_of_tiled [⟨rCoord, p⟩] S4000x1.size (by rfl) y

/-! ## The body's triple -/

set_option maxHeartbeats 2000000 in
/-- The body on whole staging memrefs — the inputs' at read contents, the outputs' at anything — runs to the continuation
    with the inputs' as they were and the outputs' at `msgBlock` and `coordBlock` of them. -/
theorem body_triple (c : Dev nD) (E : Set ℕ) (i : grid0.Coords)
    (arg1 : Memref sig .tc .vmem S4000x260 .f32) (harg1 : arg1.IsWhole) (arg2 : Memref sig .tc .vmem S260x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x1 .f32) (harg8 : arg8.IsWhole)
    (arg9 : Memref sig .tc .vmem S1x1 .f32) (harg9 : arg9.IsWhole) (arg10 : Memref sig .tc .vmem S4000x128 .f32) (harg10 : arg10.IsWhole)
    (arg11 : Memref sig .tc .vmem S4000x1 .f32) (harg11 : arg11.IsWhole)
    (x : Vec F S4000x260 .f32) (wm1 : Vec F S260x128 .f32) (bm1 : Vec F S1x128 .f32) (wm2 : Vec F S128x128 .f32) (bm2 : Vec F S1x128 .f32)
    (wc1 : Vec F S128x128 .f32) (bc1 : Vec F S1x128 .f32) (wc2 : Vec F S128x1 .f32) (bc2 : Vec F S1x1 .f32)
    (K : PUnit → sProp 𝕄) :
    iprop(owns (c : Thread nD τ) arg1 fullShare x ∗ owns (c : Thread nD τ) arg2 fullShare wm1 ∗ owns (c : Thread nD τ) arg3 fullShare bm1
        ∗ owns (c : Thread nD τ) arg4 fullShare wm2 ∗ owns (c : Thread nD τ) arg5 fullShare bm2 ∗ owns (c : Thread nD τ) arg6 fullShare wc1
        ∗ owns (c : Thread nD τ) arg7 fullShare bc1 ∗ owns (c : Thread nD τ) arg8 fullShare wc2 ∗ owns (c : Thread nD τ) arg9 fullShare bc2
        ∗ (∃ d, owns (c : Thread nD τ) arg10 fullShare d) ∗ (∃ d, owns (c : Thread nD τ) arg11 fullShare d)
        ∗ (iprop(owns (c : Thread nD τ) arg1 fullShare x ∗ owns (c : Thread nD τ) arg2 fullShare wm1 ∗ owns (c : Thread nD τ) arg3 fullShare bm1
            ∗ owns (c : Thread nD τ) arg4 fullShare wm2 ∗ owns (c : Thread nD τ) arg5 fullShare bm2 ∗ owns (c : Thread nD τ) arg6 fullShare wc1
            ∗ owns (c : Thread nD τ) arg7 fullShare bc1 ∗ owns (c : Thread nD τ) arg8 fullShare wc2 ∗ owns (c : Thread nD τ) arg9 fullShare bc2
            ∗ owns (c : Thread nD τ) arg10 fullShare (msgBlock x wm1 bm1 wm2 bm2)
            ∗ owns (c : Thread nD τ) arg11 fullShare (coordBlock x wm1 bm1 wm2 bm2 wc1 bc1 wc2 bc2)) -∗ K ⟨⟩))
      ⊢ wp frame (wpE (defs₀ (F := F)) Variants.none c none) E
          (cc0__message_kernel i arg1 harg1 arg2 harg2 arg3 harg3 arg4 harg4 arg5 harg5 arg6 harg6 arg7 harg7 arg8 harg8 arg9 harg9 arg10 harg10 arg11 harg11) K := by
  simp only [cc0__message_kernel_eq_skeleton]; unfold cc0__message_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (msgCover _)
  iexists _; isplitr
  swap; · iexact H11
  ipureintro
  try dsimp only
  exact View.read_writes_eq_canon _ _ _ (coordCover _)

/-! ## The pipeline's proof data -/

/-- The region's proof data on core `c`: arrays as entered; after the body each input's buffer at its block, the
    outputs' at `msgBlock` and `coordBlock` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => msgBlock (blk V c 0 t) (blk V c 1 t) (blk V c 2 t) (blk V c 3 t) (blk V c 4 t)
    | ⟨10, _⟩ => coordBlock (blk V c 0 t) (blk V c 1 t) (blk V c 2 t) (blk V c 3 t) (blk V c 4 t) (blk V c 5 t) (blk V c 6 t) (blk V c 7 t) (blk V c 8 t)
  Φ _ := Pipeline.ΦA spec0 c
  q _ := fullShare
  owed _ := 0

theorem dat_A (c : Dev nD) (w : Fin cfg0.W) : (dat V c).A w = V c (Pipeline.arrRef spec0 w) := by dsimp only [dat]
theorem after_rows (c : Dev nD) (t : Fin cfg0.N) : (dat V c).after 0 t = blk V c 0 t := by dsimp only [dat]
theorem after_wm1 (c : Dev nD) (t : Fin cfg0.N) : (dat V c).after 1 t = blk V c 1 t := by dsimp only [dat]
theorem after_bm1 (c : Dev nD) (t : Fin cfg0.N) : (dat V c).after 2 t = blk V c 2 t := by dsimp only [dat]
theorem after_wm2 (c : Dev nD) (t : Fin cfg0.N) : (dat V c).after 3 t = blk V c 3 t := by dsimp only [dat]
theorem after_bm2 (c : Dev nD) (t : Fin cfg0.N) : (dat V c).after 4 t = blk V c 4 t := by dsimp only [dat]
theorem after_wc1 (c : Dev nD) (t : Fin cfg0.N) : (dat V c).after 5 t = blk V c 5 t := by dsimp only [dat]
theorem after_bc1 (c : Dev nD) (t : Fin cfg0.N) : (dat V c).after 6 t = blk V c 6 t := by dsimp only [dat]
theorem after_wc2 (c : Dev nD) (t : Fin cfg0.N) : (dat V c).after 7 t = blk V c 7 t := by dsimp only [dat]
theorem after_bc2 (c : Dev nD) (t : Fin cfg0.N) : (dat V c).after 8 t = blk V c 8 t := by dsimp only [dat]
theorem after_msg (c : Dev nD) (t : Fin cfg0.N) :
    (dat V c).after 9 t = msgBlock (blk V c 0 t) (blk V c 1 t) (blk V c 2 t) (blk V c 3 t) (blk V c 4 t) := by dsimp only [dat]
theorem after_coord (c : Dev nD) (t : Fin cfg0.N) :
    (dat V c).after 10 t = coordBlock (blk V c 0 t) (blk V c 1 t) (blk V c 2 t) (blk V c 3 t) (blk V c 4 t) (blk V c 5 t) (blk V c 6 t) (blk V c 7 t) (blk V c 8 t) := by dsimp only [dat]

theorem before_rows (c : Dev nD) (t : Fin cfg0.N) (d) : (dat V c).before 0 t d = blk V c 0 t :=
  held_rows V (dat V c) (dat_A V c 0) (after_rows V c) t d
theorem before_wm1 (c : Dev nD) (t : Fin cfg0.N) (d) : (dat V c).before 1 t d = blk V c 1 t :=
  held_wm1 V (dat V c) (dat_A V c 1) (after_wm1 V c) t d
theorem before_bm1 (c : Dev nD) (t : Fin cfg0.N) (d) : (dat V c).before 2 t d = blk V c 2 t :=
  held_bm1 V (dat V c) (dat_A V c 2) (after_bm1 V c) t d
theorem before_wm2 (c : Dev nD) (t : Fin cfg0.N) (d) : (dat V c).before 3 t d = blk V c 3 t :=
  held_wm2 V (dat V c) (dat_A V c 3) (after_wm2 V c) t d
theorem before_bm2 (c : Dev nD) (t : Fin cfg0.N) (d) : (dat V c).before 4 t d = blk V c 4 t :=
  held_bm2 V (dat V c) (dat_A V c 4) (after_bm2 V c) t d
theorem before_wc1 (c : Dev nD) (t : Fin cfg0.N) (d) : (dat V c).before 5 t d = blk V c 5 t :=
  held_wc1 V (dat V c) (dat_A V c 5) (after_wc1 V c) t d
theorem before_bc1 (c : Dev nD) (t : Fin cfg0.N) (d) : (dat V c).before 6 t d = blk V c 6 t :=
  held_bc1 V (dat V c) (dat_A V c 6) (after_bc1 V c) t d
theorem before_wc2 (c : Dev nD) (t : Fin cfg0.N) (d) : (dat V c).before 7 t d = blk V c 7 t :=
  held_wc2 V (dat V c) (dat_A V c 7) (after_wc2 V c) t d
theorem before_bc2 (c : Dev nD) (t : Fin cfg0.N) (d) : (dat V c).before 8 t d = blk V c 8 t :=
  held_bc2 V (dat V c) (dat_A V c 8) (after_bc2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the inputs' memrefs hold their blocks, so the triple applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_wm1, before_bm1, before_wm2, before_bm2, before_wc1, before_bc1, before_wc2, before_bc2]
  rw [show (dat V c).Φ t.succ = (dat V c).Φ t.castSucc from rfl,
    show (dat V c).owesAt () t.succ = (dat V c).owesAt () t.castSucc from rfl,
    after_rows, after_wm1, after_bm1, after_wm2, after_bm2, after_wc1, after_bc1, after_wc2, after_bc2, after_msg, after_coord]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.MsgRegion

end
-- ==== Proof.KI.NodeRegion.lean ====
/-
  The node kernel's region (the second pallas_call: ten grid points, each a block of 5000 rows of the
  concatenated node features through the two-layer node network), read at ANY float instance, over the
  buffer contents `V` the region is entered from.

  Per grid point the body loads its five inputs whole (the 5000×256 block of rows, the two weight
  matrices, the two bias rows), computes ONE value `k1_pay1` of them and stores it whole into the output
  block. So what the body leaves in the output's staging buffer is that value of the input blocks
  (`outBlock`), the input blocks stay as fetched, and the pipeline's proof data follow: the arrays as
  entered, after the body each input's buffer at its block and the output's at `outBlock` of the blocks.
  The weights and biases are fetched once (their index map is constant) and the row block at every point;
  either way an input's staging buffer holds its block at every point (`held_*`).
-/
import proofs.«417115_j7541962572405_1_alg».proof.Proof.Gen.KernelIdeal.Launch
import proofs.«417115_j7541962572405_1_alg».proof.Proof.Gen.KernelIdeal.Skeleton
import proofs.«417115_j7541962572405_1_alg».proof.Proof.Gen.KernelIdeal.Points
import Idealize.ShloMosaic.Lib.Pipeline.FrameBody
import Idealize.ShloMosaic.Lib.Tactic

set_option maxRecDepth 16384

noncomputable section

namespace Cert.KernelIdeal.NodeRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at grid point `t`: its array, as the region finds it, read through the block's rectangle. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Held
variable {c : Dev nD} (dat : Dat τ (Elt F) Unit ℕ (UR sig nD τ) ℕ cfg1 c)

/-- The row block (window 0) is in its staging buffer at every point, for any proof data over `V` whose body leaves it in place. -/
theorem held_rows (hA : dat.A 0 = V c (Pipeline.arrRef spec1 0)) (hafter : ∀ t, dat.after 0 t = blk V c 0 t)
    (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The first layer's weights (window 1): fetched once, held at every point. -/
theorem held_w1 (hA : dat.A 1 = V c (Pipeline.arrRef spec1 1)) (hafter : ∀ t, dat.after 1 t = blk V c 1 t)
    (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The first layer's bias row (window 2). -/
theorem held_b1 (hA : dat.A 2 = V c (Pipeline.arrRef spec1 2)) (hafter : ∀ t, dat.after 2 t = blk V c 2 t)
    (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The second layer's weights (window 3). -/
theorem held_w2 (hA : dat.A 3 = V c (Pipeline.arrRef spec1 3)) (hafter : ∀ t, dat.after 3 t = blk V c 3 t)
    (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The second layer's bias row (window 4). -/
theorem held_b2 (hA : dat.A 4 = V c (Pipeline.arrRef spec1 4)) (hafter : ∀ t, dat.after 4 t = blk V c 4 t)
    (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
end Held

/-! ## What the body reads and writes: every access is the whole buffer -/

abbrev rRows : Rect S5000x256 := Rect.unit (s := S5000x256) ![0, 0] S5000x256.size inb_S5000x256_S5000x256_0_0
abbrev rW1 : Rect S256x128 := Rect.unit (s := S256x128) ![0, 0] S256x128.size inb_S256x128_S256x128_0_0
abbrev rBias : Rect S1x128 := Rect.unit (s := S1x128) ![0, 0] S1x128.size inb_S1x128_S1x128_0_0
abbrev rW2 : Rect S128x128 := Rect.unit (s := S128x128) ![0, 0] S128x128.size inb_S128x128_S128x128_0_0
abbrev rOut : Rect S5000x128 := Rect.unit (s := S5000x128) ![0, 0] S5000x128.size inb_S5000x128_S5000x128_0_0

/-- The output block after the body, from the five input blocks: its one store, of the body's one value. -/
def outBlock (x : Vec F S5000x256 .f32) (w1 : Vec F S256x128 .f32) (b1 : Vec F S1x128 .f32) (w2 : Vec F S128x128 .f32) (b2 : Vec F S1x128 .f32) :
    Vec F S5000x128 .f32 :=
  View.canon [⟨rOut, k1_pay1 (View.ld x rRows) (View.ld w1 rW1) (View.ld b1 rBias) (View.ld w2 rW2) (View.ld b2 rBias)⟩]

/-- The one store covers the output buffer. -/
theorem outCover (p : Vec F S5000x128 .f32) (y : S5000x128.Idx) :
    ∃ pc ∈ ([⟨rOut, p⟩] : List (View.Piece (Elt F) S5000x128 .f32)), y ∈ pc.1.set :=
  View.cover_of_tiled [⟨rOut, p⟩] S5000x128.size (by rfl) y

/-! ## The body's triple -/

set_option maxHeartbeats 1000000 in
/-- The body on whole staging memrefs — the inputs' at read contents, the output's at anything — runs to the continuation
    with the inputs' as they were and the output's at `outBlock` of them. -/
theorem body_triple (c : Dev nD) (E : Set ℕ) (i : grid1.Coords)
    (arg1 : Memref sig .tc .vmem S5000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x : Vec F S5000x256 .f32) (w1 : Vec F S256x128 .f32) (b1 : Vec F S1x128 .f32) (w2 : Vec F S128x128 .f32) (b2 : Vec F S1x128 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (outBlock x w1 b1 w2 b2)) -∗ K ⟨⟩))
      ⊢ wp frame (wpE (defs₀ (F := F)) Variants.none c none) E (cc1__node_kernel i arg1 harg1 arg2 harg2 arg3 harg3 arg4 harg4 arg5 harg5 arg6 harg6) K := by
  simp only [cc1__node_kernel_eq_skeleton]; unfold cc1__node_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The region's proof data on core `c`: arrays as entered; after the body each input's buffer at its block, the
    output's at `outBlock` of the input blocks; the invariant the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outBlock (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by dsimp only [dat]
theorem after_rows (c : Dev nD) (t : Fin cfg1.N) : (dat V c).after 0 t = blk V c 0 t := by dsimp only [dat]
theorem after_w1 (c : Dev nD) (t : Fin cfg1.N) : (dat V c).after 1 t = blk V c 1 t := by dsimp only [dat]
theorem after_b1 (c : Dev nD) (t : Fin cfg1.N) : (dat V c).after 2 t = blk V c 2 t := by dsimp only [dat]
theorem after_w2 (c : Dev nD) (t : Fin cfg1.N) : (dat V c).after 3 t = blk V c 3 t := by dsimp only [dat]
theorem after_b2 (c : Dev nD) (t : Fin cfg1.N) : (dat V c).after 4 t = blk V c 4 t := by dsimp only [dat]
theorem after_out (c : Dev nD) (t : Fin cfg1.N) :
    (dat V c).after 5 t = outBlock (blk V c 0 t) (blk V c 1 t) (blk V c 2 t) (blk V c 3 t) (blk V c 4 t) := by dsimp only [dat]

theorem before_rows (c : Dev nD) (t : Fin cfg1.N) (d) : (dat V c).before 0 t d = blk V c 0 t :=
  held_rows V (dat V c) (dat_A V c 0) (after_rows V c) t d
theorem before_w1 (c : Dev nD) (t : Fin cfg1.N) (d) : (dat V c).before 1 t d = blk V c 1 t :=
  held_w1 V (dat V c) (dat_A V c 1) (after_w1 V c) t d
theorem before_b1 (c : Dev nD) (t : Fin cfg1.N) (d) : (dat V c).before 2 t d = blk V c 2 t :=
  held_b1 V (dat V c) (dat_A V c 2) (after_b1 V c) t d
theorem before_w2 (c : Dev nD) (t : Fin cfg1.N) (d) : (dat V c).before 3 t d = blk V c 3 t :=
  held_w2 V (dat V c) (dat_A V c 3) (after_w2 V c) t d
theorem before_b2 (c : Dev nD) (t : Fin cfg1.N) (d) : (dat V c).before 4 t d = blk V c 4 t :=
  held_b2 V (dat V c) (dat_A V c 4) (after_b2 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the triple applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_w1, before_b1, before_w2, before_b2]
  rw [show (dat V c).Φ t.succ = (dat V c).Φ t.castSucc from rfl,
    show (dat V c).owesAt () t.succ = (dat V c).owesAt () t.castSucc from rfl,
    after_rows, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.NodeRegion

end
-- ==== Proof.KI.Whole.lean ====
/-
  The whole program at ANY float instance: @main's ten items (six stretches of host operations, the message
  kernel's region, a stretch, the node kernel's region, a last stretch) run in order from any memory, and every
  unscoped buffer ends at the last of the valuations `V0 … V10` this program's conditional frame threads through
  the items — with the contents the two regions leave (`outs`) named: region 0 leaves, in its two output arrays,
  what its 160 write-backs make of them (`Dat.arrAt … N` of the message region's proof data at the contents it is
  entered from), region 1 likewise for its one output array, and every other buffer as the region found it.

  Each region is entered from "every unscoped buffer at the boundary's contents, the generator register at some
  state, nothing owed": its arrays are split out of the unscoped buffers and put back at the exit contents; the
  register goes into the region's invariant and comes back; no semaphore of the kernel's own.
  The frame claim (every argument array ends as launched) is read off that run: no item writes an argument.
-/
import proofs.«417115_j7541962572405_1_alg».proof.Proof.KI.MsgRegion
import proofs.«417115_j7541962572405_1_alg».proof.Proof.KI.NodeRegion
import proofs.«417115_j7541962572405_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions are entered from, and what they leave -/

/-- The contents the message region is entered from: after the six host stretches before it. -/
abbrev entry0 : (c : Dev nD) → (b : Ref sig .tc) → Buf (Elt F) ((c : Thread nD τ).loc b) := fun c b => V6 m c b

/-- At the message region's exit: its arrays at what the pipeline leaves, every other buffer as entered. -/
def exit0 (c : Dev nD) : Valuation τ sig (Elt F) :=
  Pipeline.withArrays spec0 c (V6 m c) fun w => (MsgRegion.dat (entry0 m) c).arrAt w cfg0.N
theorem exit0_arr (c : Dev nD) (w : Fin cfg0.W) :
    exit0 m c (Proc.devRef .tc (Pipeline.arrRef spec0 w)) = (MsgRegion.dat (entry0 m) c).arrAt w cfg0.N := by
  unfold exit0; exact Pipeline.withArrays_arr spec0 launch0.win.arr_inj c _ _ w

/-- The unknowns of the conditional frame, with only the message region's known (what the node region is entered from reads no more). -/
def outs0 : Outs (F := F) := fun _ r c => exit0 m c r

/-- The contents the node region is entered from: after the stretch between the regions. -/
abbrev entry1 : (c : Dev nD) → (b : Ref sig .tc) → Buf (Elt F) ((c : Thread nD τ).loc b) := fun c b => V8 m (outs0 m) c b

/-- At the node region's exit: its arrays at what the pipeline leaves, every other buffer as entered. -/
def exit1 (c : Dev nD) : Valuation τ sig (Elt F) :=
  Pipeline.withArrays spec1 c (V8 m (outs0 m) c) fun w => (NodeRegion.dat (entry1 m) c).arrAt w cfg1.N
theorem exit1_arr (c : Dev nD) (w : Fin cfg1.W) :
    exit1 m c (Proc.devRef .tc (Pipeline.arrRef spec1 w)) = (NodeRegion.dat (entry1 m) c).arrAt w cfg1.N := by
  unfold exit1; exact Pipeline.withArrays_arr spec1 launch1.win.arr_inj c _ _ w

/-- What the regions leave: after item 8 (the node region) its exit contents, before that the message region's. -/
def outs : Outs (F := F) := fun J r c => if J = 9 then exit1 m c r else exit0 m c r
theorem outs_seven (r : Ref sig .tc) (c : Dev nD) : outs m 7 r c = exit0 m c r := if_neg (by decide)
theorem outs_nine (r : Ref sig .tc) (c : Dev nD) : outs m 9 r c = exit1 m c r := if_pos rfl

/-- The valuation after the message region does not depend on what the node region leaves. -/
theorem V7_outs (c : Dev nD) : V7 m (outs m) c = V7 m (outs0 m) c := by
  show Function.update (Function.update (V6 m c) main_v18_0 (outs m 7 main_v18_0 c)) main_v18_1 (outs m 7 main_v18_1 c) = _
  rw [outs_seven, outs_seven]; rfl
theorem V8_outs (c : Dev nD) : V8 m (outs m) c = V8 m (outs0 m) c :=
  congrArg (StableHlo.after hostOps1) (V7_outs m c)

/-- The message region's two output arrays after it. -/
theorem V7_msg (c : Dev nD) : V7 m (outs m) c main_v18_0 = (MsgRegion.dat (entry0 m) c).arrAt 9 cfg0.N := by
  show Function.update (Function.update (V6 m c) main_v18_0 (outs m 7 main_v18_0 c)) main_v18_1 (outs m 7 main_v18_1 c) main_v18_0 = _
  rw [Function.update_of_ne (StableHlo.devRef_ne_of_ne (by decide : (main_v18_0 : Ref sig .tc) ≠ main_v18_1)), Function.update_self, outs_seven]
  exact exit0_arr m c 9
theorem V7_coord (c : Dev nD) : V7 m (outs m) c main_v18_1 = (MsgRegion.dat (entry0 m) c).arrAt 10 cfg0.N := by
  show Function.update (Function.update (V6 m c) main_v18_0 (outs m 7 main_v18_0 c)) main_v18_1 (outs m 7 main_v18_1 c) main_v18_1 = _
  rw [Function.update_self, outs_seven]
  exact exit0_arr m c 10
/-- The node region's output array after it. -/
theorem V9_out (c : Dev nD) : V9 m (outs m) c main_v30 = (NodeRegion.dat (entry1 m) c).arrAt 5 cfg1.N := by
  show Function.update (V8 m (outs m) c) main_v30 (outs m 9 main_v30 c) main_v30 = _
  rw [Function.update_self, outs_nine]
  exact exit1_arr m c 5

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => MsgRegion.dat (entry0 m) c
  | ⟨1, _⟩ => fun c => NodeRegion.dat (entry1 m) c

abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The message region's windows: nine inputs, and the two outputs whose arrays are `main_v18_0`, `main_v18_1`. -/
theorem out0_cases : ∀ w : Fin cfg0.W, (cfg0.win w).isOut = true → w = 9 ∨ w = 10 := by decide
theorem in0_arr : ∀ w : Fin cfg0.W, (cfg0.win w).isOut = false →
    Pipeline.arrRef spec0 w ∉ ([main_v18_0, main_v18_1] : List (Ref sig .tc)) := by decide

/-- At the message region's exit each of its arrays holds what the pipeline leaves, -/
theorem arrays0 (c : Dev nD) (w : Fin cfg0.W) :
    (MsgRegion.dat (entry0 m) c).arrAt w cfg0.N = V7 m (outs m) c (Pipeline.arrRef spec0 w) := by
  by_cases hout : (cfg0.win w).isOut = true
  · rcases out0_cases w hout with rfl | rfl
    · exact (V7_msg m c).symm
    · exact (V7_coord m c).symm
  · have hin : (cfg0.win w).isOut = false := by simpa using hout
    exact ((MsgRegion.dat (entry0 m) c).arrAt_in w hin _).trans
      ((MsgRegion.dat_A (entry0 m) c w).trans (V7_of m (outs m) c _ (in0_arr w hin)).symm)
/-- and every other buffer what it held at entry. -/
theorem rest0 (c : Dev nD) : ∀ b : Ref sig .tc, b ∉ Finset.univ.image (Pipeline.arrRef spec0) → V7 m (outs m) c b = V6 m c b :=
  fun b hb => V7_of m (outs m) c b (by
    intro h
    rcases List.mem_cons.mp h with rfl | h
    · exact hb (Finset.mem_image.mpr ⟨9, Finset.mem_univ _, rfl⟩)
    · rcases List.mem_cons.mp h with rfl | h
      · exact hb (Finset.mem_image.mpr ⟨10, Finset.mem_univ _, rfl⟩)
      · exact absurd h List.not_mem_nil)

/-- The node region is entered from the contents after item 7, whichever unknowns they are written over. -/
theorem entry1_eq (c : Dev nD) (b : Ref sig .tc) : entry1 m c b = V8 m (outs m) c b := by
  show V8 m (outs0 m) c b = _; rw [V8_outs]
/-- The node region's windows: five inputs, and the one output whose array is `main_v30`. -/
theorem out1_cases : ∀ w : Fin cfg1.W, (cfg1.win w).isOut = true → w = 5 := by decide
theorem in1_arr : ∀ w : Fin cfg1.W, (cfg1.win w).isOut = false →
    Pipeline.arrRef spec1 w ∉ ([main_v30] : List (Ref sig .tc)) := by decide
theorem arrays1 (c : Dev nD) (w : Fin cfg1.W) :
    (NodeRegion.dat (entry1 m) c).arrAt w cfg1.N = V9 m (outs m) c (Pipeline.arrRef spec1 w) := by
  by_cases hout : (cfg1.win w).isOut = true
  · obtain rfl := out1_cases w hout
    exact (V9_out m c).symm
  · have hin : (cfg1.win w).isOut = false := by simpa using hout
    exact ((NodeRegion.dat (entry1 m) c).arrAt_in w hin _).trans
      ((NodeRegion.dat_A (entry1 m) c w).trans ((entry1_eq m c _).trans (V9_of m (outs m) c _ (in1_arr w hin)).symm))
theorem rest1 (c : Dev nD) : ∀ b : Ref sig .tc, b ∉ Finset.univ.image (Pipeline.arrRef spec1) → V9 m (outs m) c b = entry1 m c b :=
  fun b hb => (V9_of m (outs m) c b (by
    intro h
    rcases List.mem_cons.mp h with rfl | h
    · exact hb (Finset.mem_image.mpr ⟨5, Finset.mem_univ _, rfl⟩)
    · exact absurd h List.not_mem_nil)).trans (entry1_eq m c b).symm

/-! ## The regions as segments -/

set_option backward.isDefEq.respectTransparency.types false in
/-- The message region over the thread state: entered from every unscoped buffer at `V6`, left at `V7`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MsgRegion.body_obligation (entry0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V7 m (outs m) c b) ((pdats m 0 c).arrAt · cfg0.N) (arrays0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from every unscoped buffer at `V8`, left at `V9`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeRegion.body_obligation (entry1 m) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [V8_outs m c, Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V9 m (outs m) c b) ((pdats m 1 c).arrAt · cfg1.N) (arrays1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- THE RUN: from any memory with zero counters every weakly fair execution of @main terminates, nothing faulting, and
    every unscoped buffer of every core ends at the last valuation `V10`, over the contents the regions leave (`outs`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl,
      .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- THE FRAME at any float instance: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    (h c _ (mem_uc main_arg0 (by decide))).trans (V10_main_arg0 m (outs m) c),
    (h c _ (mem_uc main_arg1 (by decide))).trans (V10_main_arg1 m (outs m) c),
    (h c _ (mem_uc main_arg2 (by decide))).trans (V10_main_arg2 m (outs m) c),
    (h c _ (mem_uc main_arg3 (by decide))).trans (V10_main_arg3 m (outs m) c),
    (h c _ (mem_uc main_arg4 (by decide))).trans (V10_main_arg4 m (outs m) c),
    (h c _ (mem_uc main_arg5 (by decide))).trans (V10_main_arg5 m (outs m) c),
    (h c _ (mem_uc main_arg6 (by decide))).trans (V10_main_arg6 m (outs m) c),
    (h c _ (mem_uc main_arg7 (by decide))).trans (V10_main_arg7 m (outs m) c),
    (h c _ (mem_uc main_arg8 (by decide))).trans (V10_main_arg8 m (outs m) c),
    (h c _ (mem_uc main_arg9 (by decide))).trans (V10_main_arg9 m (outs m) c),
    (h c _ (mem_uc main_arg10 (by decide))).trans (V10_main_arg10 m (outs m) c),
    (h c _ (mem_uc main_arg11 (by decide))).trans (V10_main_arg11 m (outs m) c),
    (h c _ (mem_uc main_arg12 (by decide))).trans (V10_main_arg12 m (outs m) c),
    (h c _ (mem_uc main_arg13 (by decide))).trans (V10_main_arg13 m (outs m) c),
    (h c _ (mem_uc main_arg14 (by decide))).trans (V10_main_arg14 m (outs m) c),
    (h c _ (mem_uc main_arg15 (by decide))).trans (V10_main_arg15 m (outs m) c)⟩) (run_all m ρ)

end Cert.KernelIdeal.Whole

end
-- ==== Proof.KernelHost.lean ====
/-
  The kernel program's host operations between and around its two regions, read as values at any float instance:
  what the buffers the regions are entered with hold in terms of the buffers before the stretch, and what the two
  results hold at the end. Each host stretch is a fold of its operations over the contents before it; a buffer after
  the stretch is its operation's function of its operands' contents, and a buffer the stretch does not write is as
  before.
-/
import proofs.«417115_j7541962572405_1_alg».proof.Proof.Gen.KernelIdeal.Regions
import Idealize.ShloMosaic.Lib.StableHlo.Run
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (outs : Outs (F := F)) (c : Dev nD)

/-! ## The arguments are untouched all the way -/

/-- An argument array, as any item finds it, is as launched: the chain of "this stretch does not write it". -/
theorem arg6 (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : V6 m c r = m ((c : Thread nD τ).loc r) :=
  (V6_of m c r h5).trans <| (V5_of m c r h4).trans <| (V4_of m c r h3).trans <| (V3_of m c r h2).trans <| (V2_of m c r h1).trans <| (V1_of m c r h0).trans rfl
theorem arg5 (r : Ref sig .tc) (h0 : r ∉ hostOps0_W) (h1 : r ∉ hostOps0_1_W) (h2 : r ∉ hostOps0_2_W) (h3 : r ∉ hostOps0_3_W)
    (h4 : r ∉ hostOps0_4_W) : V5 m c r = m ((c : Thread nD τ).loc r) :=
  (V5_of m c r h4).trans <| (V4_of m c r h3).trans <| (V3_of m c r h2).trans <| (V2_of m c r h1).trans <| (V1_of m c r h0).trans rfl
theorem arg7 (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ ([main_v18_0, main_v18_1] : List (Ref sig .tc))) :
    V7 m outs c r = m ((c : Thread nD τ).loc r) :=
  (V7_of m outs c r h6).trans (arg6 m c r h0 h1 h2 h3 h4 h5)
theorem arg8 (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ ([main_v18_0, main_v18_1] : List (Ref sig .tc))) (h7 : r ∉ hostOps1_W) :
    V8 m outs c r = m ((c : Thread nD τ).loc r) :=
  (V8_of m outs c r h7).trans (arg7 m outs c r h0 h1 h2 h3 h4 h5 h6)
theorem arg9 (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ ([main_v18_0, main_v18_1] : List (Ref sig .tc))) (h7 : r ∉ hostOps1_W)
    (h8 : r ∉ ([main_v30] : List (Ref sig .tc))) : V9 m outs c r = m ((c : Thread nD τ).loc r) :=
  (V9_of m outs c r h8).trans (arg8 m outs c r h0 h1 h2 h3 h4 h5 h6 h7)

/-! ## The stretch before the message region (item 5) -/

/-- The difference of the two endpoints' positions. -/
theorem diff_read : V6 m c main_v8 = subf (V5 m c main_v6) (V5 m c main_v7) := by
  show StableHlo.after hostOps0_5 (V5 m c) (Proc.devRef .tc main_v8) = _
  generalize V5 m c = W
  after_results <;> rfl

/-- The message region's row array: the two gathered feature rows, the distance, the edge attributes, side by side. -/
theorem rows_read : V6 m c main_v13
    = concatenate S640000x260 1 [⟨S640000x128, V5 m c main_v4⟩, ⟨S640000x128, V5 m c main_v5⟩,
        ⟨S640000x1, Host.sqrt (broadcastInDim S640000x1 ![0] bcast_S640000_S640000x1_0
          (Host.reduceAdd (mulf (subf (V5 m c main_v6) (V5 m c main_v7)) (subf (V5 m c main_v6) (V5 m c main_v7)))
            (constant S_ .f32 0x00000000#32) reducesTo_S640000x3_S640000_d1 h_S_))⟩,
        ⟨S640000x3, V5 m c main_arg3⟩] concatenates_S640000x128_S640000x128_S640000x1_S640000x3_S640000x260_d1 := by
  show StableHlo.after hostOps0_5 (V5 m c) (Proc.devRef .tc main_v13) = _
  generalize V5 m c = W
  after_results <;> rfl

/-- The four bias rows the message region stages: the bias vectors reshaped to one row. -/
theorem bm1_read : V6 m c main_v14 = shapeCast _ (V5 m c main_arg5) shapeCasts_S128_S1x128 := by
  show StableHlo.after hostOps0_5 (V5 m c) (Proc.devRef .tc main_v14) = _
  generalize V5 m c = W
  after_results <;> rfl
theorem bm2_read : V6 m c main_v15 = shapeCast _ (V5 m c main_arg7) shapeCasts_S128_S1x128 := by
  show StableHlo.after hostOps0_5 (V5 m c) (Proc.devRef .tc main_v15) = _
  generalize V5 m c = W
  after_results <;> rfl
theorem bc1_read : V6 m c main_v16 = shapeCast _ (V5 m c main_arg13) shapeCasts_S128_S1x128 := by
  show StableHlo.after hostOps0_5 (V5 m c) (Proc.devRef .tc main_v16) = _
  generalize V5 m c = W
  after_results <;> rfl
theorem bc2_read : V6 m c main_v17 = shapeCast _ (V5 m c main_arg15) shapeCasts_S1_S1x1 := by
  show StableHlo.after hostOps0_5 (V5 m c) (Proc.devRef .tc main_v17) = _
  generalize V5 m c = W
  after_results <;> rfl

/-! ## The stretch between the regions (item 7) -/

/-- The node region's row array: the node features beside the messages summed per first endpoint. -/
theorem feats_read : V8 m outs c main_v27
    = concatenate S50000x256 1 [⟨S50000x128, V7 m outs c main_arg0⟩,
        ⟨S50000x128, Host.scatterAdd scatter_S50000x128_S640000x1_S640000x128_1_0_0_1
          (broadcastInDim S50000x128 ![] bcast_S_S50000x128 (constant S_ .f32 0x00000000#32))
          (broadcastInDim S640000x1 ![0] bcast_S640000_S640000x1_0 (V7 m outs c main_v1)) (V7 m outs c main_v18_0)⟩]
        concatenates_S50000x128_S50000x128_S50000x256_d1 := by
  show StableHlo.after hostOps1 (V7 m outs c) (Proc.devRef .tc main_v27) = _
  generalize V7 m outs c = W
  after_results <;> rfl

/-- The coordinate updates summed per first endpoint. -/
theorem coordsum_read : V8 m outs c main_v26
    = Host.scatterAdd scatter_S50000x3_S640000x1_S640000x3_1_0_0_1
        (broadcastInDim S50000x3 ![] bcast_S_S50000x3 (constant S_ .f32 0x00000000#32))
        (broadcastInDim S640000x1 ![0] bcast_S640000_S640000x1_0 (V7 m outs c main_v1))
        (mulf (V7 m outs c main_v8) (broadcastInDim S640000x3 ![0, 1] bcast_S640000x1_S640000x3_0_1 (V7 m outs c main_v18_1))) := by
  show StableHlo.after hostOps1 (V7 m outs c) (Proc.devRef .tc main_v26) = _
  generalize V7 m outs c = W
  after_results <;> rfl

/-- The two bias rows the node region stages. -/
theorem bn1_read : V8 m outs c main_v28 = shapeCast _ (V7 m outs c main_arg9) shapeCasts_S128_S1x128 := by
  show StableHlo.after hostOps1 (V7 m outs c) (Proc.devRef .tc main_v28) = _
  generalize V7 m outs c = W
  after_results <;> rfl
theorem bn2_read : V8 m outs c main_v29 = shapeCast _ (V7 m outs c main_arg11) shapeCasts_S128_S1x128 := by
  show StableHlo.after hostOps1 (V7 m outs c) (Proc.devRef .tc main_v29) = _
  generalize V7 m outs c = W
  after_results <;> rfl

/-! ## The last stretch (item 9) -/

/-- The new positions: the positions plus the summed coordinate updates. -/
theorem pos_read : V10 m outs c main_v31 = addf (V9 m outs c main_arg1) (V9 m outs c main_v26) := by
  show StableHlo.after hostOps2 (V9 m outs c) (Proc.devRef .tc main_v31) = _
  generalize V9 m outs c = W
  after_results <;> rfl

end Cert.KernelIdeal.HostReads

end
-- ==== Proof.Range.lean ====
/-
  The index-range condition on the edge list: every entry, read as a signed 32-bit integer, is at least 0 and below
  50000 (the number of nodes): the domain on which indexing the node arrays by it is defined.
-/
import Idealize.ShloMosaic.PureOps.Ideal

namespace Cert.Range

open Idealize.ShloMosaic

/-- Every edge endpoint is a node index: `0 ≤ e < 50000` as signed words. -/
def IdxOk (x2 : (⟨2, ![2, 640000]⟩ : Shape).Idx → BitVec 32) : Prop :=
  ∀ i, IntOp.cmpi .sge (x2 i) 0#32 = 1#1 ∧ IntOp.cmpi .slt (x2 i) 50000#32 = 1#1

end Cert.Range
-- ==== Proof.KernelTake.lean ====
/-
  The kernel program's four row gathers (`jnp.take` of the node features and of the positions, by the edges' first
  and second endpoints), on the index-range domain. `jnp.take` wraps a negative index by the extent, gathers, and
  overwrites with a fill value every row whose wrapped index is outside `[0, 49999]`. When every endpoint is a node
  index no row is overwritten, so each is the plain gather at the wrapped index — the form the reference's `x[row]`
  has.
-/
import proofs.«417115_j7541962572405_1_alg».proof.Proof.Gen.KernelIdeal.Regions
import proofs.«417115_j7541962572405_1_alg».proof.Proof.Range
import Idealize.ShloMosaic.Lib.StableHlo.Run
import Idealize.ShloMosaic.Lib.StableHlo.Predicate
import Idealize.ShloMosaic.Lib.ValueIdx

set_option maxRecDepth 16384

noncomputable section

namespace Cert.KernelIdeal.Take

open Cert.KernelIdeal Cert.KernelIdeal.Gen
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ)

/-- The edges' first endpoints: row 0 of the edge list. -/
def rowIdx (x2 : IVec S2x640000 32) : IVec S640000 32 :=
  shapeCast _ (extractStridedSlice S1x640000 ![0, 0] x2 slices_S2x640000_S1x640000_0_0) shapeCasts_S1x640000_S640000
/-- The edges' second endpoints: row 1 of the edge list. -/
def colIdx (x2 : IVec S2x640000 32) : IVec S640000 32 :=
  shapeCast _ (extractStridedSlice S1x640000 ![1, 0] x2 slices_S2x640000_S1x640000_1_0) shapeCasts_S1x640000_S640000

/-- An index vector with its negative entries wrapped by the extent 50000, as a column of start indices. -/
def wrapIdx (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-! ## Typed references -/

/-- Contents moved to a typed reference's buffer type and back are unchanged. -/
private theorem ofBuf_toBuf {sg : RefSig} {Val : EltTy → Type} {T : BufTy} (x : StableHlo.TRef sg T) (v : T.Contents Val) :
    x.ofBuf (x.toBuf v) = v := by
  obtain ⟨r, h, h1, h2⟩ := x
  subst h
  rfl

/-! ## Words: the comparisons on an entry that is a node index -/

/-- For a word `v` with `0 ≤ v < 50000` (signed): `v` is not negative and is at most 49999. -/
private theorem word_facts {v : BitVec 32} (h0 : IntOp.cmpi .sge v 0#32 = 1#1) (h1 : IntOp.cmpi .slt v 50000#32 = 1#1) :
    IntOp.cmpi .slt v 0#32 = 0#1 ∧ IntOp.cmpi .sle v 49999#32 = 1#1 := by
  have e0 : (0#32 : BitVec 32).toInt = 0 := by decide
  have e5 : (50000#32 : BitVec 32).toInt = 50000 := Predicate.toInt_ofNat_small 50000 (by omega)
  have e4 : (49999#32 : BitVec 32).toInt = 49999 := Predicate.toInt_ofNat_small 49999 (by omega)
  simp only [IntOp.cmpi, Predicate.ofBool_eq_one_iff, BitVec.sle, BitVec.slt, decide_eq_true_eq, e0, e5] at h0 h1
  constructor
  · have : decide (v.toInt < (0#32 : BitVec 32).toInt) = false := by rw [e0]; exact decide_eq_false (by omega)
    simp only [IntOp.cmpi, BitVec.slt, this]; rfl
  · simp only [IntOp.cmpi, Predicate.ofBool_eq_one_iff, BitVec.sle, decide_eq_true_eq, e4]; omega

/-- An and-fold from `1` over bits that are all `1` is `1`. -/
private theorem fold_andi_ones {ι : Type} (S : Finset ι) (x : ι → BitVec 1) (hx : ∀ i, x i = 1#1) :
    S.fold IntOp.andi 1#1 x = 1#1 := by
  induction S using Finset.cons_induction with
  | empty => rfl
  | cons a S ha ih => rw [Finset.fold_cons, ih, hx a]; rfl

/-! ## The range mask and the core statement -/

/-- The mask `jnp.take` computes from the wrapped indices: per entry, the conjunction over the column's one coordinate of
    `0 ≤ i` and `i ≤ 49999`. -/
private abbrev okMask (idx : IVec S640000 32) : IVec S640000 1 :=
  Host.reduce IntOp.andi
    (andi (cmpi .sge (wrapIdx idx) (broadcastInDim S640000x1 ![] bcast_S_S640000x1 (constantI S_ 32 0#32)))
      (cmpi .sle (wrapIdx idx)
        (broadcastInDim S640000x1 ![0, 1] bcast_S1x1_S640000x1_0_1
          (broadcastInDim S1x1 ![1] bcast_S1_S1x1_1 (constantI S1 32 49999#32)))))
    (constantI S_ 1 1#1) reducesTo_S640000x1_S640000_d1 h_S_

/-- On node indices the mask is all ones: a node index is not wrapped, and passes both comparisons. -/
private theorem okMask_eq (idx : IVec S640000 32)
    (hidx : ∀ e, IntOp.cmpi .sge (idx e) 0#32 = 1#1 ∧ IntOp.cmpi .slt (idx e) 50000#32 = 1#1) (e : S640000.Idx) :
    okMask idx e = 1#1 := by
  show Host.reduce IntOp.andi _ _ reducesTo_S640000x1_S640000_d1 h_S_ e = 1#1
  rw [Host.reduce_eq_fold]
  refine fold_andi_ones _ _ (fun i => ?_)
  obtain ⟨e', he'⟩ : ∃ e', wrapIdx idx i
      = Scalar.select (IntOp.cmpi .slt (idx e') 0#32) (IntOp.addi (idx e') 50000#32) (idx e') := ⟨_, rfl⟩
  obtain ⟨h0, h1⟩ := hidx e'
  obtain ⟨w0, w1⟩ := word_facts h0 h1
  rw [w0, select_zero] at he'
  show IntOp.andi (IntOp.cmpi .sge (wrapIdx idx i) 0#32) (IntOp.cmpi .sle (wrapIdx idx i) 49999#32) = 1#1
  rw [he', h0, w1]; rfl

/-- `jnp.take` on node indices, for any operand and gather record: the fill value is selected nowhere, so the result is
    the gather at the wrapped indices. -/
private theorem take_core {α : Type} {so sr : Shape} (d : GatherDims so S640000x1 sr) (x : so.Idx → α)
    (dims : Fin S640000.rank → Fin sr.rank) (hb : S640000.BroadcastsInDim sr dims) (fill : sr.Idx → α)
    (idx : IVec S640000 32)
    (hidx : ∀ e, IntOp.cmpi .sge (idx e) 0#32 = 1#1 ∧ IntOp.cmpi .slt (idx e) 50000#32 = 1#1) :
    select (broadcastInDim sr dims hb (okMask idx)) (Host.gather d x (wrapIdx idx)) fill
      = Host.gather d x (wrapIdx idx) := by
  generalize Host.gather d x (wrapIdx idx) = g
  funext i
  have hm : broadcastInDim sr dims hb (okMask idx) i = 1#1 := okMask_eq idx hidx _
  rw [select_apply, hm, select_one]

/-- Row 0 of an edge list of node indices is a vector of node indices. -/
private theorem rowIdx_ok {x2 : IVec S2x640000 32} (h : Cert.Range.IdxOk x2) (e : S640000.Idx) :
    IntOp.cmpi .sge (rowIdx x2 e) 0#32 = 1#1 ∧ IntOp.cmpi .slt (rowIdx x2 e) 50000#32 = 1#1 := h _
/-- So is row 1. -/
private theorem colIdx_ok {x2 : IVec S2x640000 32} (h : Cert.Range.IdxOk x2) (e : S640000.Idx) :
    IntOp.cmpi .sge (colIdx x2 e) 0#32 = 1#1 ∧ IntOp.cmpi .slt (colIdx x2 e) 50000#32 = 1#1 := h _

/-! ## The two rows of the edge list, and the four gathers -/

theorem row_val (c : Dev nD) : V1 m c main_v1 = rowIdx (m ((c : Thread nD τ).loc main_arg2)) := by
  show StableHlo.after hostOps0 (V0 m c) (Proc.devRef .tc main_v1) = _
  after_results
  rfl
theorem col_val (c : Dev nD) : V1 m c main_v3 = colIdx (m ((c : Thread nD τ).loc main_arg2)) := by
  show StableHlo.after hostOps0 (V0 m c) (Proc.devRef .tc main_v3) = _
  after_results
  rfl

variable (c : Dev nD) (hok : Cert.Range.IdxOk (m ((c : Thread nD τ).loc main_arg2)))
include hok

/-- The node features at the first endpoints. -/
theorem take_feat_row : V2 m c main_v4
    = Host.gather gather_S50000x128_S640000x1_S640000x128_1_0_n_n_0_1_1128 (m ((c : Thread nD τ).loc main_arg0))
        (wrapIdx (rowIdx (m ((c : Thread nD τ).loc main_arg2)))) := by
  have hi : V1 m c main_v1 = rowIdx (m ((c : Thread nD τ).loc main_arg2)) := row_val m c
  have ha : V1 m c main_arg0 = m ((c : Thread nD τ).loc main_arg0) := V1_of m c main_arg0 (by decide)
  show StableHlo.after hostOps0_1 (V1 m c) (Proc.devRef .tc main_v4) = _
  generalize V1 m c = W at hi ha ⊢
  after_results_simp
  simp only [ofBuf_toBuf]
  simp only [TRef.ofBuf, TRef.toBuf, cast_eq]
  rw [hi, ha]
  exact take_core gather_S50000x128_S640000x1_S640000x128_1_0_n_n_0_1_1128 (m ((c : Thread nD τ).loc main_arg0)) ![0]
    bcast_S640000_S640000x128_0 (broadcastInDim S640000x128 ![] bcast_S_S640000x128 (constant S_ .f32 0x7FC00000#32))
    (rowIdx (m ((c : Thread nD τ).loc main_arg2))) (rowIdx_ok hok)
/-- The node features at the second endpoints. -/
theorem take_feat_col : V3 m c main_v5
    = Host.gather gather_S50000x128_S640000x1_S640000x128_1_0_n_n_0_1_1128 (m ((c : Thread nD τ).loc main_arg0))
        (wrapIdx (colIdx (m ((c : Thread nD τ).loc main_arg2)))) := by
  have hi : V2 m c main_v3 = colIdx (m ((c : Thread nD τ).loc main_arg2)) :=
    (V2_of m c main_v3 (by decide)).trans (col_val m c)
  have ha : V2 m c main_arg0 = m ((c : Thread nD τ).loc main_arg0) :=
    (V2_of m c main_arg0 (by decide)).trans (V1_of m c main_arg0 (by decide))
  show StableHlo.after hostOps0_2 (V2 m c) (Proc.devRef .tc main_v5) = _
  generalize V2 m c = W at hi ha ⊢
  after_results_simp
  simp only [ofBuf_toBuf]
  simp only [TRef.ofBuf, TRef.toBuf, cast_eq]
  rw [hi, ha]
  exact take_core gather_S50000x128_S640000x1_S640000x128_1_0_n_n_0_1_1128 (m ((c : Thread nD τ).loc main_arg0)) ![0]
    bcast_S640000_S640000x128_0 (broadcastInDim S640000x128 ![] bcast_S_S640000x128 (constant S_ .f32 0x7FC00000#32))
    (colIdx (m ((c : Thread nD τ).loc main_arg2))) (colIdx_ok hok)
/-- The positions at the first endpoints. -/
theorem take_pos_row : V4 m c main_v6
    = Host.gather gather_S50000x3_S640000x1_S640000x3_1_0_n_n_0_1_13 (m ((c : Thread nD τ).loc main_arg1))
        (wrapIdx (rowIdx (m ((c : Thread nD τ).loc main_arg2)))) := by
  have hi : V3 m c main_v1 = rowIdx (m ((c : Thread nD τ).loc main_arg2)) :=
    (V3_of m c main_v1 (by decide)).trans ((V2_of m c main_v1 (by decide)).trans (row_val m c))
  have ha : V3 m c main_arg1 = m ((c : Thread nD τ).loc main_arg1) :=
    (V3_of m c main_arg1 (by decide)).trans ((V2_of m c main_arg1 (by decide)).trans (V1_of m c main_arg1 (by decide)))
  show StableHlo.after hostOps0_3 (V3 m c) (Proc.devRef .tc main_v6) = _
  generalize V3 m c = W at hi ha ⊢
  after_results_simp
  simp only [ofBuf_toBuf]
  simp only [TRef.ofBuf, TRef.toBuf, cast_eq]
  rw [hi, ha]
  exact take_core gather_S50000x3_S640000x1_S640000x3_1_0_n_n_0_1_13 (m ((c : Thread nD τ).loc main_arg1)) ![0]
    bcast_S640000_S640000x3_0 (broadcastInDim S640000x3 ![] bcast_S_S640000x3 (constant S_ .f32 0x7FC00000#32))
    (rowIdx (m ((c : Thread nD τ).loc main_arg2))) (rowIdx_ok hok)
/-- The positions at the second endpoints. -/
theorem take_pos_col : V5 m c main_v7
    = Host.gather gather_S50000x3_S640000x1_S640000x3_1_0_n_n_0_1_13 (m ((c : Thread nD τ).loc main_arg1))
        (wrapIdx (colIdx (m ((c : Thread nD τ).loc main_arg2)))) := by
  have hi : V4 m c main_v3 = colIdx (m ((c : Thread nD τ).loc main_arg2)) :=
    (V4_of m c main_v3 (by decide)).trans ((V3_of m c main_v3 (by decide)).trans
      ((V2_of m c main_v3 (by decide)).trans (col_val m c)))
  have ha : V4 m c main_arg1 = m ((c : Thread nD τ).loc main_arg1) :=
    (V4_of m c main_arg1 (by decide)).trans ((V3_of m c main_arg1 (by decide)).trans
      ((V2_of m c main_arg1 (by decide)).trans (V1_of m c main_arg1 (by decide))))
  show StableHlo.after hostOps0_4 (V4 m c) (Proc.devRef .tc main_v7) = _
  generalize V4 m c = W at hi ha ⊢
  after_results_simp
  simp only [ofBuf_toBuf]
  simp only [TRef.ofBuf, TRef.toBuf, cast_eq]
  rw [hi, ha]
  exact take_core gather_S50000x3_S640000x1_S640000x3_1_0_n_n_0_1_13 (m ((c : Thread nD τ).loc main_arg1)) ![0]
    bcast_S640000_S640000x3_0 (broadcastInDim S640000x3 ![] bcast_S_S640000x3 (constant S_ .f32 0x7FC00000#32))
    (colIdx (m ((c : Thread nD τ).loc main_arg2))) (colIdx_ok hok)

end Cert.KernelIdeal.Take

end
-- ==== Proof.Spec.lean ====
/-
  What the two programs compute, as functions on the extended reals, index by index.

  A dense layer sends a matrix `X` (rows × K) to `X·W + b`: entry (r, j) is `Σ_k X[r,k]·W[k,j] + b[j]`.
  The activation is SiLU, `x ↦ x · 1/(1 + e^(-x))`, applied entrywise.
  The message network is two dense layers each followed by SiLU; the coordinate network (fed the messages) and the
  node network (fed the concatenated node features) are a dense layer, SiLU, and a last dense layer with no activation.
  Nothing here mentions a program: the kernel's per-block values and the reference's whole-array operations are each
  shown to be these functions of their operands.
-/
import Idealize.ShloMosaic.PureOps.Ideal
import Idealize.ShloMosaic.Lib.ValueIdx

noncomputable section

open scoped BigOperators

namespace Cert.Spec

open Idealize.ShloMosaic Idealize.ShloMosaic.ValueIdx

/-- SiLU on the extended reals: `x · 1/(1 + e^(-x))`. -/
def silu (x : EReal) : EReal := x * Ideal.logistic x

/-- The logistic function is the quotient the host spells out: `1 / (1 + e^(-x))`. -/
theorem logistic_eq (x : EReal) : Ideal.logistic x = Ideal.div 1 (1 + Ideal.exp (-x)) := rfl

/-- SiLU with the quotient spelled out. -/
theorem silu_eq (x : EReal) : silu x = x * Ideal.div 1 (1 + Ideal.exp (-x)) := rfl

/-- A dense layer: `(X·W + b)[r, j] = Σ_k X[r,k]·W[k,j] + b[j]`. -/
def layer {n K M : Nat} (X : (⟨2, ![n, K]⟩ : Shape).Idx → EReal) (W : (⟨2, ![K, M]⟩ : Shape).Idx → EReal) (b : Fin M → EReal) :
    (⟨2, ![n, M]⟩ : Shape).Idx → EReal :=
  fun i => (∑ k : Fin K, X (ix2 (i 0) k) * W (ix2 k (i 1))) + b (i 1)

/-- SiLU entrywise. -/
def act {n M : Nat} (Y : (⟨2, ![n, M]⟩ : Shape).Idx → EReal) : (⟨2, ![n, M]⟩ : Shape).Idx → EReal := fun i => silu (Y i)

theorem layer_apply {n K M : Nat} (X : (⟨2, ![n, K]⟩ : Shape).Idx → EReal) (W : (⟨2, ![K, M]⟩ : Shape).Idx → EReal) (b : Fin M → EReal)
    (r : Fin n) (j : Fin M) : layer X W b (ix2 r j) = (∑ k : Fin K, X (ix2 r k) * W (ix2 k j)) + b j := rfl
theorem act_apply {n M : Nat} (Y : (⟨2, ![n, M]⟩ : Shape).Idx → EReal) (i : (⟨2, ![n, M]⟩ : Shape).Idx) : act Y i = silu (Y i) := rfl

/-- The message network: dense, SiLU, dense, SiLU. -/
def msgNet {n K H M : Nat} (X : (⟨2, ![n, K]⟩ : Shape).Idx → EReal) (W1 : (⟨2, ![K, H]⟩ : Shape).Idx → EReal) (b1 : Fin H → EReal)
    (W2 : (⟨2, ![H, M]⟩ : Shape).Idx → EReal) (b2 : Fin M → EReal) : (⟨2, ![n, M]⟩ : Shape).Idx → EReal :=
  act (layer (act (layer X W1 b1)) W2 b2)

/-- A head network: dense, SiLU, dense (the coordinate network over the messages; the node network over the node features). -/
def headNet {n K H M : Nat} (X : (⟨2, ![n, K]⟩ : Shape).Idx → EReal) (W1 : (⟨2, ![K, H]⟩ : Shape).Idx → EReal) (b1 : Fin H → EReal)
    (W2 : (⟨2, ![H, M]⟩ : Shape).Idx → EReal) (b2 : Fin M → EReal) : (⟨2, ![n, M]⟩ : Shape).Idx → EReal :=
  layer (act (layer X W1 b1)) W2 b2

/-- A layer depends on its input only through the rows it reads. -/
theorem layer_congr {n K M : Nat} {X X' : (⟨2, ![n, K]⟩ : Shape).Idx → EReal} (W : (⟨2, ![K, M]⟩ : Shape).Idx → EReal) (b : Fin M → EReal)
    (i : (⟨2, ![n, M]⟩ : Shape).Idx) (h : ∀ k : Fin K, X (ix2 (i 0) k) = X' (ix2 (i 0) k)) : layer X W b i = layer X' W b i := by
  unfold layer; congr 1; exact Finset.sum_congr rfl fun k _ => by rw [h k]

/-! ## Rows: each network's row depends only on that row of its input (so a block of rows may be computed alone) -/

theorem layer_row {n n' K M : Nat} (X : (⟨2, ![n, K]⟩ : Shape).Idx → EReal) (X' : (⟨2, ![n', K]⟩ : Shape).Idx → EReal)
    (W : (⟨2, ![K, M]⟩ : Shape).Idx → EReal) (b : Fin M → EReal) (r : Fin n) (r' : Fin n') (j : Fin M)
    (h : ∀ k : Fin K, X (ix2 r k) = X' (ix2 r' k)) : layer X W b (ix2 r j) = layer X' W b (ix2 r' j) := by
  rw [layer_apply, layer_apply]; congr 1; exact Finset.sum_congr rfl fun k _ => by rw [h k]

theorem msgNet_row {n n' K H M : Nat} (X : (⟨2, ![n, K]⟩ : Shape).Idx → EReal) (X' : (⟨2, ![n', K]⟩ : Shape).Idx → EReal)
    (W1 : (⟨2, ![K, H]⟩ : Shape).Idx → EReal) (b1 : Fin H → EReal) (W2 : (⟨2, ![H, M]⟩ : Shape).Idx → EReal) (b2 : Fin M → EReal)
    (r : Fin n) (r' : Fin n') (j : Fin M) (h : ∀ k : Fin K, X (ix2 r k) = X' (ix2 r' k)) :
    msgNet X W1 b1 W2 b2 (ix2 r j) = msgNet X' W1 b1 W2 b2 (ix2 r' j) := by
  unfold msgNet
  rw [act_apply, act_apply]
  refine congrArg silu (layer_row _ _ W2 b2 r r' j fun k => ?_)
  rw [act_apply, act_apply]
  exact congrArg silu (layer_row X X' W1 b1 r r' k h)

theorem headNet_row {n n' K H M : Nat} (X : (⟨2, ![n, K]⟩ : Shape).Idx → EReal) (X' : (⟨2, ![n', K]⟩ : Shape).Idx → EReal)
    (W1 : (⟨2, ![K, H]⟩ : Shape).Idx → EReal) (b1 : Fin H → EReal) (W2 : (⟨2, ![H, M]⟩ : Shape).Idx → EReal) (b2 : Fin M → EReal)
    (r : Fin n) (r' : Fin n') (j : Fin M) (h : ∀ k : Fin K, X (ix2 r k) = X' (ix2 r' k)) :
    headNet X W1 b1 W2 b2 (ix2 r j) = headNet X' W1 b1 W2 b2 (ix2 r' j) := by
  unfold headNet
  refine layer_row _ _ W2 b2 r r' j fun k => ?_
  rw [act_apply, act_apply]
  exact congrArg silu (layer_row X X' W1 b1 r r' k h)

end Cert.Spec

end
-- ==== Proof.Payload.lean ====
/-
  The three values the kernel bodies store, read at an index over the extended reals: each is one of the
  specification's networks applied to the loaded blocks. A `tpu.matmul` into a zero accumulator is the plain sum
  over the contracted axis; the changes of float format are the identity; the bias row, a 1×128 block, is broadcast
  down the rows; `logistic` is `1/(1 + e^(-x))`, so `x · logistic x` is SiLU.
-/
import proofs.«417115_j7541962572405_1_alg».proof.Proof.Gen.KernelIdeal.Skeleton
import proofs.«417115_j7541962572405_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.TcCoe Idealize.ShloMosaic.ValueIdx Idealize.SL.Sem

/-! ## The matrix products at an index

Each of the five products contracts the left operand's columns against the right operand's rows and has no batch
axis: at output index `(p, j)` and contraction position `k` the left operand is read at `(p, k)`, the right one at
`(k, j)`. The four coordinate facts are stated per product; the sum over the one-axis contraction index is then
re-indexed by its coordinate. -/

/-! ### 4000×260 by 260×128 -/

private theorem lhs_4000_260_128_0 (i : S4000x128.Idx) (q : dot_S4000x260_S260x128_S4000x128_1_0_0_1_n_n.contr.Idx) :
    (dot_S4000x260_S260x128_S4000x128_1_0_0_1_n_n.lhsIdx i q 0).val = (i 0).val := by
  unfold DotDims.lhsIdx
  rw [dif_neg (show ¬(0 : Fin S4000x260.rank) ∈ dot_S4000x260_S260x128_S4000x128_1_0_0_1_n_n.lhsBatch by decide), dif_pos (show (0 : Fin S4000x260.rank) ∈ dot_S4000x260_S260x128_S4000x128_1_0_0_1_n_n.lhsNonContracting by decide)]
  rfl
private theorem lhs_4000_260_128_1 (i : S4000x128.Idx) (q : dot_S4000x260_S260x128_S4000x128_1_0_0_1_n_n.contr.Idx) :
    (dot_S4000x260_S260x128_S4000x128_1_0_0_1_n_n.lhsIdx i q 1).val = (q ⟨0, by decide⟩).val :=
  dot_S4000x260_S260x128_S4000x128_1_0_0_1_n_n.lhsIdx_val_of_single rfl i q
private theorem rhs_4000_260_128_0 (i : S4000x128.Idx) (q : dot_S4000x260_S260x128_S4000x128_1_0_0_1_n_n.contr.Idx) :
    (dot_S4000x260_S260x128_S4000x128_1_0_0_1_n_n.rhsIdx i q 0).val = (q ⟨0, by decide⟩).val :=
  dot_S4000x260_S260x128_S4000x128_1_0_0_1_n_n.rhsIdx_val_of_single rfl i q
private theorem rhs_4000_260_128_1 (i : S4000x128.Idx) (q : dot_S4000x260_S260x128_S4000x128_1_0_0_1_n_n.contr.Idx) :
    (dot_S4000x260_S260x128_S4000x128_1_0_0_1_n_n.rhsIdx i q 1).val = (i 1).val := by
  unfold DotDims.rhsIdx
  rw [dif_neg (show ¬(1 : Fin S260x128.rank) ∈ dot_S4000x260_S260x128_S4000x128_1_0_0_1_n_n.rhsBatch by decide), dif_pos (show (1 : Fin S260x128.rank) ∈ dot_S4000x260_S260x128_S4000x128_1_0_0_1_n_n.rhsNonContracting by decide)]
  rfl

/-- `(L·W)[p, j] = Σ_k L[p,k]·W[k,j]` for the message network's first product. -/
private theorem mm_4000_260_128 (l : FVec Ideal S4000x260 .bf16) (w : FVec Ideal S260x128 .bf16) (p : Fin 4000) (j : Fin 128) :
    matmul dot_S4000x260_S260x128_S4000x128_1_0_0_1_n_n none l w (constant (F := Ideal) S4000x128 .f32 0x00000000#32) (ix2 p j)
      = ∑ k : Fin 260, l (ix2 p k) * w (ix2 k j) := by
  refine (Ideal.matmul_constant_zero_apply dot_S4000x260_S260x128_S4000x128_1_0_0_1_n_n none l w (ix2 p j)).trans ?_
  rw [← Equiv.sum_comp (ValueIdx.contrEquiv1 dot_S4000x260_S260x128_S4000x128_1_0_0_1_n_n 260 rfl rfl).symm]
  refine Finset.sum_congr rfl fun k _ => ?_
  have hk := ValueIdx.contrEquiv1_symm_val dot_S4000x260_S260x128_S4000x128_1_0_0_1_n_n 260 rfl rfl k
  have el : dot_S4000x260_S260x128_S4000x128_1_0_0_1_n_n.lhsIdx (ix2 p j) ((ValueIdx.contrEquiv1 dot_S4000x260_S260x128_S4000x128_1_0_0_1_n_n 260 rfl rfl).symm k) = ix2 p k := funext fun a => Fin.ext (by
    match a with
    | ⟨0, _⟩ => exact lhs_4000_260_128_0 _ _
    | ⟨1, _⟩ => exact (lhs_4000_260_128_1 _ _).trans hk)
  have er : dot_S4000x260_S260x128_S4000x128_1_0_0_1_n_n.rhsIdx (ix2 p j) ((ValueIdx.contrEquiv1 dot_S4000x260_S260x128_S4000x128_1_0_0_1_n_n 260 rfl rfl).symm k) = ix2 k j := funext fun a => Fin.ext (by
    match a with
    | ⟨0, _⟩ => exact (rhs_4000_260_128_0 _ _).trans hk
    | ⟨1, _⟩ => exact rhs_4000_260_128_1 _ _)
  rw [el, er]

/-! ### 4000×128 by 128×128 -/

private theorem lhs_4000_128_128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs_4000_128_128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs_4000_128_128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs_4000_128_128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- `(L·W)[p, j] = Σ_k L[p,k]·W[k,j]` for the message network's second product and the coordinate network's first. -/
private theorem mm_4000_128_128 (l : FVec Ideal S4000x128 .bf16) (w : FVec Ideal S128x128 .bf16) (p : Fin 4000) (j : Fin 128) :
    matmul dot_S4000x128_S128x128_S4000x128_1_0_0_1_n_n none l w (constant (F := Ideal) S4000x128 .f32 0x00000000#32) (ix2 p j)
      = ∑ k : Fin 128, l (ix2 p k) * w (ix2 k j) := by
  refine (Ideal.matmul_constant_zero_apply dot_S4000x128_S128x128_S4000x128_1_0_0_1_n_n none l w (ix2 p j)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhs_4000_128_128_0 _ _
    | ⟨1, _⟩ => exact (lhs_4000_128_128_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhs_4000_128_128_0 _ _).trans hk
    | ⟨1, _⟩ => exact rhs_4000_128_128_1 _ _)
  rw [el, er]

/-! ### 4000×128 by 128×1 -/

private theorem lhs_4000_128_1_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
private theorem lhs_4000_128_1_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
private theorem rhs_4000_128_1_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
private theorem rhs_4000_128_1_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- `(L·W)[p, j] = Σ_k L[p,k]·W[k,j]` for the coordinate network's last product, onto one column. -/
private theorem mm_4000_128_1 (l : FVec Ideal S4000x128 .bf16) (w : FVec Ideal S128x1 .bf16) (p : Fin 4000) (j : Fin 1) :
    matmul dot_S4000x128_S128x1_S4000x1_1_0_0_1_n_n none l w (constant (F := Ideal) S4000x1 .f32 0x00000000#32) (ix2 p j)
      = ∑ k : Fin 128, l (ix2 p k) * w (ix2 k j) := by
  refine (Ideal.matmul_constant_zero_apply dot_S4000x128_S128x1_S4000x1_1_0_0_1_n_n none l w (ix2 p j)).trans ?_
  rw [← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p j) ((ValueIdx.contrEquiv1 dot_S4000x128_S128x1_S4000x1_1_0_0_1_n_n 128 rfl rfl).symm k) = ix2 p k := funext fun a => Fin.ext (by
    match a with
    | ⟨0, _⟩ => exact lhs_4000_128_1_0 _ _
    | ⟨1, _⟩ => exact (lhs_4000_128_1_1 _ _).trans hk)
  have er : dot_S4000x128_S128x1_S4000x1_1_0_0_1_n_n.rhsIdx (ix2 p j) ((ValueIdx.contrEquiv1 dot_S4000x128_S128x1_S4000x1_1_0_0_1_n_n 128 rfl rfl).symm k) = ix2 k j := funext fun a => Fin.ext (by
    match a with
    | ⟨0, _⟩ => exact (rhs_4000_128_1_0 _ _).trans hk
    | ⟨1, _⟩ => exact rhs_4000_128_1_1 _ _)
  rw [el, er]

/-! ### 5000×256 by 256×128 -/

private theorem lhs_5000_256_128_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhs_5000_256_128_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhs_5000_256_128_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhs_5000_256_128_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- `(L·W)[p, j] = Σ_k L[p,k]·W[k,j]` for the node network's first product. -/
private theorem mm_5000_256_128 (l : FVec Ideal S5000x256 .bf16) (w : FVec Ideal S256x128 .bf16) (p : Fin 5000) (j : Fin 128) :
    matmul dot_S5000x256_S256x128_S5000x128_1_0_0_1_n_n none l w (constant (F := Ideal) S5000x128 .f32 0x00000000#32) (ix2 p j)
      = ∑ k : Fin 256, l (ix2 p k) * w (ix2 k j) := by
  refine (Ideal.matmul_constant_zero_apply dot_S5000x256_S256x128_S5000x128_1_0_0_1_n_n none l w (ix2 p j)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p j) ((ValueIdx.contrEquiv1 dot_S5000x256_S256x128_S5000x128_1_0_0_1_n_n 256 rfl rfl).symm k) = ix2 p k := funext fun a => Fin.ext (by
    match a with
    | ⟨0, _⟩ => exact lhs_5000_256_128_0 _ _
    | ⟨1, _⟩ => exact (lhs_5000_256_128_1 _ _).trans hk)
  have er : dot_S5000x256_S256x128_S5000x128_1_0_0_1_n_n.rhsIdx (ix2 p j) ((ValueIdx.contrEquiv1 dot_S5000x256_S256x128_S5000x128_1_0_0_1_n_n 256 rfl rfl).symm k) = ix2 k j := funext fun a => Fin.ext (by
    match a with
    | ⟨0, _⟩ => exact (rhs_5000_256_128_0 _ _).trans hk
    | ⟨1, _⟩ => exact rhs_5000_256_128_1 _ _)
  rw [el, er]

/-! ### 5000×128 by 128×128 -/

private theorem lhs_5000_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_5000_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_5000_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_5000_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- `(L·W)[p, j] = Σ_k L[p,k]·W[k,j]` for the node network's last product. -/
private theorem mm_5000_128_128 (l : FVec Ideal S5000x128 .bf16) (w : FVec Ideal S128x128 .bf16) (p : Fin 5000) (j : Fin 128) :
    matmul dot_S5000x128_S128x128_S5000x128_1_0_0_1_n_n none l w (constant (F := Ideal) S5000x128 .f32 0x00000000#32) (ix2 p j)
      = ∑ k : Fin 128, l (ix2 p k) * w (ix2 k j) := by
  refine (Ideal.matmul_constant_zero_apply dot_S5000x128_S128x128_S5000x128_1_0_0_1_n_n none l w (ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_5000_128_128_0 _ _
    | ⟨1, _⟩ => exact (lhs_5000_128_128_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_5000_128_128_0 _ _).trans hk
    | ⟨1, _⟩ => exact rhs_5000_128_128_1 _ _)
  rw [el, er]

/-! ## The bias row broadcast down the rows

A bias is loaded as a block of one row; the cast to its own shape is the identity, and the broadcast reads, at
`(r, j)`, the one row at `j`. -/

private theorem bias_4000x128 (b : Vec Ideal S1x128 .f32) (r : Fin 4000) (j : Fin 128) :
    broadcastTo S4000x128 (shapeCast S1x128 b shapeCasts_S1x128_S1x128) broadcasts_S1x128_S4000x128 (ix2 r j) = b (ix2 0 j) := by
  rw [shapeCast_self]
  exact broadcastTo_1b_ab_apply b broadcasts_S1x128_S4000x128 r j

private theorem bias_4000x1 (b : Vec Ideal S1x1 .f32) (r : Fin 4000) (j : Fin 1) :
    broadcastTo S4000x1 (shapeCast S1x1 b shapeCasts_S1x1_S1x1) broadcasts_S1x1_S4000x1 (ix2 r j) = b (ix2 0 j) := by
  rw [shapeCast_self]
  exact broadcastTo_1b_ab_apply b broadcasts_S1x1_S4000x1 r j

private theorem bias_5000x128 (b : Vec Ideal S1x128 .f32) (r : Fin 5000) (j : Fin 128) :
    broadcastTo S5000x128 (shapeCast S1x128 b shapeCasts_S1x128_S1x128) broadcasts_S1x128_S5000x128 (ix2 r j) = b (ix2 0 j) := by
  rw [shapeCast_self]
  exact broadcastTo_1b_ab_apply b broadcasts_S1x128_S5000x128 r j

/-! ## SiLU as the kernel spells it -/

/-- `v · logistic v` at an index is SiLU of the entry. -/
private theorem silu_at {s : Shape} (v : FVec Ideal s .f32) (i : s.Idx) :
    mulf v (logistic v) i = Cert.Spec.silu (v i) := rfl

/-- The same under the change of format that feeds the next product: the identity on the extended reals. -/
private theorem silu_trunc_at {s : Shape} (v : FVec Ideal s .f32) (i : s.Idx) :
    truncf .bf16 (mulf v (logistic v)) bitsLt_bf16_f32 i = Cert.Spec.silu (v i) := rfl

/-! ## The three stored values -/

/-- The block of messages at row `r`, column `j`: the message network of the block's rows. -/
theorem msg_pay (x : Vec Ideal S4000x260 .f32) (wm1 : Vec Ideal S260x128 .f32) (bm1 : Vec Ideal S1x128 .f32)
    (wm2 : Vec Ideal S128x128 .f32) (bm2 : Vec Ideal S1x128 .f32) (r : Fin 4000) (j : Fin 128) :
    k0_pay2 (F := Ideal) x wm1 bm1 wm2 bm2 (ix2 r j)
      = Cert.Spec.msgNet x wm1 (fun k => bm1 (ix2 0 k)) wm2 (fun k => bm2 (ix2 0 k)) (ix2 r j) := by
  unfold k0_pay2 Cert.Spec.msgNet
  -- the outer SiLU, then the second dense layer: the product's sum plus the bias
  refine (silu_at _ _).trans (congrArg Cert.Spec.silu ?_)
  rw [Cert.Spec.layer_apply]
  refine (addf_apply _ _ _).trans ?_
  refine congrArg₂ (· + ·) ((mm_4000_128_128 _ _ r j).trans (Finset.sum_congr rfl fun k _ => ?_)) (bias_4000x128 bm2 r j)
  -- each term's left factor: the inner SiLU of the first dense layer
  refine congrArg (· * wm2 (ix2 k j)) ((silu_trunc_at _ _).trans (congrArg Cert.Spec.silu ?_))
  rw [Cert.Spec.layer_apply]
  refine (addf_apply _ _ _).trans (congrArg₂ (· + ·) ((mm_4000_260_128 _ _ r k).trans ?_) (bias_4000x128 bm1 r k))
  rw [shapeCast_self]
  rfl

/-- The block of coordinate weights at row `r`: the coordinate network of the block's messages. -/
theorem coord_pay (x : Vec Ideal S4000x260 .f32) (wm1 : Vec Ideal S260x128 .f32) (bm1 : Vec Ideal S1x128 .f32)
    (wm2 : Vec Ideal S128x128 .f32) (bm2 : Vec Ideal S1x128 .f32) (wc1 : Vec Ideal S128x128 .f32) (bc1 : Vec Ideal S1x128 .f32)
    (wc2 : Vec Ideal S128x1 .f32) (bc2 : Vec Ideal S1x1 .f32) (r : Fin 4000) (j : Fin 1) :
    k0_pay1 (F := Ideal) (k0_pay3 wc2) (k0_pay4 x wm1 bm1 wm2 bm2 wc1 bc1) (constant S4000x1 .f32 0x00000000#32) bc2 (ix2 r j)
      = Cert.Spec.headNet (Cert.Spec.msgNet x wm1 (fun k => bm1 (ix2 0 k)) wm2 (fun k => bm2 (ix2 0 k)))
          wc1 (fun k => bc1 (ix2 0 k)) wc2 (fun k => bc2 (ix2 0 k)) (ix2 r j) := by
  unfold k0_pay1 k0_pay3 k0_pay4 Cert.Spec.headNet
  -- the last dense layer: the product's sum plus the bias
  rw [Cert.Spec.layer_apply]
  refine (addf_apply _ _ _).trans ?_
  refine congrArg₂ (· + ·) ((mm_4000_128_1 _ _ r j).trans (Finset.sum_congr rfl fun k _ => ?_)) (bias_4000x1 bc2 r j)
  -- each term's left factor: SiLU of the first dense layer, whose input is the block of messages
  refine congrArg (· * wc2 (ix2 k j)) ((silu_trunc_at _ _).trans (congrArg Cert.Spec.silu ?_))
  rw [Cert.Spec.layer_apply]
  refine (addf_apply _ _ _).trans (congrArg₂ (· + ·) ((mm_4000_128_128 _ _ r k).trans (Finset.sum_congr rfl fun k' _ => ?_)) (bias_4000x128 bc1 r k))
  exact congrArg (· * wc1 (ix2 k' k)) (msg_pay x wm1 bm1 wm2 bm2 r k')

/-- The block of new node features at row `r`, column `j`: the node network of the block's rows. -/
theorem node_pay (x : Vec Ideal S5000x256 .f32) (wn1 : Vec Ideal S256x128 .f32) (bn1 : Vec Ideal S1x128 .f32)
    (wn2 : Vec Ideal S128x128 .f32) (bn2 : Vec Ideal S1x128 .f32) (r : Fin 5000) (j : Fin 128) :
    k1_pay1 (F := Ideal) x wn1 bn1 wn2 bn2 (ix2 r j)
      = Cert.Spec.headNet x wn1 (fun k => bn1 (ix2 0 k)) wn2 (fun k => bn2 (ix2 0 k)) (ix2 r j) := by
  unfold k1_pay1 Cert.Spec.headNet
  -- the last dense layer: the product's sum plus the bias
  rw [Cert.Spec.layer_apply]
  refine (addf_apply _ _ _).trans ?_
  refine congrArg₂ (· + ·) ((mm_5000_128_128 _ _ r j).trans (Finset.sum_congr rfl fun k _ => ?_)) (bias_5000x128 bn2 r j)
  -- each term's left factor: SiLU of the first dense layer
  refine congrArg (· * wn2 (ix2 k j)) ((silu_trunc_at _ _).trans (congrArg Cert.Spec.silu ?_))
  rw [Cert.Spec.layer_apply]
  refine (addf_apply _ _ _).trans (congrArg₂ (· + ·) ((mm_5000_256_128 _ _ r k).trans ?_) (bias_5000x128 bn1 r k))
  rw [shapeCast_self]
  rfl

end Cert.KernelIdeal.Payload

end
-- ==== Proof.MsgValue.lean ====
/-
  What the message kernel's region leaves in its two output arrays, as whole-array functions of the arrays it is
  entered with: grid point `t` writes back rows 4000·t … 4000·t + 3999, and a row of either network depends only on
  that row of the edge inputs, so the 160 blocks are the restrictions of ONE function of the whole arrays.
-/
import proofs.«417115_j7541962572405_1_alg».proof.Proof.KI.MsgRegion
import proofs.«417115_j7541962572405_1_alg».proof.Proof.Payload
import Idealize.ShloMosaic.Lib.Pipeline.Value
import Idealize.ShloMosaic.Lib.ValueIdx

set_option maxRecDepth 16384

noncomputable section

open scoped BigOperators

namespace Cert.KernelIdeal.MsgValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The messages, all 640000 rows: the message network of the edge inputs. -/
def msgs (c : Dev nD) : S640000x128.Idx → EReal :=
  Cert.Spec.msgNet (V c main_v13 : S640000x260.Idx → EReal) (V c main_arg4 : S260x128.Idx → EReal)
    (fun k => (V c main_v14 : S1x128.Idx → EReal) (ix2 0 k)) (V c main_arg6 : S128x128.Idx → EReal)
    (fun k => (V c main_v15 : S1x128.Idx → EReal) (ix2 0 k))

/-- The coordinate weights, one per edge: the coordinate network of the messages. -/
def coordw (c : Dev nD) : S640000x1.Idx → EReal :=
  Cert.Spec.headNet (msgs V c) (V c main_arg12 : S128x128.Idx → EReal) (fun k => (V c main_v16 : S1x128.Idx → EReal) (ix2 0 k))
    (V c main_arg14 : S128x1.Idx → EReal) (fun k => (V c main_v17 : S1x1.Idx → EReal) (ix2 0 k))

/-! ## Zero offsets, and the printed index maps decided over the grid -/

theorem hz : (![0, 0] : Fin 2 → Nat) = fun _ => 0 := funext fun a => by fin_cases a <;> rfl

/-- The three row windows (the edge inputs, the messages, the coordinate weights) sit at block `t` on the row axis
    and block 0 on the column axis. -/
theorem idx_rows : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The eight parameter windows sit at block (0, 0) at every point. -/
theorem idx_res : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input blocks as parts of the arrays

A block's coordinate in its array is the block index times the block size plus the coordinate inside the block. -/

/-- Row `r` of the edge inputs' block at point `t` is row `4000·t + r` of the array. -/
theorem blk_rows (c : Dev nD) (t : Fin cfg0.N) (r : Fin 4000) (k : Fin 260) (h : 4000 * t.val + r.val < 640000) :
    (MsgRegion.blk (F := Ideal) V c 0 t : S4000x260.Idx → EReal) (ix2 r k)
      = (V c main_v13 : S640000x260.Idx → EReal) (ix2 ⟨4000 * t.val + r.val, h⟩ k) := by
  obtain ⟨⟨e0, e1⟩, -, -⟩ := idx_rows t
  show V c main_v13 (((cfg0.win 0).blk t).view.emb (ix2 r k)) = V c main_v13 (ix2 ⟨4000 * t.val + r.val, h⟩ k)
  refine congrArg _ (funext fun a => Fin.ext ?_)
  match a with
  | ⟨0, _⟩ => show win0_0.index t (0 : Fin 2) * 4000 + 1 * r.val = 4000 * t.val + r.val; rw [e0]; omega
  | ⟨1, _⟩ => show win0_0.index t (1 : Fin 2) * 260 + 1 * k.val = k.val; rw [e1]; omega

/-- The message network's first weights are held whole at every point. -/
theorem blk_wm1 (c : Dev nD) (t : Fin cfg0.N) :
    (MsgRegion.blk (F := Ideal) V c 1 t : S260x128.Idx → EReal) = (V c main_arg4 : S260x128.Idx → EReal) := by
  obtain ⟨⟨e0, e1⟩, -⟩ := idx_res t
  funext y
  show V c main_arg4 (((cfg0.win 1).blk t).view.emb y) = V c main_arg4 y
  refine congrArg _ (funext fun a => Fin.ext ?_)
  match a with
  | ⟨0, _⟩ => show win0_1.index t (0 : Fin 2) * 260 + 1 * (y 0).val = (y 0).val; rw [e0]; omega
  | ⟨1, _⟩ => show win0_1.index t (1 : Fin 2) * 128 + 1 * (y 1).val = (y 1).val; rw [e1]; omega

/-- Its first bias row. -/
theorem blk_bm1 (c : Dev nD) (t : Fin cfg0.N) :
    (MsgRegion.blk (F := Ideal) V c 2 t : S1x128.Idx → EReal) = (V c main_v14 : S1x128.Idx → EReal) := by
  obtain ⟨-, ⟨e0, e1⟩, -⟩ := idx_res t
  funext y
  show V c main_v14 (((cfg0.win 2).blk t).view.emb y) = V c main_v14 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Its second weights. -/
theorem blk_wm2 (c : Dev nD) (t : Fin cfg0.N) :
    (MsgRegion.blk (F := Ideal) V c 3 t : S128x128.Idx → EReal) = (V c main_arg6 : S128x128.Idx → EReal) := by
  obtain ⟨-, -, ⟨e0, e1⟩, -⟩ := idx_res t
  funext y
  show V c main_arg6 (((cfg0.win 3).blk t).view.emb y) = V c main_arg6 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Its second bias row. -/
theorem blk_bm2 (c : Dev nD) (t : Fin cfg0.N) :
    (MsgRegion.blk (F := Ideal) V c 4 t : S1x128.Idx → EReal) = (V c main_v15 : S1x128.Idx → EReal) := by
  obtain ⟨-, -, -, ⟨e0, e1⟩, -⟩ := idx_res t
  funext y
  show V c main_v15 (((cfg0.win 4).blk t).view.emb y) = V c main_v15 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The coordinate network's first weights. -/
theorem blk_wc1 (c : Dev nD) (t : Fin cfg0.N) :
    (MsgRegion.blk (F := Ideal) V c 5 t : S128x128.Idx → EReal) = (V c main_arg12 : S128x128.Idx → EReal) := by
  obtain ⟨-, -, -, -, ⟨e0, e1⟩, -⟩ := idx_res t
  funext y
  show V c main_arg12 (((cfg0.win 5).blk t).view.emb y) = V c main_arg12 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Its first bias row. -/
theorem blk_bc1 (c : Dev nD) (t : Fin cfg0.N) :
    (MsgRegion.blk (F := Ideal) V c 6 t : S1x128.Idx → EReal) = (V c main_v16 : S1x128.Idx → EReal) := by
  obtain ⟨-, -, -, -, -, ⟨e0, e1⟩, -⟩ := idx_res t
  funext y
  show V c main_v16 (((cfg0.win 6).blk t).view.emb y) = V c main_v16 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Its last weights, one column. -/
theorem blk_wc2 (c : Dev nD) (t : Fin cfg0.N) :
    (MsgRegion.blk (F := Ideal) V c 7 t : S128x1.Idx → EReal) = (V c main_arg14 : S128x1.Idx → EReal) := by
  obtain ⟨-, -, -, -, -, -, ⟨e0, e1⟩, -⟩ := idx_res t
  funext y
  show V c main_arg14 (((cfg0.win 7).blk t).view.emb y) = V c main_arg14 y
  refine congrArg _ (funext fun a => Fin.ext ?_)
  match a with
  | ⟨0, _⟩ => show win0_7.index t (0 : Fin 2) * 128 + 1 * (y 0).val = (y 0).val; rw [e0]; omega
  | ⟨1, _⟩ => show win0_7.index t (1 : Fin 2) * 1 + 1 * (y 1).val = (y 1).val; rw [e1]; omega

/-- Its last bias, one number. -/
theorem blk_bc2 (c : Dev nD) (t : Fin cfg0.N) :
    (MsgRegion.blk (F := Ideal) V c 8 t : S1x1.Idx → EReal) = (V c main_v17 : S1x1.Idx → EReal) := by
  obtain ⟨-, -, -, -, -, -, -, ⟨e0, e1⟩⟩ := idx_res t
  funext y
  show V c main_v17 (((cfg0.win 8).blk t).view.emb y) = V c main_v17 y
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 1 + 1 * (y 1).val = (y 1).val; rw [e1]; omega

/-! ## The output blocks as parts of whole-array functions -/

/-- Row `r` of point `t`'s block of a 640000×128 array function is its row `4000·t + r`. -/
theorem read_msg (G : S640000x128.Idx → EReal) (t : Fin cfg0.N) (r : Fin 4000) (j : Fin 128) (h : 4000 * t.val + r.val < 640000) :
    (((cfg0.win 9).blk t).view.read (Elt Ideal) G : S4000x128.Idx → EReal) (ix2 r j) = G (ix2 ⟨4000 * t.val + r.val, h⟩ j) := by
  obtain ⟨-, ⟨e0, e1⟩, -⟩ := idx_rows t
  show G (((cfg0.win 9).blk t).view.emb (ix2 r j)) = G (ix2 ⟨4000 * t.val + r.val, h⟩ j)
  refine congrArg _ (funext fun a => Fin.ext ?_)
  match a with
  | ⟨0, _⟩ => show win0_9.index t (0 : Fin 2) * 4000 + 1 * r.val = 4000 * t.val + r.val; rw [e0]; omega
  | ⟨1, _⟩ => show win0_9.index t (1 : Fin 2) * 128 + 1 * j.val = j.val; rw [e1]; omega

/-- The same for a 640000×1 array function. -/
theorem read_coord (G : S640000x1.Idx → EReal) (t : Fin cfg0.N) (r : Fin 4000) (j : Fin 1) (h : 4000 * t.val + r.val < 640000) :
    (((cfg0.win 10).blk t).view.read (Elt Ideal) G : S4000x1.Idx → EReal) (ix2 r j) = G (ix2 ⟨4000 * t.val + r.val, h⟩ j) := by
  obtain ⟨-, -, ⟨e0, e1⟩⟩ := idx_rows t
  show G (((cfg0.win 10).blk t).view.emb (ix2 r j)) = G (ix2 ⟨4000 * t.val + r.val, h⟩ j)
  refine congrArg _ (funext fun a => Fin.ext ?_)
  match a with
  | ⟨0, _⟩ => show win0_10.index t (0 : Fin 2) * 4000 + 1 * r.val = 4000 * t.val + r.val; rw [e0]; omega
  | ⟨1, _⟩ => show win0_10.index t (1 : Fin 2) * 1 + 1 * j.val = j.val; rw [e1]; omega

/-- A row of the messages is the message network of that row of the edge inputs' block. -/
theorem msgs_row (c : Dev nD) (t : Fin cfg0.N) (r : Fin 4000) (k : Fin 128) (h : 4000 * t.val + r.val < 640000) :
    Cert.Spec.msgNet (MsgRegion.blk (F := Ideal) V c 0 t : S4000x260.Idx → EReal) (V c main_arg4 : S260x128.Idx → EReal)
        (fun k => (V c main_v14 : S1x128.Idx → EReal) (ix2 0 k)) (V c main_arg6 : S128x128.Idx → EReal)
        (fun k => (V c main_v15 : S1x128.Idx → EReal) (ix2 0 k)) (ix2 r k)
      = msgs V c (ix2 ⟨4000 * t.val + r.val, h⟩ k) := by
  unfold msgs
  exact Cert.Spec.msgNet_row _ _ _ _ _ _ r ⟨4000 * t.val + r.val, h⟩ k fun k' => blk_rows V c t r k' h

/-! ## What each point writes back -/

/-- Point `t` writes back block `t` of the messages: the body's one store of the message payload over the whole
    buffers, the payload read as the message network of the block, and a row of the network depending on that row only. -/
theorem flushed_msg (c : Dev nD) (t : Fin cfg0.N) :
    (MsgRegion.dat (F := Ideal) V c).flushed 9 t = ((cfg0.win 9).blk t).view.read (Elt Ideal) (msgs V c) := by
  have ht : t.val < 160 := Nat.lt_of_lt_of_eq t.isLt (show cfg0.N = 160 from N_0)
  show (cfg0.win 9).cut (grid0.coords t) ((MsgRegion.dat (F := Ideal) V c).after 9 t) = _
  rw [MsgRegion.after_msg]
  unfold MsgRegion.msgBlock
  rw [View.canon_unit_zero hz]
  simp only [View.ld_unit_zero (S := S4000x260) hz, View.ld_unit_zero (S := S260x128) hz, View.ld_unit_zero (S := S1x128) hz,
    View.ld_unit_zero (S := S128x128) hz]
  rw [blk_wm1, blk_bm1, blk_wm2, blk_bm2]
  funext j
  obtain ⟨r, k, rfl⟩ : ∃ (r : Fin 4000) (k : Fin 128), j = ix2 r k := ⟨j 0, j 1, eq_ix2 (n0 := 4000) (n1 := 128) j⟩
  have h : 4000 * t.val + r.val < 640000 := by have := r.isLt; omega
  show k0_pay2 (F := Ideal) (MsgRegion.blk (F := Ideal) V c 0 t) (V c main_arg4) (V c main_v14) (V c main_arg6) (V c main_v15) (ix2 r k)
    = (((cfg0.win 9).blk t).view.read (Elt Ideal) (msgs V c) : S4000x128.Idx → EReal) (ix2 r k)
  rw [read_msg (msgs V c) t r k h, Payload.msg_pay]
  exact msgs_row V c t r k h

/-- Point `t` writes back block `t` of the coordinate weights: the coordinate network of the block's messages, which
    are the messages' rows `4000·t …`. -/
theorem flushed_coord (c : Dev nD) (t : Fin cfg0.N) :
    (MsgRegion.dat (F := Ideal) V c).flushed 10 t = ((cfg0.win 10).blk t).view.read (Elt Ideal) (coordw V c) := by
  have ht : t.val < 160 := Nat.lt_of_lt_of_eq t.isLt (show cfg0.N = 160 from N_0)
  show (cfg0.win 10).cut (grid0.coords t) ((MsgRegion.dat (F := Ideal) V c).after 10 t) = _
  rw [MsgRegion.after_coord]
  unfold MsgRegion.coordBlock
  rw [View.canon_unit_zero hz]
  simp only [View.ld_unit_zero (S := S4000x260) hz, View.ld_unit_zero (S := S260x128) hz, View.ld_unit_zero (S := S1x128) hz,
    View.ld_unit_zero (S := S128x128) hz, View.ld_unit_zero (S := S128x1) hz, View.ld_unit_zero (S := S1x1) hz]
  rw [blk_wm1, blk_bm1, blk_wm2, blk_bm2, blk_wc1, blk_bc1, blk_wc2, blk_bc2]
  funext j
  obtain ⟨r, k, rfl⟩ : ∃ (r : Fin 4000) (k : Fin 1), j = ix2 r k := ⟨j 0, j 1, eq_ix2 (n0 := 4000) (n1 := 1) j⟩
  have h : 4000 * t.val + r.val < 640000 := by have := r.isLt; omega
  show k0_pay1 (F := Ideal) (k0_pay3 (V c main_arg14))
      (k0_pay4 (MsgRegion.blk (F := Ideal) V c 0 t) (V c main_arg4) (V c main_v14) (V c main_arg6) (V c main_v15) (V c main_arg12) (V c main_v16))
      (constant (F := Ideal) S4000x1 .f32 0x00000000#32) (V c main_v17) (ix2 r k)
    = (((cfg0.win 10).blk t).view.read (Elt Ideal) (coordw V c) : S4000x1.Idx → EReal) (ix2 r k)
  rw [read_coord (coordw V c) t r k h, Payload.coord_pay]
  unfold coordw
  exact Cert.Spec.headNet_row _ _ _ _ _ _ r ⟨4000 * t.val + r.val, h⟩ k fun k' => msgs_row V c t r k' h

/-! ## The blocks cover the arrays: row `i` is in the block of point `i / 4000` -/

theorem mem_blk_msg (t : Fin cfg0.N) (i : S640000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v18_0).slice (win0_9.rect t)).set ↔ _
  rw [View.set_slice_whole, Rect.mem_set_unit]
  exact Iff.rfl

theorem mem_blk_coord (t : Fin cfg0.N) (i : S640000x1.Idx) :
    i ∈ ((cfg0.win 10).blk t).view.set ↔ ∀ a : Fin 2, win0_10.index t a * S4000x1.size a ≤ (i a).val ∧ (i a).val < win0_10.index t a * S4000x1.size a + S4000x1.size a := by
  show i ∈ ((View.whole main_v18_1).slice (win0_10.rect t)).set ↔ _
  rw [View.set_slice_whole, Rect.mem_set_unit]
  exact Iff.rfl

theorem cover_msg (i : S640000x128.Idx) : ∃ t : Fin cfg0.N, (cfg0.win 9).flush t = true ∧ i ∈ ((cfg0.win 9).blk t).view.set := by
  have hi0 : (i 0).val < 640000 := (i 0).isLt
  have hi1 : (i 1).val < 128 := (i 1).isLt
  have hN : cfg0.N = 160 := N_0
  let t : Fin cfg0.N := ⟨(i 0).val / 4000, by rw [hN]; omega⟩
  obtain ⟨-, ⟨e0, e1⟩, -⟩ := idx_rows t
  refine ⟨t, flush0_9 t, ?_⟩
  rw [mem_blk_msg]
  intro a
  match a with
  | ⟨0, _⟩ => show win0_9.index t (0 : Fin 2) * 4000 ≤ (i 0).val ∧ (i 0).val < win0_9.index t (0 : Fin 2) * 4000 + 4000; rw [e0]; show (i 0).val / 4000 * 4000 ≤ _ ∧ _ < (i 0).val / 4000 * 4000 + 4000; omega
  | ⟨1, _⟩ => show win0_9.index t (1 : Fin 2) * 128 ≤ (i 1).val ∧ (i 1).val < win0_9.index t (1 : Fin 2) * 128 + 128; rw [e1]; omega

theorem cover_coord (i : S640000x1.Idx) : ∃ t : Fin cfg0.N, (cfg0.win 10).flush t = true ∧ i ∈ ((cfg0.win 10).blk t).view.set := by
  have hi0 : (i 0).val < 640000 := (i 0).isLt
  have hi1 : (i 1).val < 1 := (i 1).isLt
  have hN : cfg0.N = 160 := N_0
  let t : Fin cfg0.N := ⟨(i 0).val / 4000, by rw [hN]; omega⟩
  obtain ⟨-, -, ⟨e0, e1⟩⟩ := idx_rows t
  refine ⟨t, flush0_10 t, ?_⟩
  rw [mem_blk_coord]
  intro a
  match a with
  | ⟨0, _⟩ => show win0_10.index t (0 : Fin 2) * 4000 ≤ (i 0).val ∧ (i 0).val < win0_10.index t (0 : Fin 2) * 4000 + 4000; rw [e0]; show (i 0).val / 4000 * 4000 ≤ _ ∧ _ < (i 0).val / 4000 * 4000 + 4000; omega
  | ⟨1, _⟩ => show win0_10.index t (1 : Fin 2) * 1 ≤ (i 1).val ∧ (i 1).val < win0_10.index t (1 : Fin 2) * 1 + 1; rw [e1]; omega

/-! ## The arrays after the region -/

/-- After the region the first output array holds the messages, -/
theorem msg_final (c : Dev nD) : (MsgRegion.dat (F := Ideal) V c).arrAt 9 cfg0.N = msgs V c :=
  (MsgRegion.dat (F := Ideal) V c).arrAt_eq_of_cover 9 (msgs V c) (fun t _ => flushed_msg V c t) cover_msg

/-- and the second the coordinate weights. -/
theorem coord_final (c : Dev nD) : (MsgRegion.dat (F := Ideal) V c).arrAt 10 cfg0.N = coordw V c :=
  (MsgRegion.dat (F := Ideal) V c).arrAt_eq_of_cover 10 (coordw V c) (fun t _ => flushed_coord V c t) cover_coord

end Cert.KernelIdeal.MsgValue

end
-- ==== Proof.NodeValue.lean ====
/-
  What the node kernel's region leaves in its output array, as a whole-array function of the arrays it is entered
  with: grid point `t` writes back rows 5000·t … 5000·t + 4999, and a row of the node network depends only on that row
  of the concatenated node features, so the ten blocks are the restrictions of ONE function of the whole arrays.
-/
import proofs.«417115_j7541962572405_1_alg».proof.Proof.KI.NodeRegion
import proofs.«417115_j7541962572405_1_alg».proof.Proof.Payload
import Idealize.ShloMosaic.Lib.Pipeline.Value
import Idealize.ShloMosaic.Lib.ValueIdx

set_option maxRecDepth 16384

noncomputable section

open scoped BigOperators

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where the blocks sit -/

/-- A whole-buffer access has zero offsets, however the zeros are spelt. -/
private theorem zero_off : (![0, 0] : Fin 2 → Nat) = fun _ => 0 := funext fun a => by fin_cases a <;> rfl

/-- The index maps over the ten grid points: the block of rows and the output block sit at block row `t`, block
    column 0; the weights and the bias rows are their whole arrays, block (0, 0) at every point. -/
private theorem index_maps : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-! ## The input blocks, as parts of the arrays -/

/-- The block of rows at point `t` is rows 5000·t … 5000·t + 4999 of the concatenated node features. -/
private theorem rows_read (c : Dev nD) (t : Fin cfg1.N) (y : S5000x256.Idx) (i : S50000x256.Idx)
    (h0 : (i 0).val = 5000 * t.val + (y 0).val) (h1 : (i 1).val = (y 1).val) :
    (NodeRegion.blk V c 0 t : Vec Ideal S5000x256 .f32) y = (V c main_v27 : S50000x256.Idx → EReal) i := by
  obtain ⟨⟨e0, e1⟩, -⟩ := index_maps t
  show (V c main_v27 : S50000x256.Idx → EReal) (((cfg1.win 0).blk t).view.emb y) = (V c main_v27 : S50000x256.Idx → EReal) i
  refine congrArg (V c main_v27 : S50000x256.Idx → EReal) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 256 + 1 * (y 1).val = (i 1).val; rw [e1, h1]; omega

/-- The first layer's weights' block is the whole matrix. -/
private theorem w1_read (c : Dev nD) (t : Fin cfg1.N) :
    (NodeRegion.blk V c 1 t : Vec Ideal S256x128 .f32) = (V c main_arg8 : S256x128.Idx → EReal) := by
  obtain ⟨-, ⟨e0, e1⟩, -⟩ := index_maps t
  funext y
  show (V c main_arg8 : S256x128.Idx → EReal) (((cfg1.win 1).blk t).view.emb y) = (V c main_arg8 : S256x128.Idx → EReal) y
  refine congrArg (V c main_arg8 : S256x128.Idx → EReal) ?_
  funext a
  apply Fin.ext
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- The first layer's bias block is the whole row. -/
private theorem b1_read (c : Dev nD) (t : Fin cfg1.N) :
    (NodeRegion.blk V c 2 t : Vec Ideal S1x128 .f32) = (V c main_v28 : S1x128.Idx → EReal) := by
  obtain ⟨-, -, ⟨e0, e1⟩, -⟩ := index_maps t
  funext y
  show (V c main_v28 : S1x128.Idx → EReal) (((cfg1.win 2).blk t).view.emb y) = (V c main_v28 : S1x128.Idx → EReal) y
  refine congrArg (V c main_v28 : S1x128.Idx → EReal) ?_
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second layer's weights' block is the whole matrix. -/
private theorem w2_read (c : Dev nD) (t : Fin cfg1.N) :
    (NodeRegion.blk V c 3 t : Vec Ideal S128x128 .f32) = (V c main_arg10 : S128x128.Idx → EReal) := by
  obtain ⟨-, -, -, ⟨e0, e1⟩, -⟩ := index_maps t
  funext y
  show (V c main_arg10 : S128x128.Idx → EReal) (((cfg1.win 3).blk t).view.emb y) = (V c main_arg10 : S128x128.Idx → EReal) y
  refine congrArg (V c main_arg10 : S128x128.Idx → EReal) ?_
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second layer's bias block is the whole row. -/
private theorem b2_read (c : Dev nD) (t : Fin cfg1.N) :
    (NodeRegion.blk V c 4 t : Vec Ideal S1x128 .f32) = (V c main_v29 : S1x128.Idx → EReal) := by
  obtain ⟨-, -, -, -, ⟨e0, e1⟩, -⟩ := index_maps t
  funext y
  show (V c main_v29 : S1x128.Idx → EReal) (((cfg1.win 4).blk t).view.emb y) = (V c main_v29 : S1x128.Idx → EReal) y
  refine congrArg (V c main_v29 : S1x128.Idx → EReal) ?_
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## One entry of a block -/

/-- An entry of the node network of a block of rows is the same entry of the network of any array whose row there
    is the block's row: a row of the network depends only on that row of its input. -/
private theorem block_entry (x : Vec Ideal S5000x256 .f32) (w1 : Vec Ideal S256x128 .f32) (b1 : Vec Ideal S1x128 .f32)
    (w2 : Vec Ideal S128x128 .f32) (b2 : Vec Ideal S1x128 .f32) (X : S50000x256.Idx → EReal)
    (y : S5000x128.Idx) (i : S50000x128.Idx) (hcol : (i 1).val = (y 1).val)
    (hrows : ∀ k : Fin 256, x (ix2 (y 0) k) = X (ix2 (i 0) k)) :
    k1_pay1 (F := Ideal) x w1 b1 w2 b2 y
      = Cert.Spec.headNet X w1 (fun k => b1 (ix2 0 k)) w2 (fun k => b2 (ix2 0 k)) i := by
  obtain ⟨r, j, rfl⟩ : ∃ r j, y = ix2 r j := ⟨y 0, y 1, eq_ix2 y⟩
  obtain ⟨r', j', rfl⟩ : ∃ r' j', i = ix2 r' j' := ⟨i 0, i 1, eq_ix2 i⟩
  obtain rfl : j' = j := Fin.ext hcol
  rw [Payload.node_pay]
  exact Cert.Spec.headNet_row x X w1 _ w2 _ r r' j' hrows

/-- The new node features, all 50000 rows: the node network of the concatenated features. -/
def feats (c : Dev nD) : S50000x128.Idx → EReal :=
  Cert.Spec.headNet (V c main_v27 : S50000x256.Idx → EReal) (V c main_arg8 : S256x128.Idx → EReal)
    (fun k => (V c main_v28 : S1x128.Idx → EReal) (ix2 0 k)) (V c main_arg10 : S128x128.Idx → EReal)
    (fun k => (V c main_v29 : S1x128.Idx → EReal) (ix2 0 k))

/-! ## What each point writes back, and the array after the last point -/

/-- Point `t` writes back block `t` of the new node features. -/
private theorem out_flushed (c : Dev nD) (t : Fin cfg1.N) :
    (NodeRegion.dat (F := Ideal) V c).flushed 5 t = ((cfg1.win 5).blk t).view.read (Elt Ideal) (feats V c) := by
  show (cfg1.win 5).cut (grid1.coords t) ((NodeRegion.dat (F := Ideal) V c).after 5 t) = _
  rw [NodeRegion.after_out]
  unfold NodeRegion.outBlock
  rw [View.canon_unit_zero zero_off]
  simp only [View.ld_unit_zero (S := S5000x256) zero_off, View.ld_unit_zero (S := S256x128) zero_off,
    View.ld_unit_zero (S := S1x128) zero_off, View.ld_unit_zero (S := S128x128) zero_off]
  rw [w1_read V c t, b1_read V c t, w2_read V c t, b2_read V c t]
  obtain ⟨-, -, -, -, -, e0, e1⟩ := index_maps t
  funext y
  rw [View.read_apply]
  unfold feats
  refine block_entry _ _ _ _ _ _ _ _ ?_ ?_
  · show win1_5.index t (1 : Fin 2) * 128 + 1 * (y 1).val = (y 1).val
    rw [e1]; omega
  · intro k
    refine rows_read V c t _ _ ?_ rfl
    show win1_5.index t (0 : Fin 2) * 5000 + 1 * (y 0).val = 5000 * t.val + (y 0).val
    rw [e0]; omega

/-- An index of the output array is in point `t`'s block iff each coordinate is in the block's range on its axis. -/
private theorem mem_out_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v30).slice (win1_5.rect t)).set ↔ _
  rw [View.set_slice_whole, Rect.mem_set_unit]
  exact Iff.rfl

/-- The ten blocks fill the output array: row `r` is in the block of point `r / 5000`. -/
private theorem out_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, e0, e1⟩ := index_maps t
  refine ⟨t, flush1_5 t, ?_⟩
  rw [mem_out_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- After the region the output array holds them. -/
theorem node_final (c : Dev nD) : (NodeRegion.dat (F := Ideal) V c).arrAt 5 cfg1.N = feats V c :=
  (NodeRegion.dat (F := Ideal) V c).arrAt_eq_of_cover 5 (feats V c) (fun t _ => out_flushed V c t) out_cover

end Cert.KernelIdeal.NodeValue

end
-- ==== Proof.RefValue.lean ====
/-
  The reference's three networks, read off its whole-array operations over the extended reals: a `dot_general` with
  one contracted axis is the plain sum over it, the bias vector is broadcast down the rows, and jax's SiLU is
  `x · (1 / (1 + e^(-x)))`. So the reference's messages, coordinate weights and new node features are the
  specification's networks of the stages that feed them.
-/
import proofs.«417115_j7541962572405_1_alg».proof.Proof.RefRead
import proofs.«417115_j7541962572405_1_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- Jax's SiLU, spelled out by the host as negate, exponential, `1 + ·`, `1 / ·` and multiply, is the
specification's SiLU at each element (the literal `0x3F800000` is the real one). -/
private theorem silu_host (x : Ideal .f32) :
    FloatOps.mulf x (FloatOps.hostDivf (FloatOps.ofBits .f32 0x3F800000#32)
        (FloatOps.addf (FloatOps.ofBits .f32 0x3F800000#32) (FloatOps.hostUnary .exp (FloatOps.hostNegf x))))
      = Cert.Spec.silu x := by
  simp only [Ideal.mulf_def, Ideal.hostDivf_def, Ideal.ofBits_def, Ideal.ofBits_one_f32, Ideal.addf_def,
    Ideal.hostUnary_exp_def, Ideal.hostNegf_def, Ideal.negf_def]
  rfl

/-- The message network's first layer at one entry: the reference's dense layer over the concatenated edge inputs,
its bias row and the spelled-out SiLU. -/
private theorem msg_hidden (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (r : Fin 640000) (k : Fin 128) :
    val_main_v39 (F := Ideal) x0 x1 x2 x3 x4 x5 (ix2 r k)
      = Cert.Spec.act (Cert.Spec.layer (val_main_v34 (F := Ideal) x0 x1 x2 x3) x4 (fun k => x5 (ix1 k))) (ix2 r k) := by
  have el : ∀ q : Fin 260, lidx_main_v35 (ix2 r k) q = ix2 r q := fun q =>
    funext fun a => Fin.ext (by match a with | ⟨0, _⟩ => rfl | ⟨1, _⟩ => rfl)
  have er : ∀ q : Fin 260, ridx_main_v35 (ix2 r k) q = ix2 q k := fun q =>
    funext fun a => Fin.ext (by match a with | ⟨0, _⟩ => rfl | ⟨1, _⟩ => rfl)
  have eb : idx_main_v36 (idx_main_v37 (ix2 r k)) = ix1 k :=
    funext fun a => Fin.ext (by match a with | ⟨0, _⟩ => rfl)
  rw [val_main_v39_apply, val_main_call1_v5_apply, val_main_call1_v4_apply, val_main_call1_cst_0_apply,
    val_main_call1_v3_apply, val_main_call1_v2_apply, val_main_call1_cst_apply, val_main_call1_v1_apply,
    val_main_call1_v0_apply, silu_host, val_main_v38_apply, val_main_v35_apply, val_main_v37_apply,
    val_main_v36_apply, eb, Cert.Spec.act_apply, Cert.Spec.layer_apply]
  simp only [el, er]
  generalize val_main_v34 (F := Ideal) x0 x1 x2 x3 = Y
  rfl

/-- The message network's second layer at one entry, over the reference's own first-layer array. -/
private theorem msg_out (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 640000) (j : Fin 128) :
    val_main_v44 (F := Ideal) x0 x1 x2 x3 x4 x5 x6 x7 (ix2 r j)
      = Cert.Spec.act (Cert.Spec.layer (val_main_v39 (F := Ideal) x0 x1 x2 x3 x4 x5) x6 (fun k => x7 (ix1 k))) (ix2 r j) := by
  have el : ∀ q : Fin 128, lidx_main_v40 (ix2 r j) q = ix2 r q := fun q =>
    funext fun a => Fin.ext (by match a with | ⟨0, _⟩ => rfl | ⟨1, _⟩ => rfl)
  have er : ∀ q : Fin 128, ridx_main_v40 (ix2 r j) q = ix2 q j := fun q =>
    funext fun a => Fin.ext (by match a with | ⟨0, _⟩ => rfl | ⟨1, _⟩ => rfl)
  have eb : idx_main_v41 (idx_main_v42 (ix2 r j)) = ix1 j :=
    funext fun a => Fin.ext (by match a with | ⟨0, _⟩ => rfl)
  rw [val_main_v44_apply, val_main_call2_v5_apply, val_main_call2_v4_apply, val_main_call2_cst_0_apply,
    val_main_call2_v3_apply, val_main_call2_v2_apply, val_main_call2_cst_apply, val_main_call2_v1_apply,
    val_main_call2_v0_apply, silu_host, val_main_v43_apply, val_main_v40_apply, val_main_v42_apply,
    val_main_v41_apply, eb, Cert.Spec.act_apply, Cert.Spec.layer_apply]
  simp only [el, er]
  generalize val_main_v39 (F := Ideal) x0 x1 x2 x3 x4 x5 = Y
  rfl

/-- The reference's messages are the message network of its concatenated edge inputs. -/
theorem ref_msg (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v44 (F := Ideal) x0 x1 x2 x3 x4 x5 x6 x7
      = Cert.Spec.msgNet (val_main_v34 (F := Ideal) x0 x1 x2 x3) x4 (fun k => x5 (ix1 k)) x6 (fun k => x7 (ix1 k)) := by
  funext i
  obtain ⟨r, j, rfl⟩ : ∃ (r : Fin 640000) (j : Fin 128), i = ix2 r j := ⟨i 0, i 1, eq_ix2 i⟩
  rw [msg_out]
  unfold Cert.Spec.msgNet
  rw [Cert.Spec.act_apply, Cert.Spec.act_apply]
  exact congrArg Cert.Spec.silu
    (Cert.Spec.layer_row _ _ x6 _ r r j fun k => msg_hidden x0 x1 x2 x3 x4 x5 r k)

/-- The coordinate network's hidden layer at one entry: the reference's dense layer over its messages, its bias row
and the spelled-out SiLU. -/
private theorem coord_hidden (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x12 : (⟨S128x128, .f32⟩ : BufTy).Contents (Elt Ideal)) (x13 : (⟨S128, .f32⟩ : BufTy).Contents (Elt Ideal)) (r : Fin 640000) (k : Fin 128) :
    val_main_v62 (F := Ideal) x0 x1 x2 x3 x4 x5 x6 x7 x12 x13 (ix2 r k)
      = Cert.Spec.act (Cert.Spec.layer (val_main_v44 (F := Ideal) x0 x1 x2 x3 x4 x5 x6 x7) x12 (fun k => x13 (ix1 k))) (ix2 r k) := by
  have el : ∀ q : Fin 128, lidx_main_v58 (ix2 r k) q = ix2 r q := fun q =>
    funext fun a => Fin.ext (by match a with | ⟨0, _⟩ => rfl | ⟨1, _⟩ => rfl)
  have er : ∀ q : Fin 128, ridx_main_v58 (ix2 r k) q = ix2 q k := fun q =>
    funext fun a => Fin.ext (by match a with | ⟨0, _⟩ => rfl | ⟨1, _⟩ => rfl)
  have eb : idx_main_v59 (idx_main_v60 (ix2 r k)) = ix1 k :=
    funext fun a => Fin.ext (by match a with | ⟨0, _⟩ => rfl)
  rw [val_main_v62_apply, val_main_call4_v5_apply, val_main_call4_v4_apply, val_main_call4_cst_0_apply,
    val_main_call4_v3_apply, val_main_call4_v2_apply, val_main_call4_cst_apply, val_main_call4_v1_apply,
    val_main_call4_v0_apply, silu_host, val_main_v61_apply, val_main_v58_apply, val_main_v60_apply,
    val_main_v59_apply, eb, Cert.Spec.act_apply, Cert.Spec.layer_apply]
  simp only [el, er]
  generalize val_main_v44 (F := Ideal) x0 x1 x2 x3 x4 x5 x6 x7 = Y
  rfl

/-- Its coordinate weights are the coordinate network of its messages. -/
theorem ref_coord (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) :
    val_main_v66 (F := Ideal) x0 x1 x2 x3 x4 x5 x6 x7 x12 x13 x14 x15
      = Cert.Spec.headNet (val_main_v44 (F := Ideal) x0 x1 x2 x3 x4 x5 x6 x7) x12 (fun k => x13 (ix1 k)) x14 (fun k => x15 (ix1 k)) := by
  funext i
  obtain ⟨r, j, rfl⟩ : ∃ (r : Fin 640000) (j : Fin 1), i = ix2 r j := ⟨i 0, i 1, eq_ix2 i⟩
  have el : ∀ k : Fin 128, lidx_main_v63 (ix2 r j) k = ix2 r k := fun k =>
    funext fun a => Fin.ext (by match a with | ⟨0, _⟩ => rfl | ⟨1, _⟩ => rfl)
  have er : ∀ k : Fin 128, ridx_main_v63 (ix2 r j) k = ix2 k j := fun k =>
    funext fun a => Fin.ext (by match a with | ⟨0, _⟩ => rfl | ⟨1, _⟩ => rfl)
  -- the bias has one entry, so its only index is `j`
  have eb : idx_main_v64 (idx_main_v65 (ix2 r j)) = ix1 j :=
    funext fun a => Fin.ext (by match a with | ⟨0, _⟩ => exact (Nat.lt_one_iff.mp j.isLt).symm)
  unfold Cert.Spec.headNet
  rw [val_main_v66_apply, val_main_v63_apply, val_main_v65_apply, val_main_v64_apply, eb, Cert.Spec.layer_apply]
  simp only [el, er, coord_hidden]
  generalize val_main_v44 (F := Ideal) x0 x1 x2 x3 x4 x5 x6 x7 = Y
  rfl

/-- The node network's hidden layer at one entry: the reference's dense layer over the concatenated node features,
its bias row and the spelled-out SiLU. -/
private theorem node_hidden (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (r : Fin 50000) (k : Fin 128) :
    val_main_v53 (F := Ideal) x0 x1 x2 x3 x4 x5 x6 x7 x8 x9 (ix2 r k)
      = Cert.Spec.act (Cert.Spec.layer (val_main_v48 (F := Ideal) x0 x1 x2 x3 x4 x5 x6 x7) x8 (fun k => x9 (ix1 k))) (ix2 r k) := by
  have el : ∀ q : Fin 256, lidx_main_v49 (ix2 r k) q = ix2 r q := fun q =>
    funext fun a => Fin.ext (by match a with | ⟨0, _⟩ => rfl | ⟨1, _⟩ => rfl)
  have er : ∀ q : Fin 256, ridx_main_v49 (ix2 r k) q = ix2 q k := fun q =>
    funext fun a => Fin.ext (by match a with | ⟨0, _⟩ => rfl | ⟨1, _⟩ => rfl)
  have eb : idx_main_v50 (idx_main_v51 (ix2 r k)) = ix1 k :=
    funext fun a => Fin.ext (by match a with | ⟨0, _⟩ => rfl)
  rw [val_main_v53_apply, val_main_call3_v5_apply, val_main_call3_v4_apply, val_main_call3_cst_0_apply,
    val_main_call3_v3_apply, val_main_call3_v2_apply, val_main_call3_cst_apply, val_main_call3_v1_apply,
    val_main_call3_v0_apply, silu_host, val_main_v52_apply, val_main_v49_apply, val_main_v51_apply,
    val_main_v50_apply, eb, Cert.Spec.act_apply, Cert.Spec.layer_apply]
  simp only [el, er]
  generalize val_main_v48 (F := Ideal) x0 x1 x2 x3 x4 x5 x6 x7 = Y
  rfl

/-- Its new node features are the node network of its concatenated node features. -/
theorem ref_node (x0 : (⟨S50000x128, .f32⟩ : BufTy).Contents (Elt Ideal)) (x1 : (⟨S50000x3, .f32⟩ : BufTy).Contents (Elt Ideal)) (x2 : (⟨S2x640000, .i32⟩ : BufTy).Contents (Elt Ideal)) (x3 : (⟨S640000x3, .f32⟩ : BufTy).Contents (Elt Ideal)) (x4 : (⟨S260x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v57 (F := Ideal) x0 x1 x2 x3 x4 x5 x6 x7 x8 x9 x10 x11
      = Cert.Spec.headNet (val_main_v48 (F := Ideal) x0 x1 x2 x3 x4 x5 x6 x7) x8 (fun k => x9 (ix1 k)) x10 (fun k => x11 (ix1 k)) := by
  funext i
  obtain ⟨r, j, rfl⟩ : ∃ (r : Fin 50000) (j : Fin 128), i = ix2 r j := ⟨i 0, i 1, eq_ix2 i⟩
  have el : ∀ k : Fin 128, lidx_main_v54 (ix2 r j) k = ix2 r k := fun k =>
    funext fun a => Fin.ext (by match a with | ⟨0, _⟩ => rfl | ⟨1, _⟩ => rfl)
  have er : ∀ k : Fin 128, ridx_main_v54 (ix2 r j) k = ix2 k j := fun k =>
    funext fun a => Fin.ext (by match a with | ⟨0, _⟩ => rfl | ⟨1, _⟩ => rfl)
  have eb : idx_main_v55 (idx_main_v56 (ix2 r j)) = ix1 j :=
    funext fun a => Fin.ext (by match a with | ⟨0, _⟩ => rfl)
  unfold Cert.Spec.headNet
  rw [val_main_v57_apply, val_main_v54_apply, val_main_v56_apply, val_main_v55_apply, eb, Cert.Spec.layer_apply]
  simp only [el, er, node_hidden]
  generalize val_main_v48 (F := Ideal) x0 x1 x2 x3 x4 x5 x6 x7 = Y
  rfl

end Cert.ReferenceIdeal.RefValue

end
-- ==== Proof.Bridge.lean ====
/-
  The kernel program's two results are the reference's, on the index-range domain.

  Read through its items, the kernel program computes: the rows gathered at the edges' endpoints (the plain
  gathers, since every endpoint is a node index), their difference and its norm, the message region's two arrays —
  the message network and the coordinate network of those edge inputs —, the two sums per first endpoint, and the node
  region's array — the node network of the features beside the summed messages. The reference computes the same
  stages with whole-array operations; each kernel-side buffer is shown to hold the reference's stage of the
  arguments, the networks through the specification they both equal.
-/
import proofs.«417115_j7541962572405_1_alg».proof.Proof.KI.Whole
import proofs.«417115_j7541962572405_1_alg».proof.Proof.KernelHost
import proofs.«417115_j7541962572405_1_alg».proof.Proof.KernelTake
import proofs.«417115_j7541962572405_1_alg».proof.Proof.MsgValue
import proofs.«417115_j7541962572405_1_alg».proof.Proof.NodeValue
import proofs.«417115_j7541962572405_1_alg».proof.Proof.RefValue
import Idealize.ShloMosaic.Lib.ValueLayout

set_option maxRecDepth 16384

noncomputable section

namespace Cert.Bridge

open Cert.KernelIdeal Cert.KernelIdeal.Gen Cert.KernelIdeal.Whole
open Cert.ReferenceIdeal.ReadP
open Idealize.ShloMosaic Idealize.ShloMosaic.TcCoe Idealize.ShloMosaic.ValueIdx Idealize.SL.Sem

/-! ## Equal operands, equal networks -/

theorem msgNet_congr {n K H M : Nat} {X X' : (⟨2, ![n, K]⟩ : Shape).Idx → EReal} {W1 W1' : (⟨2, ![K, H]⟩ : Shape).Idx → EReal}
    {b1 b1' : Fin H → EReal} {W2 W2' : (⟨2, ![H, M]⟩ : Shape).Idx → EReal} {b2 b2' : Fin M → EReal}
    (hX : X = X') (hW1 : W1 = W1') (hb1 : b1 = b1') (hW2 : W2 = W2') (hb2 : b2 = b2') :
    Cert.Spec.msgNet X W1 b1 W2 b2 = Cert.Spec.msgNet X' W1' b1' W2' b2' := by
  subst hX; subst hW1; subst hb1; subst hW2; subst hb2; rfl
theorem headNet_congr {n K H M : Nat} {X X' : (⟨2, ![n, K]⟩ : Shape).Idx → EReal} {W1 W1' : (⟨2, ![K, H]⟩ : Shape).Idx → EReal}
    {b1 b1' : Fin H → EReal} {W2 W2' : (⟨2, ![H, M]⟩ : Shape).Idx → EReal} {b2 b2' : Fin M → EReal}
    (hX : X = X') (hW1 : W1 = W1') (hb1 : b1 = b1') (hW2 : W2 = W2') (hb2 : b2 = b2') :
    Cert.Spec.headNet X W1 b1 W2 b2 = Cert.Spec.headNet X' W1' b1' W2' b2' := by
  subst hX; subst hW1; subst hb1; subst hW2; subst hb2; rfl

/-! ## The host stages, at any float instance -/

section Generic

variable {F : FTy → Type} [FloatOps F]
variable (m : (ℓ : Loc nD τ sig) → Buf (Elt F) ℓ) (c : Dev nD)

/-- The first endpoints, as every later item finds them. -/
theorem row_at7 (outs : Outs (F := F)) : V7 m outs c main_v1 = Take.rowIdx (m ((c : Thread nD τ).loc main_arg2)) :=
  (V7_of m outs c main_v1 (by decide)).trans <| (V6_of m c main_v1 (by decide)).trans <| (V5_of m c main_v1 (by decide)).trans <|
    (V4_of m c main_v1 (by decide)).trans <| (V3_of m c main_v1 (by decide)).trans <| (V2_of m c main_v1 (by decide)).trans (Take.row_val m c)

variable (hok : Cert.Range.IdxOk (m ((c : Thread nD τ).loc main_arg2)))
include hok

/-- The difference of the endpoints' positions is the reference's. -/
theorem diff_eq : V6 m c main_v8 = val_main_v18 (F := F) (m ((c : Thread nD τ).loc main_arg1)) (m ((c : Thread nD τ).loc main_arg2)) := by
  rw [HostReads.diff_read, show V5 m c main_v6 = _ from (V5_of m c main_v6 (by decide)).trans (Take.take_pos_row m c hok),
    Take.take_pos_col m c hok]
  rfl

/-- The message region's row array is the reference's concatenated edge inputs. -/
theorem rows_eq : V6 m c main_v13 = val_main_v34 (F := F) (m ((c : Thread nD τ).loc main_arg0)) (m ((c : Thread nD τ).loc main_arg1)) (m ((c : Thread nD τ).loc main_arg2)) (m ((c : Thread nD τ).loc main_arg3)) := by
  rw [HostReads.rows_read,
    show V5 m c main_v4 = _ from (V5_of m c main_v4 (by decide)).trans <| (V4_of m c main_v4 (by decide)).trans <|
      (V3_of m c main_v4 (by decide)).trans (Take.take_feat_row m c hok),
    show V5 m c main_v5 = _ from (V5_of m c main_v5 (by decide)).trans <| (V4_of m c main_v5 (by decide)).trans (Take.take_feat_col m c hok),
    show V5 m c main_v6 = _ from (V5_of m c main_v6 (by decide)).trans (Take.take_pos_row m c hok),
    Take.take_pos_col m c hok,
    HostReads.arg5 m c main_arg3 (by decide) (by decide) (by decide) (by decide) (by decide)]
  rfl

end Generic

/-! ## The two results, over the extended reals -/

section AtIdeal

variable (m : (ℓ : Loc nD τ sig) → Buf (Elt Ideal) ℓ) (c : Dev nD)

/-- A bias row staged by a region is the bias vector: entry (0, k) of the reshaped row is entry k. -/
theorem biasRow (b : S128.Idx → EReal) : (fun k : Fin 128 => (shapeCast S1x128 b shapeCasts_S128_S1x128 : S1x128.Idx → EReal) (ix2 0 k)) = fun k => b (ix1 k) :=
  funext fun k => shapeCast_a_1a_apply b shapeCasts_S128_S1x128 0 k
theorem biasOne (b : S1.Idx → EReal) : (fun k : Fin 1 => (shapeCast S1x1 b shapeCasts_S1_S1x1 : S1x1.Idx → EReal) (ix2 0 k)) = fun k => b (ix1 k) :=
  funext fun k => shapeCast_a_1a_apply b shapeCasts_S1_S1x1 0 k

variable (hok : Cert.Range.IdxOk (m ((c : Thread nD τ).loc main_arg2)))
include hok

/-- The messages the first region leaves are the reference's. -/
theorem msgs_eq : V7 m (outs m) c main_v18_0 = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (V7_msg m c).trans <| (MsgValue.msg_final (entry0 m) c).trans <|
    (msgNet_congr (rows_eq m c hok)
      (HostReads.arg6 m c main_arg4 (by decide) (by decide) (by decide) (by decide) (by decide) (by decide))
      ((congrArg (fun b : S1x128.Idx → EReal => fun k : Fin 128 => b (ix2 0 k))
          ((HostReads.bm1_read m c).trans (congrArg (fun b => shapeCast S1x128 b shapeCasts_S128_S1x128)
            (HostReads.arg5 m c main_arg5 (by decide) (by decide) (by decide) (by decide) (by decide))))).trans (biasRow _))
      (HostReads.arg6 m c main_arg6 (by decide) (by decide) (by decide) (by decide) (by decide) (by decide))
      ((congrArg (fun b : S1x128.Idx → EReal => fun k : Fin 128 => b (ix2 0 k))
          ((HostReads.bm2_read m c).trans (congrArg (fun b => shapeCast S1x128 b shapeCasts_S128_S1x128)
            (HostReads.arg5 m c main_arg7 (by decide) (by decide) (by decide) (by decide) (by decide))))).trans (biasRow _))).trans
      (Cert.ReferenceIdeal.RefValue.ref_msg _ _ _ _ _ _ _ _).symm

/-- The coordinate weights it leaves are the reference's. -/
theorem coordw_eq : V7 m (outs m) c main_v18_1 = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) :=
  (V7_coord m c).trans <| (MsgValue.coord_final (entry0 m) c).trans <|
    (headNet_congr ((MsgValue.msg_final (entry0 m) c).symm.trans ((V7_msg m c).symm.trans (msgs_eq m c hok)))
      (HostReads.arg6 m c main_arg12 (by decide) (by decide) (by decide) (by decide) (by decide) (by decide))
      ((congrArg (fun b : S1x128.Idx → EReal => fun k : Fin 128 => b (ix2 0 k))
          ((HostReads.bc1_read m c).trans (congrArg (fun b => shapeCast S1x128 b shapeCasts_S128_S1x128)
            (HostReads.arg5 m c main_arg13 (by decide) (by decide) (by decide) (by decide) (by decide))))).trans (biasRow _))
      (HostReads.arg6 m c main_arg14 (by decide) (by decide) (by decide) (by decide) (by decide) (by decide))
      ((congrArg (fun b : S1x1.Idx → EReal => fun k : Fin 1 => b (ix2 0 k))
          ((HostReads.bc2_read m c).trans (congrArg (fun b => shapeCast S1x1 b shapeCasts_S1_S1x1)
            (HostReads.arg5 m c main_arg15 (by decide) (by decide) (by decide) (by decide) (by decide))))).trans (biasOne _))).trans
      (Cert.ReferenceIdeal.RefValue.ref_coord _ _ _ _ _ _ _ _ _ _ _ _).symm

/-- The node region's row array is the reference's concatenated node features. -/
theorem nodeRows_eq : V8 m (outs0 m) c main_v27 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [HostReads.feats_read, ← V7_outs m c,
    HostReads.arg7 m (outs m) c main_arg0 (by decide) (by decide) (by decide) (by decide) (by decide) (by decide) (by decide),
    row_at7 m c (outs m), msgs_eq m c hok]
  rfl

/-- THE FIRST RESULT: the new node features. -/
theorem feats_eq : V10 m (outs m) c main_v30 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (V10_of m (outs m) c main_v30 (by decide)).trans <| (V9_out m c).trans <| (NodeValue.node_final (entry1 m) c).trans <|
    (headNet_congr (nodeRows_eq m c hok)
      (HostReads.arg8 m (outs0 m) c main_arg8 (by decide) (by decide) (by decide) (by decide) (by decide) (by decide) (by decide) (by decide))
      ((congrArg (fun b : S1x128.Idx → EReal => fun k : Fin 128 => b (ix2 0 k))
          ((HostReads.bn1_read m (outs0 m) c).trans (congrArg (fun b => shapeCast S1x128 b shapeCasts_S128_S1x128)
            (HostReads.arg7 m (outs0 m) c main_arg9 (by decide) (by decide) (by decide) (by decide) (by decide) (by decide) (by decide))))).trans (biasRow _))
      (HostReads.arg8 m (outs0 m) c main_arg10 (by decide) (by decide) (by decide) (by decide) (by decide) (by decide) (by decide) (by decide))
      ((congrArg (fun b : S1x128.Idx → EReal => fun k : Fin 128 => b (ix2 0 k))
          ((HostReads.bn2_read m (outs0 m) c).trans (congrArg (fun b => shapeCast S1x128 b shapeCasts_S128_S1x128)
            (HostReads.arg7 m (outs0 m) c main_arg11 (by decide) (by decide) (by decide) (by decide) (by decide) (by decide) (by decide))))).trans (biasRow _))).trans
      (Cert.ReferenceIdeal.RefValue.ref_node _ _ _ _ _ _ _ _ _ _ _ _).symm

/-- THE SECOND RESULT: the new positions. -/
theorem pos_eq : V10 m (outs m) c main_v31 = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  rw [HostReads.pos_read,
    HostReads.arg9 m (outs m) c main_arg1 (by decide) (by decide) (by decide) (by decide) (by decide) (by decide) (by decide) (by decide) (by decide),
    V9_of m (outs m) c main_v26 (by decide), HostReads.coordsum_read,
    row_at7 m c (outs m), V7_of m (outs m) c main_v8 (by decide), diff_eq m c hok, coordw_eq m c hok]
  rfl

end AtIdeal

end Cert.Bridge

end
-- ==== Proof.PreRange.lean ====
/-
  The precondition, read: its last conjunct says that every entry of the edge list is a node index.
  The printed predicate is a chain of one-bit conjunctions of all-reductions; it is all ones only if each conjunct is,
  and an all-reduction of a mask is one only if the mask is one at every index.
-/
import proofs.«417115_j7541962572405_1_alg».proof.Defs
import proofs.«417115_j7541962572405_1_alg».proof.Proof.Gen.Pre_finite_inputs
import proofs.«417115_j7541962572405_1_alg».proof.Proof.Range
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.TcCoe Idealize.ShloMosaic.ValueIdx Idealize.SL.Sem

/-- A shape of rank 0 has one index. -/
private instance : Subsingleton Cert.Pre_finite_inputs.S_.Idx := ⟨fun a b => funext fun d => d.elim0⟩

/-- The last part of the printed predicate is a conjunction whose last conjunct is the all-reduction of the
    range mask of the edge list: if the part is 1, the mask is 1 at every index, and the mask at an index is the
    conjunction of the two compares of that entry against the constants 0 and 50000. -/
private theorem idxOk_of_part4 [hP : Cert.Pre_finite_inputs.Facts] {F : FTy → Type} [FloatOps F]
    (a2 : IVec Cert.Pre_finite_inputs.S2x640000 32) (a15 : FVec F Cert.Pre_finite_inputs.S1 .f32)
    (p q : IVec Cert.Pre_finite_inputs.S_ 1) (j : Cert.Pre_finite_inputs.S_.Idx)
    (h : Cert.Pre_finite_inputs.fn_part4 (F := F) a2 a15 p q j = 1#1) : Cert.Range.IdxOk a2 := by
  unfold Cert.Pre_finite_inputs.fn_part4 at h
  -- the part is `andi (earlier conjuncts) (all-reduction of the range mask)`, read at the one index
  have hall := (IntOp.andi_eq_one.1 h).2
  intro i
  -- an all-reduction that is 1 had a 1 at every index of the mask
  have hi := Host.reduce_andi_all _ _ _ _ j hall i
  -- the mask at `i` is the conjunction of the two compares; a broadcast constant reads the constant
  exact IntOp.andi_eq_one.1 hi

/-- Under the kernel program's precondition at the ideal instance every edge endpoint is a node index, on every core. -/
theorem idxOk_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Range.IdxOk (m ((c.tc : Thread Cert.KernelIdeal.nD Cert.KernelIdeal.τ).loc Cert.KernelIdeal.main_arg2)) := by
  -- the precondition on core `c`, read at the one index of its rank-0 result
  have h := congrFun (hpre c) ValueIdx.ix0
  -- the printed predicate is its four parts in sequence; only the last part's last conjunct is read
  unfold Cert.Pre_finite_inputs.fn Cert.Pre_finite_inputs.fn_part1 Cert.Pre_finite_inputs.fn_part2
    Cert.Pre_finite_inputs.fn_part3 at h
  exact idxOk_of_part4 _ _ _ _ ValueIdx.ix0 h

end Cert.PreRange

end
-- ==== Proof.RefStagesA.lean ====
/-
  The reference's host operations read piece by piece, over ANY contents `W` the piece starts from (pieces 1, 2, 4): the edges' endpoints, the difference of the endpoints' positions, and the concatenated edge inputs, each as the stage function of the arguments, given that the buffers the piece reads hold their stages.
-/
import proofs.«417115_j7541962572405_1_alg».proof.Proof.RefRun
import proofs.«417115_j7541962572405_1_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (W : Valuation τ sig (Elt F))

/-- The buffers piece 1 writes. -/
abbrev written1 : List (Ref sig .tc) := [main_v0, main_v1, main_v2, main_v3]
theorem ops1_writes : (ops1 : List (HloOp τ sig (Elt F))).Forall fun op => op.writes ⊆ (written1.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
     exact List.mem_map_of_mem (by decide))
/-- Piece 1 leaves every other buffer as it was. -/
theorem kept1 (r : Ref sig .tc) (h : r ∉ written1) : after ops1 W (Proc.devRef .tc r) = W (Proc.devRef .tc r) :=
  StableHlo.after_of_writes_sub ops1 W ops1_writes h

/-- Piece 1: the edges' first and second endpoints. -/
theorem row_stage : after ops1 W (Proc.devRef .tc main_v1) = val_main_v1 (F := F) (W (Proc.devRef .tc main_arg2)) := by
  show StableHlo.after ops1 W (Proc.devRef .tc main_v1) = _
  after_results
  rfl
theorem col_stage : after ops1 W (Proc.devRef .tc main_v3) = val_main_v3 (F := F) (W (Proc.devRef .tc main_arg2)) := by
  show StableHlo.after ops1 W (Proc.devRef .tc main_v3) = _
  after_results
  rfl

/-- The buffers piece 2 writes. -/
abbrev written2 : List (Ref sig .tc) := [main_c, main_v4, main_v5, main_c_0, main_v6, main_v7, main_v8, main_v9, main_v10, main_c_1, main_v11, main_v12, main_c_2, main_v13, main_v14, main_v15, main_v16, main_v17, main_v18]
theorem ops2_writes : (ops2 : List (HloOp τ sig (Elt F))).Forall fun op => op.writes ⊆ (written2.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
     exact List.mem_map_of_mem (by decide))
/-- Piece 2 leaves every other buffer as it was. -/
theorem kept2 (r : Ref sig .tc) (h : r ∉ written2) : after ops2 W (Proc.devRef .tc r) = W (Proc.devRef .tc r) :=
  StableHlo.after_of_writes_sub ops2 W ops2_writes h

/-- Piece 2: the positions gathered at both endpoints, and their difference. -/
theorem diff_stage (x1 : (⟨S50000x3, .f32⟩ : BufTy).Contents (Elt F)) (x2 : (⟨S2x640000, .i32⟩ : BufTy).Contents (Elt F)) (h1 : W (Proc.devRef .tc main_v1) = val_main_v1 (F := F) x2)
    (h3 : W (Proc.devRef .tc main_v3) = val_main_v3 (F := F) x2) (ha1 : W (Proc.devRef .tc main_arg1) = x1) :
    after ops2 W (Proc.devRef .tc main_v18) = val_main_v18 (F := F) x1 x2 := by
  show StableHlo.after ops2 W (Proc.devRef .tc main_v18) = _
  after_results_simp
  rw [h1, h3, ha1]
  rfl

/-- The buffers piece 4 writes. -/
abbrev written4 : List (Ref sig .tc) := [main_c_3, main_v20, main_v21, main_c_4, main_v22, main_v23, main_v24, main_v25, main_v26, main_c_5, main_v27, main_v28, main_c_6, main_v29, main_v30, main_v31, main_v32, main_v33, main_v34]
theorem ops4_writes : (ops4 : List (HloOp τ sig (Elt F))).Forall fun op => op.writes ⊆ (written4.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
     exact List.mem_map_of_mem (by decide))
/-- Piece 4 leaves every other buffer as it was. -/
theorem kept4 (r : Ref sig .tc) (h : r ∉ written4) : after ops4 W (Proc.devRef .tc r) = W (Proc.devRef .tc r) :=
  StableHlo.after_of_writes_sub ops4 W ops4_writes h

/-- Piece 4: the features gathered at both endpoints, and the concatenated edge inputs. -/
theorem rows_stage (x0 : (⟨S50000x128, .f32⟩ : BufTy).Contents (Elt F)) (x1 : (⟨S50000x3, .f32⟩ : BufTy).Contents (Elt F)) (x2 : (⟨S2x640000, .i32⟩ : BufTy).Contents (Elt F)) (x3 : (⟨S640000x3, .f32⟩ : BufTy).Contents (Elt F)) (h1 : W (Proc.devRef .tc main_v1) = val_main_v1 (F := F) x2)
    (h3 : W (Proc.devRef .tc main_v3) = val_main_v3 (F := F) x2) (h19 : W (Proc.devRef .tc main_v19) = val_main_v19 (F := F) x1 x2)
    (ha0 : W (Proc.devRef .tc main_arg0) = x0) (ha3 : W (Proc.devRef .tc main_arg3) = x3) :
    after ops4 W (Proc.devRef .tc main_v34) = val_main_v34 (F := F) x0 x1 x2 x3 := by
  show StableHlo.after ops4 W (Proc.devRef .tc main_v34) = _
  -- the last operation joins four buffers; name what the operations before it leave, and read each of the four there
  simp only [after_cons, after_nil]
  rw [nary4_result]
  generalize hS : (binary main_arg0 main_v32 main_v33 _ _ _ _).result _ = S
  have e26 : S (Proc.devRef .tc main_v26) = val_main_v26 (F := F) x0 x2 := by
    rw [← hS]; after_results_simp; rw [h1, ha0]; rfl
  have e33 : S (Proc.devRef .tc main_v33) = val_main_v33 (F := F) x0 x2 := by
    rw [← hS]; after_results_simp; rw [h3, ha0]; rfl
  have e19 : S (Proc.devRef .tc main_v19) = val_main_v19 (F := F) x1 x2 := by
    rw [← hS]; after_results_simp; exact h19
  have e3 : S (Proc.devRef .tc main_arg3) = x3 := by
    rw [← hS]; after_results_simp; exact ha3
  rw [e26, e33, e19, e3]
  rfl

end Cert.ReferenceIdeal.Stages

end
-- ==== Proof.RefStagesB.lean ====
/-
  The reference's host operations read piece by piece, over ANY contents `W` the piece starts from (pieces 3 and 5): the norm of the position difference (jax's `norm`, inlined) and the messages (two dense layers with jax's `silu`, inlined), each as the stage function of the arguments, given that the buffers the piece reads hold their stages.
-/
import proofs.«417115_j7541962572405_1_alg».proof.Proof.RefRun
import proofs.«417115_j7541962572405_1_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (W : Valuation τ sig (Elt F))

/-- Contents moved to a typed reference's buffer type and back are unchanged. -/
private theorem ofBuf_toBuf {sg : RefSig} {Val : EltTy → Type} {T : BufTy} (x : StableHlo.TRef sg T) (v : T.Contents Val) :
    x.ofBuf (x.toBuf v) = v := by
  obtain ⟨r, h, h1, h2⟩ := x
  subst h
  rfl

/-- The buffers piece 3 writes. -/
abbrev written3 : List (Ref sig .tc) := [main_call0_v0, main_call0_cst, main_call0_v1, main_call0_v2, main_v19]
theorem ops3_writes : (ops3 : List (HloOp τ sig (Elt F))).Forall fun op => op.writes ⊆ (written3.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- Piece 3 leaves every other buffer as it was. -/
theorem kept3 (r : Ref sig .tc) (h : r ∉ written3) : after ops3 W (Proc.devRef .tc r) = W (Proc.devRef .tc r) :=
  StableHlo.after_of_writes_sub ops3 W ops3_writes h

/-- Piece 3: the distance between the endpoints. -/
theorem dist_stage (x1 : (⟨S50000x3, .f32⟩ : BufTy).Contents (Elt F)) (x2 : (⟨S2x640000, .i32⟩ : BufTy).Contents (Elt F)) (h18 : W (Proc.devRef .tc main_v18) = val_main_v18 (F := F) x1 x2) :
    after ops3 W (Proc.devRef .tc main_v19) = val_main_v19 (F := F) x1 x2 := by
  show StableHlo.after ops3 W (Proc.devRef .tc main_v19) = _
  after_results
  simp only [ofBuf_toBuf]
  simp only [TRef.ofBuf, TRef.toBuf, cast_eq]
  rw [h18]
  rfl

/-- The buffers piece 5 writes. -/
abbrev written5 : List (Ref sig .tc) := [main_v35, main_v36, main_v37, main_v38, main_call1_v0, main_call1_v1, main_call1_cst, main_call1_v2, main_call1_v3, main_call1_cst_0, main_call1_v4, main_call1_v5, main_v39, main_v40, main_v41, main_v42, main_v43, main_call2_v0, main_call2_v1, main_call2_cst, main_call2_v2, main_call2_v3, main_call2_cst_0, main_call2_v4, main_call2_v5, main_v44]
theorem ops5_writes : (ops5 : List (HloOp τ sig (Elt F))).Forall fun op => op.writes ⊆ (written5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
     exact List.mem_map_of_mem (by decide))
/-- Piece 5 leaves every other buffer as it was. -/
theorem kept5 (r : Ref sig .tc) (h : r ∉ written5) : after ops5 W (Proc.devRef .tc r) = W (Proc.devRef .tc r) :=
  StableHlo.after_of_writes_sub ops5 W ops5_writes h

/-- Piece 5: the messages. -/
theorem msg_stage (x0 : (⟨S50000x128, .f32⟩ : BufTy).Contents (Elt F)) (x1 : (⟨S50000x3, .f32⟩ : BufTy).Contents (Elt F)) (x2 : (⟨S2x640000, .i32⟩ : BufTy).Contents (Elt F)) (x3 : (⟨S640000x3, .f32⟩ : BufTy).Contents (Elt F)) (x4 : (⟨S260x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (h34 : W (Proc.devRef .tc main_v34) = val_main_v34 (F := F) x0 x1 x2 x3)
    (ha4 : W (Proc.devRef .tc main_arg4) = x4) (ha5 : W (Proc.devRef .tc main_arg5) = x5) (ha6 : W (Proc.devRef .tc main_arg6) = x6) (ha7 : W (Proc.devRef .tc main_arg7) = x7) :
    after ops5 W (Proc.devRef .tc main_v44) = val_main_v44 (F := F) x0 x1 x2 x3 x4 x5 x6 x7 := by
  show StableHlo.after ops5 W (Proc.devRef .tc main_v44) = _
  after_results_simp
  simp only [ofBuf_toBuf]
  simp only [TRef.ofBuf, TRef.toBuf, cast_eq]
  rw [h34, ha4, ha5, ha6, ha7]
  rfl

end Cert.ReferenceIdeal.Stages

end
-- ==== Proof.RefStagesC.lean ====
/-
  The reference's host operations read piece by piece, over ANY contents `W` the piece starts from (pieces 6 and 7): the new node features (the messages summed per first endpoint, beside the features, through the node network) and the new positions (the coordinate network of the messages, times the position difference, summed per first endpoint, added to the positions), each as the stage function of the arguments, given that the buffers the piece reads hold their stages.
-/
import proofs.«417115_j7541962572405_1_alg».proof.Proof.RefRun
import proofs.«417115_j7541962572405_1_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (W : Valuation τ sig (Elt F))

/-- Contents moved to a typed reference's buffer type and back are unchanged. -/
private theorem ofBuf_toBuf {sg : RefSig} {Val : EltTy → Type} {T : BufTy} (x : StableHlo.TRef sg T) (v : T.Contents Val) :
    x.ofBuf (x.toBuf v) = v := by
  obtain ⟨r, h, h1, h2⟩ := x
  subst h
  rfl

/-- The buffers piece 6 writes. -/
abbrev written6 : List (Ref sig .tc) := [main_cst, main_v45, main_v46, main_v47, main_v48, main_v49, main_v50, main_v51, main_v52, main_call3_v0, main_call3_v1, main_call3_cst, main_call3_v2, main_call3_v3, main_call3_cst_0, main_call3_v4, main_call3_v5, main_v53, main_v54, main_v55, main_v56, main_v57]
theorem ops6_writes : (ops6 : List (HloOp τ sig (Elt F))).Forall fun op => op.writes ⊆ (written6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      Finset.singleton_subset_iff, List.mem_toFinset]
     exact List.mem_map_of_mem (by decide))
/-- Piece 6 leaves every other buffer as it was. -/
theorem kept6 (r : Ref sig .tc) (h : r ∉ written6) : after ops6 W (Proc.devRef .tc r) = W (Proc.devRef .tc r) :=
  StableHlo.after_of_writes_sub ops6 W ops6_writes h

/-- Piece 6: the new node features. -/
theorem node_stage (x0 : (⟨S50000x128, .f32⟩ : BufTy).Contents (Elt F)) (x1 : (⟨S50000x3, .f32⟩ : BufTy).Contents (Elt F)) (x2 : (⟨S2x640000, .i32⟩ : BufTy).Contents (Elt F)) (x3 : (⟨S640000x3, .f32⟩ : BufTy).Contents (Elt F)) (x4 : (⟨S260x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (h1 : W (Proc.devRef .tc main_v1) = val_main_v1 (F := F) x2)
    (h44 : W (Proc.devRef .tc main_v44) = val_main_v44 (F := F) x0 x1 x2 x3 x4 x5 x6 x7)
    (ha0 : W (Proc.devRef .tc main_arg0) = x0) (ha8 : W (Proc.devRef .tc main_arg8) = x8) (ha9 : W (Proc.devRef .tc main_arg9) = x9) (ha10 : W (Proc.devRef .tc main_arg10) = x10) (ha11 : W (Proc.devRef .tc main_arg11) = x11) :
    after ops6 W (Proc.devRef .tc main_v57) = val_main_v57 (F := F) x0 x1 x2 x3 x4 x5 x6 x7 x8 x9 x10 x11 := by
  show StableHlo.after ops6 W (Proc.devRef .tc main_v57) = _
  after_results_simp
  -- the two joined operands sit inside the concatenation's list of pairs: read them by rewriting
  repeat (first
    | rw [nullary_result] | rw [unary_result] | rw [ternary_result]
    | (rw [nullary_result_ne]; rotate_left; decide)
    | (rw [unary_result_ne]; rotate_left; decide)
    | (rw [ternary_result_ne]; rotate_left; decide))
  simp only [ofBuf_toBuf]
  simp only [TRef.ofBuf, TRef.toBuf, cast_eq]
  rw [h1, h44, ha0, ha8, ha9, ha10, ha11]
  rfl

/-- The buffers piece 7 writes. -/
abbrev written7 : List (Ref sig .tc) := [main_v58, main_v59, main_v60, main_v61, main_call4_v0, main_call4_v1, main_call4_cst, main_call4_v2, main_call4_v3, main_call4_cst_0, main_call4_v4, main_call4_v5, main_v62, main_v63, main_v64, main_v65, main_v66, main_v67, main_v68, main_cst_7, main_v69, main_v70, main_v71, main_v72]
theorem ops7_writes : (ops7 : List (HloOp τ sig (Elt F))).Forall fun op => op.writes ⊆ (written7.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      Finset.singleton_subset_iff, List.mem_toFinset]
     exact List.mem_map_of_mem (by decide))
/-- Piece 7 leaves every other buffer as it was. -/
theorem kept7 (r : Ref sig .tc) (h : r ∉ written7) : after ops7 W (Proc.devRef .tc r) = W (Proc.devRef .tc r) :=
  StableHlo.after_of_writes_sub ops7 W ops7_writes h

/-- Piece 7: the new positions. -/
theorem pos_stage (x0 : (⟨S50000x128, .f32⟩ : BufTy).Contents (Elt F)) (x1 : (⟨S50000x3, .f32⟩ : BufTy).Contents (Elt F)) (x2 : (⟨S2x640000, .i32⟩ : BufTy).Contents (Elt F)) (x3 : (⟨S640000x3, .f32⟩ : BufTy).Contents (Elt F)) (x4 : (⟨S260x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x12 : (⟨S128x128, .f32⟩ : BufTy).Contents (Elt F)) (x13 : (⟨S128, .f32⟩ : BufTy).Contents (Elt F)) (x14 : (⟨S128x1, .f32⟩ : BufTy).Contents (Elt F)) (x15 : (⟨S1, .f32⟩ : BufTy).Contents (Elt F)) (h1 : W (Proc.devRef .tc main_v1) = val_main_v1 (F := F) x2)
    (h18 : W (Proc.devRef .tc main_v18) = val_main_v18 (F := F) x1 x2)
    (h44 : W (Proc.devRef .tc main_v44) = val_main_v44 (F := F) x0 x1 x2 x3 x4 x5 x6 x7)
    (ha1 : W (Proc.devRef .tc main_arg1) = x1) (ha12 : W (Proc.devRef .tc main_arg12) = x12) (ha13 : W (Proc.devRef .tc main_arg13) = x13) (ha14 : W (Proc.devRef .tc main_arg14) = x14) (ha15 : W (Proc.devRef .tc main_arg15) = x15) :
    after ops7 W (Proc.devRef .tc main_v72) = val_main_v72 (F := F) x0 x1 x2 x3 x4 x5 x6 x7 x12 x13 x14 x15 := by
  show StableHlo.after ops7 W (Proc.devRef .tc main_v72) = _
  after_results_simp
  simp only [ofBuf_toBuf]
  simp only [TRef.ofBuf, TRef.toBuf, cast_eq]
  rw [h1, h18, h44, ha1, ha12, ha13, ha14, ha15]
  rfl

end Cert.ReferenceIdeal.Stages

end
-- ==== Proof.RefStages.lean ====
/-
  The reference's run, by hand: its @main is 119 host operations in a row, so every weakly fair execution ends with
  each buffer at the fold of the operations over the launch contents. The fold is read in seven consecutive pieces:
  after each piece the buffers later pieces read hold the stage functions of the arguments (the endpoints; the position
  difference; its norm; the concatenated edge inputs; the messages; the new node features; the new positions), and
  whatever a piece does not write is as before — in particular every argument, to the end.
-/
import proofs.«417115_j7541962572405_1_alg».proof.Proof.RefStagesA
import proofs.«417115_j7541962572405_1_alg».proof.Proof.RefStagesB
import proofs.«417115_j7541962572405_1_alg».proof.Proof.RefStagesC

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

/-! ## The contents after each piece -/

abbrev Z0 : Valuation τ sig (Elt F) := launchContents m d
abbrev Z1 : Valuation τ sig (Elt F) := after ops1 (Z0 m d)
abbrev Z2 : Valuation τ sig (Elt F) := after ops2 (Z1 m d)
abbrev Z3 : Valuation τ sig (Elt F) := after ops3 (Z2 m d)
abbrev Z4 : Valuation τ sig (Elt F) := after ops4 (Z3 m d)
abbrev Z5 : Valuation τ sig (Elt F) := after ops5 (Z4 m d)
abbrev Z6 : Valuation τ sig (Elt F) := after ops6 (Z5 m d)
abbrev Z7 : Valuation τ sig (Elt F) := after ops7 (Z6 m d)

/-- Folding a list in two parts. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold of the whole list is the fold of the pieces in order. -/
theorem after_ops : after ops (Z0 m d) = Z7 m d := by
  rw [ops_split]
  simp only [after_app]

/-! ## What no piece so far has written is as launched -/

theorem at1 (r : Ref sig .tc) (h1 : r ∉ written1) : Z1 m d (Proc.devRef .tc r) = Z0 m d (Proc.devRef .tc r) := kept1 _ r h1
theorem at2 (r : Ref sig .tc) (h1 : r ∉ written1) (h2 : r ∉ written2) : Z2 m d (Proc.devRef .tc r) = Z0 m d (Proc.devRef .tc r) :=
  (kept2 _ r h2).trans (at1 m d r h1)
theorem at3 (r : Ref sig .tc) (h1 : r ∉ written1) (h2 : r ∉ written2) (h3 : r ∉ written3) :
    Z3 m d (Proc.devRef .tc r) = Z0 m d (Proc.devRef .tc r) := (kept3 _ r h3).trans (at2 m d r h1 h2)
theorem at4 (r : Ref sig .tc) (h1 : r ∉ written1) (h2 : r ∉ written2) (h3 : r ∉ written3) (h4 : r ∉ written4) :
    Z4 m d (Proc.devRef .tc r) = Z0 m d (Proc.devRef .tc r) := (kept4 _ r h4).trans (at3 m d r h1 h2 h3)
theorem at5 (r : Ref sig .tc) (h1 : r ∉ written1) (h2 : r ∉ written2) (h3 : r ∉ written3) (h4 : r ∉ written4) (h5 : r ∉ written5) :
    Z5 m d (Proc.devRef .tc r) = Z0 m d (Proc.devRef .tc r) := (kept5 _ r h5).trans (at4 m d r h1 h2 h3 h4)
theorem at6 (r : Ref sig .tc) (h1 : r ∉ written1) (h2 : r ∉ written2) (h3 : r ∉ written3) (h4 : r ∉ written4) (h5 : r ∉ written5)
    (h6 : r ∉ written6) : Z6 m d (Proc.devRef .tc r) = Z0 m d (Proc.devRef .tc r) := (kept6 _ r h6).trans (at5 m d r h1 h2 h3 h4 h5)
theorem at7 (r : Ref sig .tc) (h1 : r ∉ written1) (h2 : r ∉ written2) (h3 : r ∉ written3) (h4 : r ∉ written4) (h5 : r ∉ written5)
    (h6 : r ∉ written6) (h7 : r ∉ written7) : Z7 m d (Proc.devRef .tc r) = Z0 m d (Proc.devRef .tc r) :=
  (kept7 _ r h7).trans (at6 m d r h1 h2 h3 h4 h5 h6)

/-! ## The stages, piece after piece -/

/-- The first endpoints, after piece 1 and ever after (no later piece writes them). -/
theorem row1 : Z1 m d (Proc.devRef .tc main_v1) = val_main_v1 (F := F) (m ((d.tc : Thread nD τ).loc main_arg2)) := row_stage (Z0 m d)
theorem col1 : Z1 m d (Proc.devRef .tc main_v3) = val_main_v3 (F := F) (m ((d.tc : Thread nD τ).loc main_arg2)) := col_stage (Z0 m d)
theorem row2 : Z2 m d (Proc.devRef .tc main_v1) = val_main_v1 (F := F) (m ((d.tc : Thread nD τ).loc main_arg2)) := (kept2 _ main_v1 (by decide)).trans (row1 m d)
theorem row3 : Z3 m d (Proc.devRef .tc main_v1) = val_main_v1 (F := F) (m ((d.tc : Thread nD τ).loc main_arg2)) := (kept3 _ main_v1 (by decide)).trans (row2 m d)
theorem col3 : Z3 m d (Proc.devRef .tc main_v3) = val_main_v3 (F := F) (m ((d.tc : Thread nD τ).loc main_arg2)) :=
  (kept3 _ main_v3 (by decide)).trans ((kept2 _ main_v3 (by decide)).trans (col1 m d))
theorem row5 : Z5 m d (Proc.devRef .tc main_v1) = val_main_v1 (F := F) (m ((d.tc : Thread nD τ).loc main_arg2)) :=
  (kept5 _ main_v1 (by decide)).trans ((kept4 _ main_v1 (by decide)).trans (row3 m d))
theorem row6 : Z6 m d (Proc.devRef .tc main_v1) = val_main_v1 (F := F) (m ((d.tc : Thread nD τ).loc main_arg2)) := (kept6 _ main_v1 (by decide)).trans (row5 m d)

/-- The position difference, after piece 2 and ever after. -/
theorem diff2 : Z2 m d (Proc.devRef .tc main_v18) = val_main_v18 (F := F) (m ((d.tc : Thread nD τ).loc main_arg1)) (m ((d.tc : Thread nD τ).loc main_arg2)) :=
  diff_stage (Z1 m d) _ _ (row1 m d) (col1 m d) (at1 m d main_arg1 (by decide))
theorem diff6 : Z6 m d (Proc.devRef .tc main_v18) = val_main_v18 (F := F) (m ((d.tc : Thread nD τ).loc main_arg1)) (m ((d.tc : Thread nD τ).loc main_arg2)) :=
  (kept6 _ main_v18 (by decide)).trans <| (kept5 _ main_v18 (by decide)).trans <| (kept4 _ main_v18 (by decide)).trans <|
    (kept3 _ main_v18 (by decide)).trans (diff2 m d)

/-- Its norm, after piece 3. -/
theorem dist3 : Z3 m d (Proc.devRef .tc main_v19) = val_main_v19 (F := F) (m ((d.tc : Thread nD τ).loc main_arg1)) (m ((d.tc : Thread nD τ).loc main_arg2)) := dist_stage (Z2 m d) _ _ (diff2 m d)

/-- The concatenated edge inputs, after piece 4. -/
theorem rows4 : Z4 m d (Proc.devRef .tc main_v34) = val_main_v34 (F := F) (m ((d.tc : Thread nD τ).loc main_arg0)) (m ((d.tc : Thread nD τ).loc main_arg1)) (m ((d.tc : Thread nD τ).loc main_arg2)) (m ((d.tc : Thread nD τ).loc main_arg3)) :=
  rows_stage (Z3 m d) _ _ _ _ (row3 m d) (col3 m d) (dist3 m d) (at3 m d main_arg0 (by decide) (by decide) (by decide)) (at3 m d main_arg3 (by decide) (by decide) (by decide))

/-- The messages, after piece 5 and after piece 6. -/
theorem msg5 : Z5 m d (Proc.devRef .tc main_v44) = val_main_v44 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) :=
  msg_stage (Z4 m d) _ _ _ _ _ _ _ _ (rows4 m d) (at4 m d main_arg4 (by decide) (by decide) (by decide) (by decide)) (at4 m d main_arg5 (by decide) (by decide) (by decide) (by decide)) (at4 m d main_arg6 (by decide) (by decide) (by decide) (by decide)) (at4 m d main_arg7 (by decide) (by decide) (by decide) (by decide))
theorem msg6 : Z6 m d (Proc.devRef .tc main_v44) = val_main_v44 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) :=
  (kept6 _ main_v44 (by decide)).trans (msg5 m d)

/-- THE FIRST RESULT, after piece 6 and at the end. -/
theorem node6 : Z6 m d (Proc.devRef .tc main_v57) = val_main_v57 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) :=
  node_stage (Z5 m d) _ _ _ _ _ _ _ _ _ _ _ _ (row5 m d) (msg5 m d) (at5 m d main_arg0 (by decide) (by decide) (by decide) (by decide) (by decide)) (at5 m d main_arg8 (by decide) (by decide) (by decide) (by decide) (by decide)) (at5 m d main_arg9 (by decide) (by decide) (by decide) (by decide) (by decide))
    (at5 m d main_arg10 (by decide) (by decide) (by decide) (by decide) (by decide)) (at5 m d main_arg11 (by decide) (by decide) (by decide) (by decide) (by decide))
theorem node7 : Z7 m d (Proc.devRef .tc main_v57) = val_main_v57 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) :=
  (kept7 _ main_v57 (by decide)).trans (node6 m d)

/-- THE SECOND RESULT, at the end. -/
theorem pos7 : Z7 m d (Proc.devRef .tc main_v72) = val_main_v72 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg12)) (m ((d.tc : Thread nD τ).loc main_arg13)) (m ((d.tc : Thread nD τ).loc main_arg14)) (m ((d.tc : Thread nD τ).loc main_arg15)) :=
  pos_stage (Z6 m d) _ _ _ _ _ _ _ _ _ _ _ _ (row6 m d) (diff6 m d) (msg6 m d) (at6 m d main_arg1 (by decide) (by decide) (by decide) (by decide) (by decide) (by decide)) (at6 m d main_arg12 (by decide) (by decide) (by decide) (by decide) (by decide) (by decide))
    (at6 m d main_arg13 (by decide) (by decide) (by decide) (by decide) (by decide) (by decide)) (at6 m d main_arg14 (by decide) (by decide) (by decide) (by decide) (by decide) (by decide)) (at6 m d main_arg15 (by decide) (by decide) (by decide) (by decide) (by decide) (by decide))

/-! ## The run -/

variable (ρ : Dev nD → PrngReg)

/-- Every weakly fair execution of the reference terminates with each buffer at the fold of its operations. -/
theorem run_raw : θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- THE REFERENCE'S RUN: it terminates with its two results at the stage functions of the arguments, and the arguments unchanged. -/
theorem run : θ_run defs (onTc (τ := τ) (main (F := F))) ⟨m, fun _ => 0, ρ⟩ fun r => ∀ d : Dev nD,
      r.2.mem ((d.tc : Thread nD τ).loc main_v57) = val_main_v57 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))
      ∧ r.2.mem ((d.tc : Thread nD τ).loc main_v72) = val_main_v72 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg12)) (m ((d.tc : Thread nD τ).loc main_arg13)) (m ((d.tc : Thread nD τ).loc main_arg14)) (m ((d.tc : Thread nD τ).loc main_arg15))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)
      ∧ r.2.mem ((d.tc : Thread nD τ).loc main_arg14) = m ((d.tc : Thread nD τ).loc main_arg14)
      ∧ r.2.mem ((d.tc : Thread nD τ).loc main_arg15) = m ((d.tc : Thread nD τ).loc main_arg15) :=
  (θ_run defs _ _).mono (fun r h d => ⟨
    (h d main_v57).trans ((congrFun (after_ops m d) _).trans (node7 m d)),
    (h d main_v72).trans ((congrFun (after_ops m d) _).trans (pos7 m d)),
    (h d main_arg0).trans ((congrFun (after_ops m d) _).trans (at7 m d main_arg0 (by decide) (by decide) (by decide) (by decide) (by decide) (by decide) (by decide))),
    (h d main_arg1).trans ((congrFun (after_ops m d) _).trans (at7 m d main_arg1 (by decide) (by decide) (by decide) (by decide) (by decide) (by decide) (by decide))),
    (h d main_arg2).trans ((congrFun (after_ops m d) _).trans (at7 m d main_arg2 (by decide) (by decide) (by decide) (by decide) (by decide) (by decide) (by decide))),
    (h d main_arg3).trans ((congrFun (after_ops m d) _).trans (at7 m d main_arg3 (by decide) (by decide) (by decide) (by decide) (by decide) (by decide) (by decide))),
    (h d main_arg4).trans ((congrFun (after_ops m d) _).trans (at7 m d main_arg4 (by decide) (by decide) (by decide) (by decide) (by decide) (by decide) (by decide))),
    (h d main_arg5).trans ((congrFun (after_ops m d) _).trans (at7 m d main_arg5 (by decide) (by decide) (by decide) (by decide) (by decide) (by decide) (by decide))),
    (h d main_arg6).trans ((congrFun (after_ops m d) _).trans (at7 m d main_arg6 (by decide) (by decide) (by decide) (by decide) (by decide) (by decide) (by decide))),
    (h d main_arg7).trans ((congrFun (after_ops m d) _).trans (at7 m d main_arg7 (by decide) (by decide) (by decide) (by decide) (by decide) (by decide) (by decide))),
    (h d main_arg8).trans ((congrFun (after_ops m d) _).trans (at7 m d main_arg8 (by decide) (by decide) (by decide) (by decide) (by decide) (by decide) (by decide))),
    (h d main_arg9).trans ((congrFun (after_ops m d) _).trans (at7 m d main_arg9 (by decide) (by decide) (by decide) (by decide) (by decide) (by decide) (by decide))),
    (h d main_arg10).trans ((congrFun (after_ops m d) _).trans (at7 m d main_arg10 (by decide) (by decide) (by decide) (by decide) (by decide) (by decide) (by decide))),
    (h d main_arg11).trans ((congrFun (after_ops m d) _).trans (at7 m d main_arg11 (by decide) (by decide) (by decide) (by decide) (by decide) (by decide) (by decide))),
    (h d main_arg12).trans ((congrFun (after_ops m d) _).trans (at7 m d main_arg12 (by decide) (by decide) (by decide) (by decide) (by decide) (by decide) (by decide))),
    (h d main_arg13).trans ((congrFun (after_ops m d) _).trans (at7 m d main_arg13 (by decide) (by decide) (by decide) (by decide) (by decide) (by decide) (by decide))),
    (h d main_arg14).trans ((congrFun (after_ops m d) _).trans (at7 m d main_arg14 (by decide) (by decide) (by decide) (by decide) (by decide) (by decide) (by decide))),
    (h d main_arg15).trans ((congrFun (after_ops m d) _).trans (at7 m d main_arg15 (by decide) (by decide) (by decide) (by decide) (by decide) (by decide) (by decide)))⟩) (run_raw m ρ)

end Cert.ReferenceIdeal.Stages

end
-- ==== Proof.lean ====
/-
  The certificate: a two-kernel message-passing step (edge messages and coordinate weights by one tiled kernel, node
  features by a second, gathers and per-node sums on the host) against its whole-array reference, over the extended
  reals, on the domain where every edge endpoint is a node index.

  Frames. Each kernel program — the word-level one and its idealization, the same text — runs as ten items: the host
  stretches fold their operations over the buffers; each region is entered with its arrays split out of the unscoped
  buffers, runs its pipeline against the body's triple (every load and store a whole staging buffer), and puts the
  arrays back; no item writes an argument. The reference is host operations only: its run read back.
  The idealization rewrote nothing, so `preserves` has nothing to state.
  Values. A region's output array is ONE function of the arrays it is entered with (the blocks are its restrictions to
  consecutive rows, and a row of a network depends only on that row of the input); that function is the
  specification's network, which the reference's `dot_general`, broadcast bias and `x · 1/(1 + e^(-x))` also are.
  The host stages around the regions are the reference's own operations on equal operands; the one difference, the
  fill that `jnp.take` writes where an index is out of range, never fires on the domain.
-/
import proofs.«417115_j7541962572405_1_alg».proof.Defs
import proofs.«417115_j7541962572405_1_alg».proof.Proof.Gen.Kernel
import proofs.«417115_j7541962572405_1_alg».proof.Proof.Gen.KernelIdeal
import proofs.«417115_j7541962572405_1_alg».proof.Proof.Gen.ReferenceIdeal
import proofs.«417115_j7541962572405_1_alg».proof.Proof.Gen.Pre_finite_inputs
import proofs.«417115_j7541962572405_1_alg».proof.Proof.K.Whole
import proofs.«417115_j7541962572405_1_alg».proof.Proof.KI.Whole
import proofs.«417115_j7541962572405_1_alg».proof.Proof.Bridge
import proofs.«417115_j7541962572405_1_alg».proof.Proof.PreRange
import proofs.«417115_j7541962572405_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

theorem frame_k [hK : Cert.Kernel.Facts] [hP : Cert.Pre_finite_inputs.Facts] : Cert.frame_Kernel :=
  fun m ρ _ => Cert.Kernel.Whole.frame m ρ
theorem frame_ki [hK : Cert.KernelIdeal.Facts] [hP : Cert.Pre_finite_inputs.Facts] : Cert.frame_KernelIdeal :=
  fun m ρ _ => Cert.KernelIdeal.Whole.frame m ρ
theorem frame_ri [hR : Cert.ReferenceIdeal.Facts] [hP : Cert.Pre_finite_inputs.Facts] : Cert.frame_ReferenceIdeal :=
  fun m ρ _ => (θ_run Cert.ReferenceIdeal.defs _ _).mono (fun _ h c => (h c).2.2) (Cert.ReferenceIdeal.Stages.run (F := Ideal) m ρ)

/-- The two programs, from memories agreeing on the arguments, end with equal results: the kernel program's two result
    buffers at the end of its run are the reference's two stages of the arguments. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  have hok := fun c => Cert.PreRange.idxOk_of_pre m hpre c
  refine ⟨fun c => Cert.KernelIdeal.Gen.V10 m (Cert.KernelIdeal.Whole.outs m) c Cert.KernelIdeal.main_v30,
    fun c => Cert.KernelIdeal.Gen.V10 m (Cert.KernelIdeal.Whole.outs m) c Cert.KernelIdeal.main_v31, ?_, ?_⟩
  · refine (θ_run Cert.KernelIdeal.defs _ _).mono (fun r h c => ⟨h c _ (Cert.KernelIdeal.Whole.mem_uc Cert.KernelIdeal.main_v30 (by decide)),
      h c _ (Cert.KernelIdeal.Whole.mem_uc Cert.KernelIdeal.main_v31 (by decide)),
      (h c _ (Cert.KernelIdeal.Whole.mem_uc Cert.KernelIdeal.main_arg0 (by decide))).trans (Cert.KernelIdeal.Gen.V10_main_arg0 m (Cert.KernelIdeal.Whole.outs m) c),
      (h c _ (Cert.KernelIdeal.Whole.mem_uc Cert.KernelIdeal.main_arg1 (by decide))).trans (Cert.KernelIdeal.Gen.V10_main_arg1 m (Cert.KernelIdeal.Whole.outs m) c),
      (h c _ (Cert.KernelIdeal.Whole.mem_uc Cert.KernelIdeal.main_arg2 (by decide))).trans (Cert.KernelIdeal.Gen.V10_main_arg2 m (Cert.KernelIdeal.Whole.outs m) c),
      (h c _ (Cert.KernelIdeal.Whole.mem_uc Cert.KernelIdeal.main_arg3 (by decide))).trans (Cert.KernelIdeal.Gen.V10_main_arg3 m (Cert.KernelIdeal.Whole.outs m) c),
      (h c _ (Cert.KernelIdeal.Whole.mem_uc Cert.KernelIdeal.main_arg4 (by decide))).trans (Cert.KernelIdeal.Gen.V10_main_arg4 m (Cert.KernelIdeal.Whole.outs m) c),
      (h c _ (Cert.KernelIdeal.Whole.mem_uc Cert.KernelIdeal.main_arg5 (by decide))).trans (Cert.KernelIdeal.Gen.V10_main_arg5 m (Cert.KernelIdeal.Whole.outs m) c),
      (h c _ (Cert.KernelIdeal.Whole.mem_uc Cert.KernelIdeal.main_arg6 (by decide))).trans (Cert.KernelIdeal.Gen.V10_main_arg6 m (Cert.KernelIdeal.Whole.outs m) c),
      (h c _ (Cert.KernelIdeal.Whole.mem_uc Cert.KernelIdeal.main_arg7 (by decide))).trans (Cert.KernelIdeal.Gen.V10_main_arg7 m (Cert.KernelIdeal.Whole.outs m) c),
      (h c _ (Cert.KernelIdeal.Whole.mem_uc Cert.KernelIdeal.main_arg8 (by decide))).trans (Cert.KernelIdeal.Gen.V10_main_arg8 m (Cert.KernelIdeal.Whole.outs m) c),
      (h c _ (Cert.KernelIdeal.Whole.mem_uc Cert.KernelIdeal.main_arg9 (by decide))).trans (Cert.KernelIdeal.Gen.V10_main_arg9 m (Cert.KernelIdeal.Whole.outs m) c),
      (h c _ (Cert.KernelIdeal.Whole.mem_uc Cert.KernelIdeal.main_arg10 (by decide))).trans (Cert.KernelIdeal.Gen.V10_main_arg10 m (Cert.KernelIdeal.Whole.outs m) c),
      (h c _ (Cert.KernelIdeal.Whole.mem_uc Cert.KernelIdeal.main_arg11 (by decide))).trans (Cert.KernelIdeal.Gen.V10_main_arg11 m (Cert.KernelIdeal.Whole.outs m) c),
      (h c _ (Cert.KernelIdeal.Whole.mem_uc Cert.KernelIdeal.main_arg12 (by decide))).trans (Cert.KernelIdeal.Gen.V10_main_arg12 m (Cert.KernelIdeal.Whole.outs m) c),
      (h c _ (Cert.KernelIdeal.Whole.mem_uc Cert.KernelIdeal.main_arg13 (by decide))).trans (Cert.KernelIdeal.Gen.V10_main_arg13 m (Cert.KernelIdeal.Whole.outs m) c),
      (h c _ (Cert.KernelIdeal.Whole.mem_uc Cert.KernelIdeal.main_arg14 (by decide))).trans (Cert.KernelIdeal.Gen.V10_main_arg14 m (Cert.KernelIdeal.Whole.outs m) c),
      (h c _ (Cert.KernelIdeal.Whole.mem_uc Cert.KernelIdeal.main_arg15 (by decide))).trans (Cert.KernelIdeal.Gen.V10_main_arg15 m (Cert.KernelIdeal.Whole.outs m) c)⟩)
      (Cert.KernelIdeal.Whole.run_all m ρ)
  · refine (θ_run Cert.ReferenceIdeal.defs _ _).mono (fun r h c => ⟨(h c).1.trans ?_, (h c).2.1.trans ?_, (h c).2.2⟩)
      (Cert.ReferenceIdeal.Stages.run (F := Ideal) m' ρ')
    · rw [(hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2.1,
        (hagree c).2.2.2.2.2.2.2.2.2.1, (hagree c).2.2.2.2.2.2.2.2.2.2.1, (hagree c).2.2.2.2.2.2.2.2.2.2.2.1]
      exact (Cert.Bridge.feats_eq m c (hok c)).symm
    · rw [(hagree c).1, (hagree c).2.1, (hagree c).2.2.1, (hagree c).2.2.2.1, (hagree c).2.2.2.2.1,
        (hagree c).2.2.2.2.2.1, (hagree c).2.2.2.2.2.2.1, (hagree c).2.2.2.2.2.2.2.1,
        (hagree c).2.2.2.2.2.2.2.2.2.2.2.2.1, (hagree c).2.2.2.2.2.2.2.2.2.2.2.2.2.1, (hagree c).2.2.2.2.2.2.2.2.2.2.2.2.2.2.1,
        (hagree c).2.2.2.2.2.2.2.2.2.2.2.2.2.2.2]
      exact (Cert.Bridge.pos_eq m c (hok c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
